-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S64x64 : Shape := ⟨2, ![64, 64]⟩
abbrev S64 : Shape := ⟨1, ![64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg14 : FVec F S64 .f32) (main_arg15 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg11 : FVec F S64 .f32) (main_arg12 : FVec F S64x64 .f32) (main_arg13 : FVec F S64 .f32) (main_arg14 : FVec F S64 .f32) (main_arg15 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_v63 main_v67

def fn_part2 {F : FTy → Type} [FloatOps F] (main_arg7 : FVec F S64 .f32) (main_arg8 : FVec F S64x64 .f32) (main_arg9 : FVec F S64 .f32) (main_arg10 : FVec F S64 .f32) (main_arg11 : FVec F S64 .f32) (main_arg12 : FVec F S64x64 .f32) (main_arg13 : FVec F S64 .f32) (main_arg14 : FVec F S64 .f32) (main_arg15 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_v48 main_v49 main_v50

def fn_part1 {F : FTy → Type} [FloatOps F] (main_arg4 : FVec F S64x64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64x64 .f32) (main_arg13 : FVec F S64 .f32) (main_arg14 : FVec F S64 .f32) (main_arg15 : FVec F S64 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4096x64 .f32) (main_arg1 : FVec F S4096x64 .f32) (main_arg2 : FVec F S4096x4096 .f32) (main_arg3 : FVec F S4096x4096 .f32) (main_arg4 : FVec F S64x64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64x64 .f32) (main_arg13 : FVec F S64 .f32) (main_arg14 : FVec F S64 .f32) (main_arg15 : FVec F S64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4096x64 : Shape := ⟨2, ![4096, 64]⟩
abbrev S4096x4096 : Shape := ⟨2, ![4096, 4096]⟩
abbrev S64x64 : Shape := ⟨2, ![64, 64]⟩
abbrev S64 : Shape := ⟨1, ![64]⟩
abbrev S1x64 : Shape := ⟨2, ![1, 64]⟩
abbrev S64x4096 : Shape := ⟨2, ![64, 4096]⟩
abbrev S64x256 : Shape := ⟨2, ![64, 256]⟩
abbrev S64x1x256 : Shape := ⟨3, ![64, 1, 256]⟩
abbrev S1x64x256 : Shape := ⟨3, ![1, 64, 256]⟩
abbrev S64x64x256 : Shape := ⟨3, ![64, 64, 256]⟩
abbrev S64x8x256 : Shape := ⟨3, ![64, 8, 256]⟩
abbrev S64x4x256 : Shape := ⟨3, ![64, 4, 256]⟩
abbrev S64x2x256 : Shape := ⟨3, ![64, 2, 256]⟩
abbrev S32x16x8x64 : Shape := ⟨4, ![32, 16, 8, 64]⟩
abbrev S1x16x8x64 : Shape := ⟨4, ![1, 16, 8, 64]⟩
abbrev S16x8x64 : Shape := ⟨3, ![16, 8, 64]⟩
abbrev S1x8x64 : Shape := ⟨3, ![1, 8, 64]⟩
abbrev S8x64 : Shape := ⟨2, ![8, 64]⟩
abbrev S4x64 : Shape := ⟨2, ![4, 64]⟩
abbrev S2x64 : Shape := ⟨2, ![2, 64]⟩
abbrev S512x4096 : Shape := ⟨2, ![512, 4096]⟩
abbrev S64x512 : Shape := ⟨2, ![64, 512]⟩

abbrev nBuf : Space → Nat
  | .hbm => 41
  | .vmem => 34
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x4096, .f32⟩
  | .hbm, ⟨3, _⟩ => ⟨S4096x4096, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S64x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S64x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S64x4096, .f32⟩
  | .hbm, ⟨29, _⟩ => ⟨S64x4096, .f32⟩
  | .hbm, ⟨30, _⟩ => ⟨S64x4096, .f32⟩
  | .hbm, ⟨31, _⟩ => ⟨S4096x64, .f32⟩
  | .hbm, ⟨32, _⟩ => ⟨S4096x64, .f32⟩
  | .hbm, ⟨33, _⟩ => ⟨S64x4096, .f32⟩
  | .hbm, ⟨34, _⟩ => ⟨S64x4096, .f32⟩
  | .hbm, ⟨35, _⟩ => ⟨S4096x64, .f32⟩
  | .hbm, ⟨36, _⟩ => ⟨S4096x64, .f32⟩
  | .hbm, ⟨37, _⟩ => ⟨S64x4096, .f32⟩
  | .hbm, ⟨38, _⟩ => ⟨S64x4096, .f32⟩
  | .hbm, ⟨39, _⟩ => ⟨S4096x64, .f32⟩
  | .hbm, ⟨40, _⟩ => ⟨S4096x64, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S4096x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S4096x64, .f32⟩
  | .local _ .vmem, ⟨12, _⟩ => ⟨S64x4096, .f32⟩
  | .local _ .vmem, ⟨13, _⟩ => ⟨S512x4096, .f32⟩
  | .local _ .vmem, ⟨14, _⟩ => ⟨S512x4096, .f32⟩
  | .local _ .vmem, ⟨15, _⟩ => ⟨S64x512, .f32⟩
  | .local _ .vmem, ⟨16, _⟩ => ⟨S64x512, .f32⟩
  | .local _ .vmem, ⟨17, _⟩ => ⟨S4096x64, .f32⟩
  | .local _ .vmem, ⟨18, _⟩ => ⟨S64x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S4096x64, .f32⟩
  | .local _ .vmem, ⟨23, _⟩ => ⟨S64x4096, .f32⟩
  | .local _ .vmem, ⟨24, _⟩ => ⟨S512x4096, .f32⟩
  | .local _ .vmem, ⟨25, _⟩ => ⟨S512x4096, .f32⟩
  | .local _ .vmem, ⟨26, _⟩ => ⟨S64x512, .f32⟩
  | .local _ .vmem, ⟨27, _⟩ => ⟨S64x512, .f32⟩
  | .local _ .vmem, ⟨28, _⟩ => ⟨S4096x64, .f32⟩
  | .local _ .vmem, ⟨29, _⟩ => ⟨S64x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S4096x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v12 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc4_stg0_0 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg4_0 : Ref sig .tc := ⟨.vmem, 32, rfl⟩
abbrev cc5_stg5_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem2_0 : DmaSem sig := 19
abbrev cc3_sem3_0 : DmaSem sig := 20
abbrev cc3_sem4_0 : DmaSem sig := 21
abbrev cc3_sem5_0 : DmaSem sig := 22
abbrev cc4_sem0_0 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem1_0 : DmaSem sig := 29
abbrev cc5_sem2_0 : DmaSem sig := 30
abbrev cc5_sem3_0 : DmaSem sig := 31
abbrev cc5_sem4_0 : DmaSem sig := 32
abbrev cc5_sem5_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .vmem S4096x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S4096x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S64x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := .none

abbrev stage3_0 : Fin 1 → Memref sig .tc .vmem S4096x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S4096x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S64x4096 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S512x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S64x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := .none

abbrev stage5_0 : Fin 1 → Memref sig .tc .vmem S4096x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S4096x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

class Facts₀ : Prop where
  transposes_S64x64_S64x64_1_0 : S64x64.Transposes [1, 0] S64x64
  shapeCasts_S64_S1x64 : S64.ShapeCasts S1x64
  transposes_S4096x64_S64x4096_1_0 : S4096x64.Transposes [1, 0] S64x4096
  transposes_S64x4096_S4096x64_1_0 : S64x4096.Transposes [1, 0] S4096x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S64x256_S64x1x256 : S64x256.ShapeCasts S64x1x256
  shapeCasts_S64x256_S1x64x256 : S64x256.ShapeCasts S1x64x256
  broadcasts_S64x1x256_S64x64x256 : S64x1x256.Broadcasts S64x64x256
  broadcasts_S1x64x256_S64x64x256 : S1x64x256.Broadcasts S64x64x256
  reduces_S64x64x256_S64x256 : S64x64x256.Reduces [1] S64x256
  slices_S64x64x256_o0_0_0_S64x8x256 : S64x64x256.Slices ![0, 0, 0] S64x8x256
  slices_S64x64x256_o0_8_0_S64x8x256 : S64x64x256.Slices ![0, 8, 0] S64x8x256
  slices_S64x64x256_o0_16_0_S64x8x256 : S64x64x256.Slices ![0, 16, 0] S64x8x256
  slices_S64x64x256_o0_24_0_S64x8x256 : S64x64x256.Slices ![0, 24, 0] S64x8x256
  slices_S64x64x256_o0_32_0_S64x8x256 : S64x64x256.Slices ![0, 32, 0] S64x8x256
  slices_S64x64x256_o0_40_0_S64x8x256 : S64x64x256.Slices ![0, 40, 0] S64x8x256
  slices_S64x64x256_o0_48_0_S64x8x256 : S64x64x256.Slices ![0, 48, 0] S64x8x256
  slices_S64x64x256_o0_56_0_S64x8x256 : S64x64x256.Slices ![0, 56, 0] S64x8x256
  slices_S64x8x256_o0_0_0_S64x4x256 : S64x8x256.Slices ![0, 0, 0] S64x4x256
  slices_S64x8x256_o0_4_0_S64x4x256 : S64x8x256.Slices ![0, 4, 0] S64x4x256
  slices_S64x4x256_o0_0_0_S64x2x256 : S64x4x256.Slices ![0, 0, 0] S64x2x256
  slices_S64x4x256_o0_2_0_S64x2x256 : S64x4x256.Slices ![0, 2, 0] S64x2x256
  slices_S64x2x256_o0_0_0_S64x1x256 : S64x2x256.Slices ![0, 0, 0] S64x1x256
  shapeCasts_S64x1x256_S64x256 : S64x1x256.ShapeCasts S64x256
  slices_S64x2x256_o0_1_0_S64x1x256 : S64x2x256.Slices ![0, 1, 0] S64x1x256
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  shapeCasts_S4096x64_S32x16x8x64 : S4096x64.ShapeCasts S32x16x8x64
  slices_S32x16x8x64_o0_0_0_0_S1x16x8x64 : S32x16x8x64.Slices ![0, 0, 0, 0] S1x16x8x64
  shapeCasts_S1x16x8x64_S16x8x64 : S1x16x8x64.ShapeCasts S16x8x64
  slices_S32x16x8x64_o1_0_0_0_S1x16x8x64 : S32x16x8x64.Slices ![1, 0, 0, 0] S1x16x8x64
  slices_S32x16x8x64_o2_0_0_0_S1x16x8x64 : S32x16x8x64.Slices ![2, 0, 0, 0] S1x16x8x64
  slices_S32x16x8x64_o3_0_0_0_S1x16x8x64 : S32x16x8x64.Slices ![3, 0, 0, 0] S1x16x8x64
  slices_S32x16x8x64_o4_0_0_0_S1x16x8x64 : S32x16x8x64.Slices ![4, 0, 0, 0] S1x16x8x64
  slices_S32x16x8x64_o5_0_0_0_S1x16x8x64 : S32x16x8x64.Slices ![5, 0, 0, 0] S1x16x8x64
  slices_S32x16x8x64_o6_0_0_0_S1x16x8x64 : S32x16x8x64.Slices ![6, 0, 0, 0] S1x16x8x64
  slices_S32x16x8x64_o7_0_0_0_S1x16x8x64 : S32x16x8x64.Slices ![7, 0, 0, 0] S1x16x8x64
  slices_S32x16x8x64_o8_0_0_0_S1x16x8x64 : S32x16x8x64.Slices ![8, 0, 0, 0] S1x16x8x64
  slices_S32x16x8x64_o9_0_0_0_S1x16x8x64 : S32x16x8x64.Slices ![9, 0, 0, 0] S1x16x8x64
  slices_S32x16x8x64_o10_0_0_0_S1x16x8x64 : S32x16x8x64.Slices ![10, 0, 0, 0] S1x16x8x64
  slices_S32x16x8x64_o11_0_0_0_S1x16x8x64 : S32x16x8x64.Slices ![11, 0, 0, 0] S1x16x8x64
  slices_S32x16x8x64_o12_0_0_0_S1x16x8x64 : S32x16x8x64.Slices ![12, 0, 0, 0] S1x16x8x64
  slices_S32x16x8x64_o13_0_0_0_S1x16x8x64 : S32x16x8x64.Slices ![13, 0, 0, 0] S1x16x8x64
  slices_S32x16x8x64_o14_0_0_0_S1x16x8x64 : S32x16x8x64.Slices ![14, 0, 0, 0] S1x16x8x64
  slices_S32x16x8x64_o15_0_0_0_S1x16x8x64 : S32x16x8x64.Slices ![15, 0, 0, 0] S1x16x8x64
  slices_S32x16x8x64_o16_0_0_0_S1x16x8x64 : S32x16x8x64.Slices ![16, 0, 0, 0] S1x16x8x64
  slices_S32x16x8x64_o17_0_0_0_S1x16x8x64 : S32x16x8x64.Slices ![17, 0, 0, 0] S1x16x8x64
  slices_S32x16x8x64_o18_0_0_0_S1x16x8x64 : S32x16x8x64.Slices ![18, 0, 0, 0] S1x16x8x64
  slices_S32x16x8x64_o19_0_0_0_S1x16x8x64 : S32x16x8x64.Slices ![19, 0, 0, 0] S1x16x8x64
  slices_S32x16x8x64_o20_0_0_0_S1x16x8x64 : S32x16x8x64.Slices ![20, 0, 0, 0] S1x16x8x64
  slices_S32x16x8x64_o21_0_0_0_S1x16x8x64 : S32x16x8x64.Slices ![21, 0, 0, 0] S1x16x8x64
  slices_S32x16x8x64_o22_0_0_0_S1x16x8x64 : S32x16x8x64.Slices ![22, 0, 0, 0] S1x16x8x64
  slices_S32x16x8x64_o23_0_0_0_S1x16x8x64 : S32x16x8x64.Slices ![23, 0, 0, 0] S1x16x8x64
  slices_S32x16x8x64_o24_0_0_0_S1x16x8x64 : S32x16x8x64.Slices ![24, 0, 0, 0] S1x16x8x64
  slices_S32x16x8x64_o25_0_0_0_S1x16x8x64 : S32x16x8x64.Slices ![25, 0, 0, 0] S1x16x8x64
  slices_S32x16x8x64_o26_0_0_0_S1x16x8x64 : S32x16x8x64.Slices ![26, 0, 0, 0] S1x16x8x64
  slices_S32x16x8x64_o27_0_0_0_S1x16x8x64 : S32x16x8x64.Slices ![27, 0, 0, 0] S1x16x8x64
  slices_S32x16x8x64_o28_0_0_0_S1x16x8x64 : S32x16x8x64.Slices ![28, 0, 0, 0] S1x16x8x64
  slices_S32x16x8x64_o29_0_0_0_S1x16x8x64 : S32x16x8x64.Slices ![29, 0, 0, 0] S1x16x8x64
  slices_S32x16x8x64_o30_0_0_0_S1x16x8x64 : S32x16x8x64.Slices ![30, 0, 0, 0] S1x16x8x64
  slices_S32x16x8x64_o31_0_0_0_S1x16x8x64 : S32x16x8x64.Slices ![31, 0, 0, 0] S1x16x8x64
  slices_S16x8x64_o0_0_0_S1x8x64 : S16x8x64.Slices ![0, 0, 0] S1x8x64
  shapeCasts_S1x8x64_S8x64 : S1x8x64.ShapeCasts S8x64
  slices_S16x8x64_o1_0_0_S1x8x64 : S16x8x64.Slices ![1, 0, 0] S1x8x64
  slices_S16x8x64_o2_0_0_S1x8x64 : S16x8x64.Slices ![2, 0, 0] S1x8x64
  slices_S16x8x64_o3_0_0_S1x8x64 : S16x8x64.Slices ![3, 0, 0] S1x8x64
  slices_S16x8x64_o4_0_0_S1x8x64 : S16x8x64.Slices ![4, 0, 0] S1x8x64
  slices_S16x8x64_o5_0_0_S1x8x64 : S16x8x64.Slices ![5, 0, 0] S1x8x64
  slices_S16x8x64_o6_0_0_S1x8x64 : S16x8x64.Slices ![6, 0, 0] S1x8x64
  slices_S16x8x64_o7_0_0_S1x8x64 : S16x8x64.Slices ![7, 0, 0] S1x8x64
  slices_S16x8x64_o8_0_0_S1x8x64 : S16x8x64.Slices ![8, 0, 0] S1x8x64
  slices_S16x8x64_o9_0_0_S1x8x64 : S16x8x64.Slices ![9, 0, 0] S1x8x64
  slices_S16x8x64_o10_0_0_S1x8x64 : S16x8x64.Slices ![10, 0, 0] S1x8x64
  slices_S16x8x64_o11_0_0_S1x8x64 : S16x8x64.Slices ![11, 0, 0] S1x8x64
  slices_S16x8x64_o12_0_0_S1x8x64 : S16x8x64.Slices ![12, 0, 0] S1x8x64
  slices_S16x8x64_o13_0_0_S1x8x64 : S16x8x64.Slices ![13, 0, 0] S1x8x64
  slices_S16x8x64_o14_0_0_S1x8x64 : S16x8x64.Slices ![14, 0, 0] S1x8x64
  slices_S16x8x64_o15_0_0_S1x8x64 : S16x8x64.Slices ![15, 0, 0] S1x8x64
  slices_S8x64_o0_0_S4x64 : S8x64.Slices ![0, 0] S4x64
  slices_S8x64_o4_0_S4x64 : S8x64.Slices ![4, 0] S4x64
  slices_S4x64_o0_0_S2x64 : S4x64.Slices ![0, 0] S2x64
  slices_S4x64_o2_0_S2x64 : S4x64.Slices ![2, 0] S2x64
  slices_S2x64_o0_0_S1x64 : S2x64.Slices ![0, 0] S1x64
  slices_S2x64_o1_0_S1x64 : S2x64.Slices ![1, 0] S1x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S512x4096_S512x4096_0_0 : ∀ a, (![0, 0] : Fin 2 → Nat) a + S512x4096.size a ≤ S512x4096.size a
  h_S512x4096 : 0 < S512x4096.numel
  inb_S64x512_S64x512_0_0 : ∀ a, (![0, 0] : Fin 2 → Nat) a + S64x512.size a ≤ S64x512.size a
  h_S64x512 : 0 < S64x512.numel
  dot_S4096x64_S64x64_S4096x64_1_0_0_1_n_n_wf : DotDims.WF S4096x64 S64x64 S4096x64 [1] [0] [0] [1] [] []
  dot_S64x4096_S512x4096_S64x512_1_1_0_0_n_n_wf : DotDims.WF S64x4096 S512x4096 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S64x4096.size a
  hwx0_0 : ∀ i : grid0.Coords, EltTy.bits .f32 = 32 ∨ (Rect.block (s := S64x4096) S64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x4096.size a
  hwx0_1 : ∀ i : grid0.Coords, EltTy.bits .f32 = 32 ∨ (Rect.block (s := S64x4096) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x4096.size a
  hwx0_2 : ∀ i : grid0.Coords, EltTy.bits .f32 = 32 ∨ (Rect.block (s := S64x4096) S64x256.size (cc0_transform_2 i) (hinb0_2 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x4096.size a ≤ S64x4096.size a
  hwx2_0 : ∀ i : grid2.Coords, EltTy.bits .f32 = 32 ∨ (Rect.block (s := S64x4096) S64x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S4096x4096.size a
  hwx2_1 : ∀ i : grid2.Coords, EltTy.bits .f32 = 32 ∨ (Rect.block (s := S4096x4096) S512x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x512.size a ≤ S64x4096.size a
  hwx2_2 : ∀ i : grid2.Coords, EltTy.bits .f32 = 32 ∨ (Rect.block (s := S64x4096) S64x512.size (cc2_transform_2 i) (hinb2_2 i)).WholeWords (EltTy.packing .f32)
  hstage3_0 : ∀ j, (stage3_0 j).IsWhole
  hstage3_1 : ∀ j, (stage3_1 j).IsWhole
  hstage3_2 : ∀ j, (stage3_2 j).IsWhole
  hstage3_3 : ∀ j, (stage3_3 j).IsWhole
  hstage3_4 : ∀ j, (stage3_4 j).IsWhole
  hstage3_5 : ∀ j, (stage3_5 j).IsWhole
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x4096.size a ≤ S64x4096.size a
  hwx4_0 : ∀ i : grid4.Coords, EltTy.bits .f32 = 32 ∨ (Rect.block (s := S64x4096) S64x4096.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x4096.size a ≤ S4096x4096.size a
  hwx4_1 : ∀ i : grid4.Coords, EltTy.bits .f32 = 32 ∨ (Rect.block (s := S4096x4096) S512x4096.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S64x512.size a ≤ S64x4096.size a
  hwx4_2 : ∀ i : grid4.Coords, EltTy.bits .f32 = 32 ∨ (Rect.block (s := S64x4096) S64x512.size (cc4_transform_2 i) (hinb4_2 i)).WholeWords (EltTy.packing .f32)
  hstage5_0 : ∀ j, (stage5_0 j).IsWhole
  hstage5_1 : ∀ j, (stage5_1 j).IsWhole
  hstage5_2 : ∀ j, (stage5_2 j).IsWhole
  hstage5_3 : ∀ j, (stage5_3 j).IsWhole
  hstage5_4 : ∀ j, (stage5_4 j).IsWhole
  hstage5_5 : ∀ j, (stage5_5 j).IsWhole

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf

abbrev win0_0 : Pipeline.Window sig grid0 :=
  Pipeline.Window.ofSpec (Memref.whole main_call0_v0) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S64x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.whole (Memref.whole main_call0_v3) false false (stage1_0 0) (sem1_0 0) (Memref.isWhole_whole _) (hstage1_0 0)

abbrev win1_1 : Pipeline.Window sig grid1 :=
  Pipeline.Window.whole (Memref.whole main_v0) false false (stage1_1 0) (sem1_1 0) (Memref.isWhole_whole _) (hstage1_1 0)

abbrev win1_2 : Pipeline.Window sig grid1 :=
  Pipeline.Window.whole (Memref.whole main_v1) false false (stage1_2 0) (sem1_2 0) (Memref.isWhole_whole _) (hstage1_2 0)

abbrev win1_3 : Pipeline.Window sig grid1 :=
  Pipeline.Window.whole (Memref.whole main_v2) false false (stage1_3 0) (sem1_3 0) (Memref.isWhole_whole _) (hstage1_3 0)

abbrev win1_4 : Pipeline.Window sig grid1 :=
  Pipeline.Window.whole (Memref.whole main_v3) false false (stage1_4 0) (sem1_4 0) (Memref.isWhole_whole _) (hstage1_4 0)

abbrev win1_5 : Pipeline.Window sig grid1 :=
  Pipeline.Window.whole (Memref.whole main_call0_v4) true false (stage1_5 0) (sem1_5 0) (Memref.isWhole_whole _) (hstage1_5 0)

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v5) S64x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v6) S64x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.whole (Memref.whole main_call0_v7) false false (stage3_0 0) (sem3_0 0) (Memref.isWhole_whole _) (hstage3_0 0)

abbrev win3_1 : Pipeline.Window sig grid3 :=
  Pipeline.Window.whole (Memref.whole main_v4) false false (stage3_1 0) (sem3_1 0) (Memref.isWhole_whole _) (hstage3_1 0)

abbrev win3_2 : Pipeline.Window sig grid3 :=
  Pipeline.Window.whole (Memref.whole main_v5) false false (stage3_2 0) (sem3_2 0) (Memref.isWhole_whole _) (hstage3_2 0)

abbrev win3_3 : Pipeline.Window sig grid3 :=
  Pipeline.Window.whole (Memref.whole main_v6) false false (stage3_3 0) (sem3_3 0) (Memref.isWhole_whole _) (hstage3_3 0)

abbrev win3_4 : Pipeline.Window sig grid3 :=
  Pipeline.Window.whole (Memref.whole main_v7) false false (stage3_4 0) (sem3_4 0) (Memref.isWhole_whole _) (hstage3_4 0)

abbrev win3_5 : Pipeline.Window sig grid3 :=
  Pipeline.Window.whole (Memref.whole main_call0_v8) true false (stage3_5 0) (sem3_5 0) (Memref.isWhole_whole _) (hstage3_5 0)

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_call0_v9) S64x4096.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg3) S512x4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v10) S64x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.whole (Memref.whole main_call0_v11) false false (stage5_0 0) (sem5_0 0) (Memref.isWhole_whole _) (hstage5_0 0)

abbrev win5_1 : Pipeline.Window sig grid5 :=
  Pipeline.Window.whole (Memref.whole main_v8) false false (stage5_1 0) (sem5_1 0) (Memref.isWhole_whole _) (hstage5_1 0)

abbrev win5_2 : Pipeline.Window sig grid5 :=
  Pipeline.Window.whole (Memref.whole main_v9) false false (stage5_2 0) (sem5_2 0) (Memref.isWhole_whole _) (hstage5_2 0)

abbrev win5_3 : Pipeline.Window sig grid5 :=
  Pipeline.Window.whole (Memref.whole main_v10) false false (stage5_3 0) (sem5_3 0) (Memref.isWhole_whole _) (hstage5_3 0)

abbrev win5_4 : Pipeline.Window sig grid5 :=
  Pipeline.Window.whole (Memref.whole main_v11) false false (stage5_4 0) (sem5_4 0) (Memref.isWhole_whole _) (hstage5_4 0)

abbrev win5_5 : Pipeline.Window sig grid5 :=
  Pipeline.Window.whole (Memref.whole main_v12) true false (stage5_5 0) (sem5_5 0) (Memref.isWhole_whole _) (hstage5_5 0)

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S4096x64 : Shape := ⟨2, ![4096, 64]⟩
abbrev S4096x4096 : Shape := ⟨2, ![4096, 4096]⟩
abbrev S64x64 : Shape := ⟨2, ![64, 64]⟩
abbrev S64 : Shape := ⟨1, ![64]⟩
abbrev S4096x64x1 : Shape := ⟨3, ![4096, 64, 1]⟩
abbrev S4096x1x64 : Shape := ⟨3, ![4096, 1, 64]⟩
abbrev S4096x64x64 : Shape := ⟨3, ![4096, 64, 64]⟩
abbrev S_ : Shape := ⟨0, ![]⟩
abbrev S1x64 : Shape := ⟨2, ![1, 64]⟩

abbrev nBuf : Space → Nat
  | .hbm => 196
  | .vmem => 0
  | .smem => 0
  | _ => 0

abbrev hbmTy0_0 (i : Nat) : BufTy := match i % 128 with
  | 0 => ⟨S4096x64, .f32⟩
  | 1 => ⟨S4096x64, .f32⟩
  | 2 => ⟨S4096x4096, .f32⟩
  | 3 => ⟨S4096x4096, .f32⟩
  | 4 => ⟨S64x64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S64x64, .f32⟩
  | 13 => ⟨S64, .f32⟩
  | 14 => ⟨S64, .f32⟩
  | 15 => ⟨S64, .f32⟩
  | 16 => ⟨S4096x64x1, .f32⟩
  | 17 => ⟨S4096x1x64, .f32⟩
  | 18 => ⟨S4096x64x64, .f32⟩
  | 19 => ⟨S_, .f32⟩
  | 20 => ⟨S4096x64x64, .f32⟩
  | 21 => ⟨S4096x64x64, .f32⟩
  | 22 => ⟨S_, .f32⟩
  | 23 => ⟨S4096x64, .f32⟩
  | 24 => ⟨S_, .f32⟩
  | 25 => ⟨S4096x64, .f32⟩
  | 26 => ⟨S4096x64, .f32⟩
  | 27 => ⟨S4096x64x1, .f32⟩
  | 28 => ⟨S4096x64x64, .f32⟩
  | 29 => ⟨S4096x64x64, .f32⟩
  | 30 => ⟨S4096x64x64, .f32⟩
  | 31 => ⟨S_, .f32⟩
  | 32 => ⟨S4096x64, .f32⟩
  | 33 => ⟨S4096x64x1, .f32⟩
  | 34 => ⟨S4096x64x64, .f32⟩
  | 35 => ⟨S4096x64x64, .f32⟩
  | 36 => ⟨S_, .f32⟩
  | 37 => ⟨S4096x64, .f32⟩
  | 38 => ⟨S64x64, .f32⟩
  | 39 => ⟨S4096x64, .f32⟩
  | 40 => ⟨S1x64, .f32⟩
  | 41 => ⟨S4096x64, .f32⟩
  | 42 => ⟨S4096x64, .f32⟩
  | 43 => ⟨S_, .f32⟩
  | 44 => ⟨S64, .f32⟩
  | 45 => ⟨S_, .f32⟩
  | 46 => ⟨S64, .f32⟩
  | 47 => ⟨S64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S4096x64, .f32⟩
  | 56 => ⟨S4096x64, .f32⟩
  | 57 => ⟨S4096x64, .f32⟩
  | 58 => ⟨S_, .f32⟩
  | 59 => ⟨S_, .f32⟩
  | 60 => ⟨S_, .f32⟩
  | 61 => ⟨S_, .f32⟩
  | 62 => ⟨S64, .f32⟩
  | 63 => ⟨S64, .f32⟩
  | 64 => ⟨S64, .f32⟩
  | 65 => ⟨S_, .f32⟩
  | 66 => ⟨S_, .i1⟩
  | 67 => ⟨S_, .f32⟩
  | 68 => ⟨S_, .f32⟩
  | 69 => ⟨S64, .f32⟩
  | 70 => ⟨S64, .f32⟩
  | 71 => ⟨S1x64, .f32⟩
  | 72 => ⟨S4096x64, .f32⟩
  | 73 => ⟨S4096x64, .f32⟩
  | 74 => ⟨S_, .f32⟩
  | 75 => ⟨S64, .f32⟩
  | 76 => ⟨S64, .f32⟩
  | 77 => ⟨S64, .f32⟩
  | 78 => ⟨S1x64, .f32⟩
  | 79 => ⟨S4096x64, .f32⟩
  | 80 => ⟨S4096x64, .f32⟩
  | 81 => ⟨S1x64, .f32⟩
  | 82 => ⟨S4096x64, .f32⟩
  | 83 => ⟨S4096x64, .f32⟩
  | 84 => ⟨S1x64, .f32⟩
  | 85 => ⟨S4096x64, .f32⟩
  | 86 => ⟨S4096x64, .f32⟩
  | 87 => ⟨S_, .f32⟩
  | 88 => ⟨S4096x64, .f32⟩
  | 89 => ⟨S4096x64, .f32⟩
  | 90 => ⟨S4096x64, .f32⟩
  | 91 => ⟨S64x64, .f32⟩
  | 92 => ⟨S4096x64, .f32⟩
  | 93 => ⟨S1x64, .f32⟩
  | 94 => ⟨S4096x64, .f32⟩
  | 95 => ⟨S4096x64, .f32⟩
  | 96 => ⟨S_, .f32⟩
  | 97 => ⟨S64, .f32⟩
  | 98 => ⟨S_, .f32⟩
  | 99 => ⟨S64, .f32⟩
  | 100 => ⟨S64, .f32⟩
  | 101 => ⟨S_, .i32⟩
  | 102 => ⟨S_, .f32⟩
  | 103 => ⟨S64, .f32⟩
  | 104 => ⟨S1x64, .f32⟩
  | 105 => ⟨S_, .f32⟩
  | 106 => ⟨S1x64, .f32⟩
  | 107 => ⟨S1x64, .f32⟩
  | 108 => ⟨S4096x64, .f32⟩
  | 109 => ⟨S4096x64, .f32⟩
  | 110 => ⟨S4096x64, .f32⟩
  | 111 => ⟨S_, .f32⟩
  | 112 => ⟨S_, .f32⟩
  | 113 => ⟨S_, .f32⟩
  | 114 => ⟨S_, .f32⟩
  | 115 => ⟨S64, .f32⟩
  | 116 => ⟨S64, .f32⟩
  | 117 => ⟨S64, .f32⟩
  | 118 => ⟨S_, .f32⟩
  | 119 => ⟨S_, .i1⟩
  | 120 => ⟨S_, .f32⟩
  | 121 => ⟨S_, .f32⟩
  | 122 => ⟨S64, .f32⟩
  | 123 => ⟨S64, .f32⟩
  | 124 => ⟨S1x64, .f32⟩
  | 125 => ⟨S4096x64, .f32⟩
  | 126 => ⟨S4096x64, .f32⟩
  | 127 => ⟨S_, .f32⟩
  | _ => ⟨S4096x64, .f32⟩

abbrev hbmTy0_1 (i : Nat) : BufTy := match i % 128 with
  | 0 => ⟨S64, .f32⟩
  | 1 => ⟨S64, .f32⟩
  | 2 => ⟨S64, .f32⟩
  | 3 => ⟨S1x64, .f32⟩
  | 4 => ⟨S4096x64, .f32⟩
  | 5 => ⟨S4096x64, .f32⟩
  | 6 => ⟨S1x64, .f32⟩
  | 7 => ⟨S4096x64, .f32⟩
  | 8 => ⟨S4096x64, .f32⟩
  | 9 => ⟨S1x64, .f32⟩
  | 10 => ⟨S4096x64, .f32⟩
  | 11 => ⟨S4096x64, .f32⟩
  | 12 => ⟨S_, .f32⟩
  | 13 => ⟨S4096x64, .f32⟩
  | 14 => ⟨S4096x64, .f32⟩
  | 15 => ⟨S4096x64, .f32⟩
  | 16 => ⟨S64x64, .f32⟩
  | 17 => ⟨S4096x64, .f32⟩
  | 18 => ⟨S1x64, .f32⟩
  | 19 => ⟨S4096x64, .f32⟩
  | 20 => ⟨S4096x64, .f32⟩
  | 21 => ⟨S_, .f32⟩
  | 22 => ⟨S64, .f32⟩
  | 23 => ⟨S_, .f32⟩
  | 24 => ⟨S64, .f32⟩
  | 25 => ⟨S64, .f32⟩
  | 26 => ⟨S_, .i32⟩
  | 27 => ⟨S_, .f32⟩
  | 28 => ⟨S64, .f32⟩
  | 29 => ⟨S1x64, .f32⟩
  | 30 => ⟨S_, .f32⟩
  | 31 => ⟨S1x64, .f32⟩
  | 32 => ⟨S1x64, .f32⟩
  | 33 => ⟨S4096x64, .f32⟩
  | 34 => ⟨S4096x64, .f32⟩
  | 35 => ⟨S4096x64, .f32⟩
  | 36 => ⟨S_, .f32⟩
  | 37 => ⟨S_, .f32⟩
  | 38 => ⟨S_, .f32⟩
  | 39 => ⟨S_, .f32⟩
  | 40 => ⟨S64, .f32⟩
  | 41 => ⟨S64, .f32⟩
  | 42 => ⟨S64, .f32⟩
  | 43 => ⟨S_, .f32⟩
  | 44 => ⟨S_, .i1⟩
  | 45 => ⟨S_, .f32⟩
  | 46 => ⟨S_, .f32⟩
  | 47 => ⟨S64, .f32⟩
  | 48 => ⟨S64, .f32⟩
  | 49 => ⟨S1x64, .f32⟩
  | 50 => ⟨S4096x64, .f32⟩
  | 51 => ⟨S4096x64, .f32⟩
  | 52 => ⟨S_, .f32⟩
  | 53 => ⟨S64, .f32⟩
  | 54 => ⟨S64, .f32⟩
  | 55 => ⟨S64, .f32⟩
  | 56 => ⟨S1x64, .f32⟩
  | 57 => ⟨S4096x64, .f32⟩
  | 58 => ⟨S4096x64, .f32⟩
  | 59 => ⟨S1x64, .f32⟩
  | 60 => ⟨S4096x64, .f32⟩
  | 61 => ⟨S4096x64, .f32⟩
  | 62 => ⟨S1x64, .f32⟩
  | 63 => ⟨S4096x64, .f32⟩
  | 64 => ⟨S4096x64, .f32⟩
  | 65 => ⟨S_, .f32⟩
  | 66 => ⟨S4096x64, .f32⟩
  | 67 => ⟨S4096x64, .f32⟩
  | _ => ⟨S4096x64, .f32⟩

abbrev hbmTy (i : Nat) : BufTy := match i / 128 with
  | 0 => hbmTy0_0 i
  | 1 => hbmTy0_1 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_c : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_cst_6 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_call1_cst : Ref sig .tc := ⟨.hbm, 87, rfl⟩
abbrev main_call1_v0 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_cst_7 : Ref sig .tc := ⟨.hbm, 96, rfl⟩
abbrev main_v48 : Ref sig .tc := ⟨.hbm, 97, rfl⟩
abbrev main_cst_8 : Ref sig .tc := ⟨.hbm, 98, rfl⟩
abbrev main_v49 : Ref sig .tc := ⟨.hbm, 99, rfl⟩
abbrev main_v50 : Ref sig .tc := ⟨.hbm, 100, rfl⟩
abbrev main_c_9 : Ref sig .tc := ⟨.hbm, 101, rfl⟩
abbrev main_call2_cst : Ref sig .tc := ⟨.hbm, 102, rfl⟩
abbrev main_call2_v0 : Ref sig .tc := ⟨.hbm, 103, rfl⟩
abbrev main_call2_v1 : Ref sig .tc := ⟨.hbm, 104, rfl⟩
abbrev main_call2_cst_0 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_v6 : Ref sig .tc := ⟨.hbm, 110, rfl⟩
abbrev main_call2_v7 : Ref sig .tc := ⟨.hbm, 111, rfl⟩
abbrev main_call2_cst_1 : Ref sig .tc := ⟨.hbm, 112, rfl⟩
abbrev main_call2_v8 : Ref sig .tc := ⟨.hbm, 113, rfl⟩
abbrev main_call2_cst_2 : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_cst_3 : Ref sig .tc := ⟨.hbm, 118, rfl⟩
abbrev main_call2_v12 : Ref sig .tc := ⟨.hbm, 119, rfl⟩
abbrev main_call2_cst_4 : Ref sig .tc := ⟨.hbm, 120, rfl⟩
abbrev main_call2_call0_v0 : Ref sig .tc := ⟨.hbm, 121, rfl⟩
abbrev main_call2_call0_v1 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_cst_10 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_call3_cst : Ref sig .tc := ⟨.hbm, 140, rfl⟩
abbrev main_call3_v0 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_cst_11 : Ref sig .tc := ⟨.hbm, 149, rfl⟩
abbrev main_v74 : Ref sig .tc := ⟨.hbm, 150, rfl⟩
abbrev main_cst_12 : Ref sig .tc := ⟨.hbm, 151, rfl⟩
abbrev main_v75 : Ref sig .tc := ⟨.hbm, 152, rfl⟩
abbrev main_v76 : Ref sig .tc := ⟨.hbm, 153, rfl⟩
abbrev main_c_13 : Ref sig .tc := ⟨.hbm, 154, rfl⟩
abbrev main_call4_cst : Ref sig .tc := ⟨.hbm, 155, rfl⟩
abbrev main_call4_v0 : Ref sig .tc := ⟨.hbm, 156, rfl⟩
abbrev main_call4_v1 : Ref sig .tc := ⟨.hbm, 157, rfl⟩
abbrev main_call4_cst_0 : Ref sig .tc := ⟨.hbm, 158, rfl⟩
abbrev main_call4_v2 : Ref sig .tc := ⟨.hbm, 159, rfl⟩
abbrev main_call4_v3 : Ref sig .tc := ⟨.hbm, 160, rfl⟩
abbrev main_call4_v4 : Ref sig .tc := ⟨.hbm, 161, rfl⟩
abbrev main_call4_v5 : Ref sig .tc := ⟨.hbm, 162, rfl⟩
abbrev main_call4_v6 : Ref sig .tc := ⟨.hbm, 163, rfl⟩
abbrev main_call4_v7 : Ref sig .tc := ⟨.hbm, 164, rfl⟩
abbrev main_call4_cst_1 : Ref sig .tc := ⟨.hbm, 165, rfl⟩
abbrev main_call4_v8 : Ref sig .tc := ⟨.hbm, 166, rfl⟩
abbrev main_call4_cst_2 : Ref sig .tc := ⟨.hbm, 167, rfl⟩
abbrev main_call4_v9 : Ref sig .tc := ⟨.hbm, 168, rfl⟩
abbrev main_call4_v10 : Ref sig .tc := ⟨.hbm, 169, rfl⟩
abbrev main_call4_v11 : Ref sig .tc := ⟨.hbm, 170, rfl⟩
abbrev main_call4_cst_3 : Ref sig .tc := ⟨.hbm, 171, rfl⟩
abbrev main_call4_v12 : Ref sig .tc := ⟨.hbm, 172, rfl⟩
abbrev main_call4_cst_4 : Ref sig .tc := ⟨.hbm, 173, rfl⟩
abbrev main_call4_call0_v0 : Ref sig .tc := ⟨.hbm, 174, rfl⟩
abbrev main_call4_call0_v1 : Ref sig .tc := ⟨.hbm, 175, rfl⟩
abbrev main_v77 : Ref sig .tc := ⟨.hbm, 176, rfl⟩
abbrev main_v78 : Ref sig .tc := ⟨.hbm, 177, rfl⟩
abbrev main_v79 : Ref sig .tc := ⟨.hbm, 178, rfl⟩
abbrev main_v80 : Ref sig .tc := ⟨.hbm, 179, rfl⟩
abbrev main_cst_14 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_call5_cst : Ref sig .tc := ⟨.hbm, 193, rfl⟩
abbrev main_call5_v0 : Ref sig .tc := ⟨.hbm, 194, rfl⟩
abbrev main_v93 : Ref sig .tc := ⟨.hbm, 195, rfl⟩

abbrev nD : Nat := 1
abbrev τ : Topo := Topo.v7x

variable {F : FTy → Type} [FloatOps F]

class Facts₀ : Prop where
  bcast_S4096x64_S4096x64x1_0_1 : S4096x64.BroadcastsInDim S4096x64x1 (![0, 1] : Fin 2 → Fin S4096x64x1.rank)
  bcast_S4096x64_S4096x1x64_0_2 : S4096x64.BroadcastsInDim S4096x1x64 (![0, 2] : Fin 2 → Fin S4096x1x64.rank)
  bcast_S_S4096x64x64 : S_.BroadcastsInDim S4096x64x64 (![] : Fin 0 → Fin S4096x64x64.rank)
  reducesTo_S4096x64x64_S4096x64_d2 : S4096x64x64.ReducesTo [2] S4096x64
  h_S_ : 0 < S_.numel
  bcast_S_S4096x64 : S_.BroadcastsInDim S4096x64 (![] : Fin 0 → Fin S4096x64.rank)
  bcast_S4096x64x1_S4096x64x64_0_1_2 : S4096x64x1.BroadcastsInDim S4096x64x64 (![0, 1, 2] : Fin 3 → Fin S4096x64x64.rank)
  transposes_S64x64_S64x64_1_0 : S64x64.Transposes [1, 0] S64x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S64_d0 : S4096x64.ReducesTo [0] S64
  bcast_S_S64 : S_.BroadcastsInDim S64 (![] : Fin 0 → Fin S64.rank)
  bcast_S_S1x64 : S_.BroadcastsInDim S1x64 (![] : Fin 0 → Fin S1x64.rank)
  dot_S4096x64x1_S4096x1x64_S4096x64x64_2_1_1_2_0_0_wf : DotDims.WF S4096x64x1 S4096x1x64 S4096x64x64 [2] [1] [1] [2] [0] [0]
  dot_S4096x64_S64x64_S4096x64_1_0_0_1_n_n_wf : DotDims.WF S4096x64 S64x64 S4096x64 [1] [0] [0] [1] [] []
  dot_S4096x4096_S4096x64_S4096x64_1_0_0_1_n_n_wf : DotDims.WF S4096x4096 S4096x64 S4096x64 [1] [0] [0] [1] [] []

variable [Facts₀]

def dot_S4096x64x1_S4096x1x64_S4096x64x64_2_1_1_2_0_0 : DotDims S4096x64x1 S4096x1x64 S4096x64x64 where
  lhsContracting := [2]
  rhsContracting := [1]
  lhsNonContracting := [1]
  rhsNonContracting := [2]
  lhsBatch := [0]
  rhsBatch := [0]
  wf := dot_S4096x64x1_S4096x1x64_S4096x64x64_2_1_1_2_0_0_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.Spec.lean ====
/-
  The specification both programs are read against, over the extended reals, index by index.

  Arrays are functions of their indices.  A batch of 4096 rows carries 64 features.
  * `pool t im`: per row `b` and feature `i`, with scores `s k = (t b i / 8) * im b k` over the 64 features `k`
    of the other modality, the reciprocal of `∑ k, exp (s k - max s)` — which is the largest entry of the
    softmax of `s`, since the largest numerator is `exp 0 = 1`.
  * `lin x W b`: the affine map `x Wᵀ + b`.
  * `bnrelu y g be`: each feature column of `y` centred by its mean over the 4096 rows and divided by
    `sqrt (variance + eps)` (the biased variance), then scaled by `g`, shifted by `be` and clipped below at zero.
  * `aff A h`: the product of a 4096 × 4096 affinity matrix with `h`.
  * `final`: pool, then three `bnrelu ∘ lin` layers with an affinity product before the second and the third.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals, as a function of its index. -/
abbrev Arr2 (a b : Nat) : Type := (⟨2, ![a, b]⟩ : Shape).Idx → EReal
/-- A rank-1 array of extended reals. -/
abbrev Arr1 (a : Nat) : Type := (⟨1, ![a]⟩ : Shape).Idx → EReal

/-- First coordinate of a rank-2 index, typed by the extent itself. -/
abbrev c0 {a b : Nat} (j : (⟨2, ![a, b]⟩ : Shape).Idx) : Fin a := ⟨(j 0).val, idx2_lt0 j⟩
/-- Second coordinate of a rank-2 index, typed by the extent itself. -/
abbrev c1 {a b : Nat} (j : (⟨2, ![a, b]⟩ : Shape).Idx) : Fin b := ⟨(j 1).val, idx2_lt1 j⟩

/-- The transposed array. -/
def tr {a b : Nat} (x : Arr2 a b) : Arr2 b a := fun j => x (ix2 (c1 j) (c0 j))

/-- A `[1, n]` array read as a vector of `n` entries. -/
def unrow {n : Nat} (x : Arr2 1 n) : Arr1 n := fun j => x (ix2 0 ⟨(j 0).val, (j 0).isLt⟩)

/-- One eighth: the scale `1 / sqrt 64` of the scores. -/
def c8 : EReal := ((1 / 8 : ℝ) : EReal)
/-- One over the batch size. -/
def c4096 : EReal := ((1 / 4096 : ℝ) : EReal)
/-- The variance's epsilon, as the binary32 number both programs print. -/
def eps : EReal := Ideal.ofBits .f32 0x3727C5AC#32

/-- The scores of row `b`, feature `i`: `(t b i / 8) * im b k` over `k`. -/
def score (t im : Arr2 4096 64) (b : Fin 4096) (i : Fin 64) : Fin 64 → EReal :=
  fun k => (t (ix2 b i) * c8) * im (ix2 b k)

/-- The largest softmax entry of the scores: `1 / ∑ k, exp (s k - max s)`. -/
def pool (t im : Arr2 4096 64) : Arr2 4096 64 := fun j =>
  Ideal.div 1 (∑ k : Fin 64, Ideal.exp (score t im (c0 j) (c1 j) k
    - (Finset.univ : Finset (Fin 64)).fold max ⊥ (score t im (c0 j) (c1 j))))

/-- `x Wᵀ + b`. -/
def lin (x : Arr2 4096 64) (W : Arr2 64 64) (b : Arr1 64) : Arr2 4096 64 := fun j =>
  (∑ k : Fin 64, x (ix2 (c0 j) k) * W (ix2 (c1 j) k)) + b (ix1 (c1 j))

/-- The mean of feature column `d` over the batch. -/
def mu (y : Arr2 4096 64) (d : Fin 64) : EReal := (∑ r : Fin 4096, y (ix2 r d)) * c4096

/-- The biased variance of feature column `d` over the batch. -/
def var (y : Arr2 4096 64) (d : Fin 64) : EReal :=
  (∑ r : Fin 4096, (y (ix2 r d) - mu y d) * (y (ix2 r d) - mu y d)) * c4096

/-- Batch normalisation with scale `g` and shift `be`, then the positive part. -/
def bnrelu (y : Arr2 4096 64) (g be : Arr1 64) : Arr2 4096 64 := fun j =>
  max (Ideal.div (y (ix2 (c0 j) (c1 j)) - mu y (c1 j)) (Ideal.sqrt (var y (c1 j) + eps)) * g (ix1 (c1 j))
    + be (ix1 (c1 j))) 0

/-- One layer: affine map, batch normalisation, positive part. -/
def layer (x : Arr2 4096 64) (W : Arr2 64 64) (b g be : Arr1 64) : Arr2 4096 64 := bnrelu (lin x W b) g be

/-- The affinity product `A h`. -/
def aff (A : Arr2 4096 4096) (h : Arr2 4096 64) : Arr2 4096 64 := fun j =>
  ∑ r : Fin 4096, A (ix2 (c0 j) r) * h (ix2 r (c1 j))

/-- The whole pipeline. -/
def final (t im : Arr2 4096 64) (Ain Aout : Arr2 4096 4096)
    (Wc : Arr2 64 64) (bc gc bec : Arr1 64) (W1 : Arr2 64 64) (b1 g1 be1 : Arr1 64)
    (W2 : Arr2 64 64) (b2 g2 be2 : Arr1 64) : Arr2 4096 64 :=
  layer (aff Aout (layer (aff Ain (layer (pool t im) Wc bc gc bec)) W1 b1 g1 be1)) W2 b2 g2 be2

/-- Transposing twice is the identity. -/
theorem tr_tr {a b : Nat} (x : Arr2 a b) : tr (tr x) = x := by
  funext j
  show x (ix2 _ _) = x j
  exact congrArg x (by funext d; match d with | ⟨0, _⟩ => rfl | ⟨1, _⟩ => rfl)

end Cert.Spec

end
-- ==== Proof.Math.lean ====
/-
  Finite sums written out as the two programs add them, and the one analytic fact.

  * A sum over `Fin n` written term by term, left to right (`chain8`, `chain16`, `chain32`), or as the
    three-level pairwise fold of eight terms (`tree8`), is the sum over `Fin n`: addition in a commutative
    monoid is associative and commutative, so the grouping does not matter.
  * A sum over 4096 rows taken as `8 × 16 × 32` groups with row `128 m + 8 u + l` in group `(l, u, m)`, and a sum
    over 64 columns taken as `8 × 8` groups with column `8 q + g` in group `(g, q)`, is the plain sum:
    the map from groups to rows is a bijection.
  * For finite scores `s` with maximum `M`: every `exp (s k - M)` is at most `1`, one of them is `exp 0 = 1`,
    and their sum `S` is a positive real; so the largest of the quotients `exp (s k - M) / S` is `1 / S`.
-/
import Idealize.ShloMosaic.PureOps.Ideal
import Mathlib.Algebra.BigOperators.Fin
import Mathlib.Data.Fintype.BigOperators
import Mathlib.Data.Finset.Fold
import Mathlib.Tactic.Abel

noncomputable section

open scoped BigOperators

namespace Cert.Math

open Idealize.ShloMosaic

section Chains
variable {M : Type} [AddCommMonoid M]

/-- Eight terms added left to right. -/
theorem chain8 (f : Fin 8 → M) :
    f 0 + f 1 + f 2 + f 3 + f 4 + f 5 + f 6 + f 7 = ∑ i, f i :=
  (Fin.sum_univ_eight f).symm

/-- Sixteen terms added left to right. -/
theorem chain16 (f : Fin 16 → M) :
    f 0 + f 1 + f 2 + f 3 + f 4 + f 5 + f 6 + f 7 + f 8 + f 9 + f 10 + f 11 + f 12 + f 13 + f 14 + f 15
      = ∑ i, f i := by
  -- the last term is split off the sum, sixteen times; what is left is the empty sum
  simp only [Fin.sum_univ_castSucc, Finset.univ_eq_empty, Finset.sum_empty, zero_add]
  rfl

/-- Thirty-two terms added left to right. -/
theorem chain32 (f : Fin 32 → M) :
    f 0 + f 1 + f 2 + f 3 + f 4 + f 5 + f 6 + f 7 + f 8 + f 9 + f 10 + f 11 + f 12 + f 13 + f 14 + f 15
      + f 16 + f 17 + f 18 + f 19 + f 20 + f 21 + f 22 + f 23 + f 24 + f 25 + f 26 + f 27 + f 28 + f 29
      + f 30 + f 31 = ∑ i, f i := by
  simp only [Fin.sum_univ_castSucc, Finset.univ_eq_empty, Finset.sum_empty, zero_add]
  rfl

/-- Eight terms folded pairwise: halves `i, i + 4`, then `i, i + 2`, then the last two. -/
theorem tree8 (f : Fin 8 → M) :
    ((f 0 + f 4) + (f 2 + f 6)) + ((f 1 + f 5) + (f 3 + f 7)) = ∑ i, f i := by
  rw [Fin.sum_univ_eight]
  abel

/-- Rows `0 … 4095` are the triples `(l, u, m)` through `128 m + 8 u + l`: quotient and remainders recover them. -/
private def rowEquiv : (Fin 8 × Fin 16 × Fin 32) ≃ Fin 4096 where
  toFun p := ⟨128 * p.2.2.val + 8 * p.2.1.val + p.1.val, by
    have := p.2.2.isLt; have := p.2.1.isLt; have := p.1.isLt; omega⟩
  invFun r := (⟨r.val % 8, by omega⟩, ⟨(r.val / 8) % 16, by omega⟩, ⟨r.val / 128, by have := r.isLt; omega⟩)
  left_inv := by
    rintro ⟨⟨l, hl⟩, ⟨u, hu⟩, ⟨m, hm⟩⟩
    simp only [Prod.mk.injEq, Fin.mk.injEq]
    refine ⟨?_, ?_, ?_⟩ <;> omega
  right_inv := by
    rintro ⟨r, hr⟩
    simp only [Fin.mk.injEq]
    omega

/-- Columns `0 … 63` are the pairs `(g, q)` through `8 q + g`. -/
private def colEquiv : (Fin 8 × Fin 8) ≃ Fin 64 where
  toFun p := ⟨8 * p.2.val + p.1.val, by have := p.2.isLt; have := p.1.isLt; omega⟩
  invFun r := (⟨r.val % 8, by omega⟩, ⟨r.val / 8, by have := r.isLt; omega⟩)
  left_inv := by
    rintro ⟨⟨g, hg⟩, ⟨q, hq⟩⟩
    simp only [Prod.mk.injEq, Fin.mk.injEq]
    refine ⟨?_, ?_⟩ <;> omega
  right_inv := by
    rintro ⟨r, hr⟩
    simp only [Fin.mk.injEq]
    omega

/-- 4096 rows as `8 × 16 × 32` groups, row `128 m + 8 u + l` in group `(l, u, m)`. -/
theorem regroup4096 (f : Fin 4096 → M) :
    (∑ l : Fin 8, ∑ u : Fin 16, ∑ m : Fin 32,
        f ⟨128 * m.val + 8 * u.val + l.val, by have := m.isLt; have := u.isLt; have := l.isLt; omega⟩)
      = ∑ r, f r := by
  rw [← Equiv.sum_comp rowEquiv f, Fintype.sum_prod_type]
  refine Finset.sum_congr rfl fun l _ => ?_
  rw [Fintype.sum_prod_type]
  rfl

/-- 64 columns as `8 × 8` groups, column `8 q + g` in group `(g, q)`. -/
theorem regroup64 (f : Fin 64 → M) :
    (∑ g : Fin 8, ∑ q : Fin 8, f ⟨8 * q.val + g.val, by have := q.isLt; have := g.isLt; omega⟩)
      = ∑ j, f j := by
  rw [← Equiv.sum_comp colEquiv f, Fintype.sum_prod_type]
  rfl

end Chains

/-- The fold of `max` from `⊥` over finitely many finite values is finite. -/
theorem fold_max_finite {n : Nat} (hn : 0 < n) (s : Fin n → EReal) (hs : ∀ k, s k ≠ ⊤ ∧ s k ≠ ⊥) :
    (Finset.univ : Finset (Fin n)).fold max ⊥ s ≠ ⊤ ∧ (Finset.univ : Finset (Fin n)).fold max ⊥ s ≠ ⊥ := by
  constructor
  · -- every value and the seed are below `⊤`, so the largest is
    refine ne_of_lt ?_
    rw [Finset.fold_max_lt]
    exact ⟨bot_lt_top, fun k _ => lt_top_iff_ne_top.mpr (hs k).1⟩
  · -- the first value is above `⊥` and below the largest
    intro h
    have h0 : s ⟨0, hn⟩ ≤ (Finset.univ : Finset (Fin n)).fold max ⊥ s :=
      (Finset.le_fold_max _).mpr (Or.inr ⟨⟨0, hn⟩, Finset.mem_univ _, le_rfl⟩)
    rw [h] at h0
    exact (hs ⟨0, hn⟩).2 (le_bot_iff.mp h0)

/-- A finite sum of reals, taken in the extended reals, is the real sum. -/
private theorem coe_sum_real {ι : Type} (t : Finset ι) (g : ι → ℝ) :
    (∑ k ∈ t, ((g k : ℝ) : EReal)) = ((∑ k ∈ t, g k : ℝ) : EReal) := by
  classical
  induction t using Finset.induction_on with
  | empty => simp
  | insert a t ha ih => rw [Finset.sum_insert ha, Finset.sum_insert ha, ih, EReal.coe_add]

/-- The softmax fact for real scores `sr` with a real bound `Mr` attained at `j0`. -/
private theorem softmax_max_real {n : Nat} (sr : Fin n → ℝ) (Mr : ℝ) (hle : ∀ k, sr k ≤ Mr)
    (j0 : Fin n) (hj0 : sr j0 = Mr) :
    (Finset.univ : Finset (Fin n)).fold max ⊥
        (fun j => Ideal.div (Ideal.exp ((sr j : EReal) - (Mr : EReal)))
          (∑ k, Ideal.exp ((sr k : EReal) - (Mr : EReal))))
      = Ideal.div 1 (∑ k, Ideal.exp ((sr k : EReal) - (Mr : EReal))) := by
  -- each exponential is the real exponential of the real difference
  have hexp : ∀ k, Ideal.exp ((sr k : EReal) - (Mr : EReal)) = ((Real.exp (sr k - Mr) : ℝ) : EReal) := by
    intro k; rw [← EReal.coe_sub]; rfl
  simp only [hexp]
  rw [coe_sum_real]
  -- the sum `S` of the exponentials is a positive real
  have hS : 0 < ∑ k, Real.exp (sr k - Mr) :=
    Finset.sum_pos (fun k _ => Real.exp_pos _) ⟨j0, Finset.mem_univ _⟩
  simp only [Ideal.div_coe hS.ne', one_mul, ← EReal.coe_mul]
  have hinv : 0 < 1 / ∑ k, Real.exp (sr k - Mr) := one_div_pos.mpr hS
  apply le_antisymm
  · -- every quotient is at most `1 / S` since every exponential is at most `1`
    rw [Finset.fold_max_le]
    refine ⟨bot_le, fun j _ => ?_⟩
    rw [EReal.coe_le_coe_iff]
    have : Real.exp (sr j - Mr) ≤ 1 := by
      rw [← Real.exp_zero]; exact Real.exp_le_exp.mpr (sub_nonpos.mpr (hle j))
    calc Real.exp (sr j - Mr) * (1 / ∑ k, Real.exp (sr k - Mr))
        ≤ 1 * (1 / ∑ k, Real.exp (sr k - Mr)) := mul_le_mul_of_nonneg_right this hinv.le
      _ = 1 / ∑ k, Real.exp (sr k - Mr) := one_mul _
  · -- the quotient at the place of the maximum is `exp 0 / S = 1 / S`
    rw [Finset.le_fold_max]
    refine Or.inr ⟨j0, Finset.mem_univ _, ?_⟩
    rw [hj0, sub_self, Real.exp_zero, one_mul]

/-- The largest softmax entry: with `M` the maximum of finite scores, the largest of
    `exp (s k - M) / ∑ exp (s · - M)` is `1 / ∑ exp (s · - M)`. -/
theorem softmax_max {n : Nat} (hn : 0 < n) (s : Fin n → EReal) (hs : ∀ k, s k ≠ ⊤ ∧ s k ≠ ⊥) :
    (Finset.univ : Finset (Fin n)).fold max ⊥
        (fun j => Ideal.div (Ideal.exp (s j - (Finset.univ : Finset (Fin n)).fold max ⊥ s))
          (∑ k, Ideal.exp (s k - (Finset.univ : Finset (Fin n)).fold max ⊥ s)))
      = Ideal.div 1 (∑ k, Ideal.exp (s k - (Finset.univ : Finset (Fin n)).fold max ⊥ s)) := by
  obtain ⟨hMt, hMb⟩ := fold_max_finite hn s hs
  -- the maximum is attained: it is at most some score, and every score is at most it
  have hup : ∀ k, s k ≤ (Finset.univ : Finset (Fin n)).fold max ⊥ s := fun k =>
    (Finset.le_fold_max _).mpr (Or.inr ⟨k, Finset.mem_univ _, le_rfl⟩)
  obtain ⟨j0, hj0⟩ : ∃ j0, s j0 = (Finset.univ : Finset (Fin n)).fold max ⊥ s := by
    rcases (Finset.le_fold_max _).mp (le_refl ((Finset.univ : Finset (Fin n)).fold max ⊥ s)) with h | ⟨j, _, hj⟩
    · exact absurd (le_bot_iff.mp h) hMb
    · exact ⟨j, le_antisymm (hup j) hj⟩
  -- the maximum and the scores are reals
  obtain ⟨Mr, hMr⟩ : ∃ Mr : ℝ, (Finset.univ : Finset (Fin n)).fold max ⊥ s = (Mr : EReal) :=
    ⟨_, (EReal.coe_toReal hMt hMb).symm⟩
  have hsr : ∀ k, s k = (((s k).toReal : ℝ) : EReal) := fun k => (EReal.coe_toReal (hs k).1 (hs k).2).symm
  rw [hMr] at hup hj0 ⊢
  have hfun : s = fun k => (((s k).toReal : ℝ) : EReal) := funext hsr
  rw [hfun]
  refine softmax_max_real (fun k => (s k).toReal) Mr (fun k => ?_) j0 ?_
  · have := hup k; rw [hsr k] at this; exact EReal.coe_le_coe_iff.mp this
  · have := hj0; rw [hsr j0] at this; exact EReal.coe_eq_coe_iff.mp this

/-- A product with one eighth is the quotient by eight, on every extended real. -/
theorem mul_c8 (x : EReal) : x * ((1 / 8 : ℝ) : EReal) = Ideal.div x ((8 : ℝ) : EReal) :=
  (Ideal.div_coe (by norm_num : (8 : ℝ) ≠ 0) x).symm

/-- A product with one over 4096 is the quotient by 4096, on every extended real. -/
theorem mul_c4096 (x : EReal) : x * ((1 / 4096 : ℝ) : EReal) = Ideal.div x ((4096 : ℝ) : EReal) :=
  (Ideal.div_coe (by norm_num : (4096 : ℝ) ≠ 0) x).symm

end Cert.Math

end
-- ==== Proof.KPool.lean ====
/-
  Region 0, the pooling kernel, on a grid of 16 points: point `t` reads columns `256 t … 256 t + 255` of the two
  transposed inputs (64 × 4096, the batch along the columns) and writes the same columns of the output.
  At feature `i` and batch column `b` the body forms the 64 scores `(tT i b / 8) * iT j b`, subtracts their
  maximum, exponentiates, and adds the 64 terms as eight groups `j mod 8`, each group left to right over `j / 8`,
  the eight group sums folded pairwise; the entry written is one over that sum.  So the output array is the
  transpose of `Spec.pool` of the transposed inputs.
-/
import proofs.«105735_g86071144612153_cont_sun_m_685_12_alg».proof.Proof.Gen.KernelIdeal.Frame
import proofs.«105735_g86071144612153_cont_sun_m_685_12_alg».proof.Proof.Spec
import proofs.«105735_g86071144612153_cont_sun_m_685_12_alg».proof.Proof.Math
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.PoolValue

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The three constants the body spells -/

/-- The word `0x3E000000` is one eighth. -/
theorem ofBits_eighth : Ideal.ofBits .f32 0x3E000000#32 = Spec.c8 := by
  unfold Spec.c8
  simp [Ideal.ofBits, Ideal.ieee, -EReal.coe_mul]; norm_num

/-- The word `0xFF800000` is the bottom element, the neutral element of `max`. -/
theorem ofBits_bot : Ideal.ofBits .f32 0xFF800000#32 = ⊥ := by
  simp [Ideal.ofBits, Ideal.ieee]

/-- The word `0x3F800000` is one. -/
theorem ofBits_one : Ideal.ofBits .f32 0x3F800000#32 = 1 := by
  simp [Ideal.ofBits, Ideal.ieee, -EReal.coe_mul]; norm_num

/-! ## The body's value, cut where its operations change kind -/

/-- The 64 × 64 scores of every column: `(x0 i q / 8) * x1 j q` at `(i, j, q)`. -/
def scoreArr (v0 v4 : Vec Ideal S64x256 .f32) : FVec Ideal S64x64x256 .f32 :=
  have v1 : FVec Ideal S64x256 .f32 := shapeCast S64x256 v0 shapeCasts_S64x256_S64x256
  have cst : Ideal .f32 := Scalar.ofBits .f32 0x3E000000#32
  have v2 : FVec Ideal S64x256 .f32 := broadcast S64x256 cst
  have v3 : FVec Ideal S64x256 .f32 := mulf v1 v2
  have v5 : FVec Ideal S64x256 .f32 := shapeCast S64x256 v4 shapeCasts_S64x256_S64x256
  have v6 : FVec Ideal S64x1x256 .f32 := shapeCast S64x1x256 v3 shapeCasts_S64x256_S64x1x256
  have v7 : FVec Ideal S1x64x256 .f32 := shapeCast S1x64x256 v5 shapeCasts_S64x256_S1x64x256
  have v8 : FVec Ideal S64x64x256 .f32 := broadcastTo S64x64x256 v6 broadcasts_S64x1x256_S64x64x256
  have v9 : FVec Ideal S64x64x256 .f32 := broadcastTo S64x64x256 v7 broadcasts_S1x64x256_S64x64x256
  mulf v8 v9

/-- Each score less the largest score of its `(i, q)`, exponentiated. -/
def expArr (v10 : FVec Ideal S64x64x256 .f32) : FVec Ideal S64x64x256 .f32 :=
  have v11 : FVec Ideal S64x256 .f32 := multiReduction .maximumf [1] S64x256 v10 0xFF800000#32 reduces_S64x64x256_S64x256 (.inl rfl) rfl
  have v12 : FVec Ideal S64x1x256 .f32 := shapeCast S64x1x256 v11 shapeCasts_S64x256_S64x1x256
  have v13 : FVec Ideal S64x64x256 .f32 := broadcastTo S64x64x256 v12 broadcasts_S64x1x256_S64x64x256
  have v14 : FVec Ideal S64x64x256 .f32 := subf v10 v13
  exp v14

/-- The eight slices of eight consecutive `j`, added left to right: group `g` holds the terms `j = 8 q' + g`. -/
def groupArr (v15 : FVec Ideal S64x64x256 .f32) : FVec Ideal S64x8x256 .f32 :=
  have v16 : FVec Ideal S64x8x256 .f32 := extractStridedSlice S64x8x256 ![0, 0, 0] v15 slices_S64x64x256_o0_0_0_S64x8x256
  have v17 : FVec Ideal S64x8x256 .f32 := extractStridedSlice S64x8x256 ![0, 8, 0] v15 slices_S64x64x256_o0_8_0_S64x8x256
  have v18 : FVec Ideal S64x8x256 .f32 := addf v16 v17
  have v19 : FVec Ideal S64x8x256 .f32 := extractStridedSlice S64x8x256 ![0, 16, 0] v15 slices_S64x64x256_o0_16_0_S64x8x256
  have v20 : FVec Ideal S64x8x256 .f32 := addf v18 v19
  have v21 : FVec Ideal S64x8x256 .f32 := extractStridedSlice S64x8x256 ![0, 24, 0] v15 slices_S64x64x256_o0_24_0_S64x8x256
  have v22 : FVec Ideal S64x8x256 .f32 := addf v20 v21
  have v23 : FVec Ideal S64x8x256 .f32 := extractStridedSlice S64x8x256 ![0, 32, 0] v15 slices_S64x64x256_o0_32_0_S64x8x256
  have v24 : FVec Ideal S64x8x256 .f32 := addf v22 v23
  have v25 : FVec Ideal S64x8x256 .f32 := extractStridedSlice S64x8x256 ![0, 40, 0] v15 slices_S64x64x256_o0_40_0_S64x8x256
  have v26 : FVec Ideal S64x8x256 .f32 := addf v24 v25
  have v27 : FVec Ideal S64x8x256 .f32 := extractStridedSlice S64x8x256 ![0, 48, 0] v15 slices_S64x64x256_o0_48_0_S64x8x256
  have v28 : FVec Ideal S64x8x256 .f32 := addf v26 v27
  have v29 : FVec Ideal S64x8x256 .f32 := extractStridedSlice S64x8x256 ![0, 56, 0] v15 slices_S64x64x256_o0_56_0_S64x8x256
  addf v28 v29

/-- The eight group sums folded pairwise: halves, then quarters, then the last two. -/
def foldArr (v30 : FVec Ideal S64x8x256 .f32) : FVec Ideal S64x256 .f32 :=
  have v31 : FVec Ideal S64x4x256 .f32 := extractStridedSlice S64x4x256 ![0, 0, 0] v30 slices_S64x8x256_o0_0_0_S64x4x256
  have v32 : FVec Ideal S64x4x256 .f32 := extractStridedSlice S64x4x256 ![0, 4, 0] v30 slices_S64x8x256_o0_4_0_S64x4x256
  have v33 : FVec Ideal S64x4x256 .f32 := addf v31 v32
  have v34 : FVec Ideal S64x2x256 .f32 := extractStridedSlice S64x2x256 ![0, 0, 0] v33 slices_S64x4x256_o0_0_0_S64x2x256
  have v35 : FVec Ideal S64x2x256 .f32 := extractStridedSlice S64x2x256 ![0, 2, 0] v33 slices_S64x4x256_o0_2_0_S64x2x256
  have v36 : FVec Ideal S64x2x256 .f32 := addf v34 v35
  have v37 : FVec Ideal S64x1x256 .f32 := extractStridedSlice S64x1x256 ![0, 0, 0] v36 slices_S64x2x256_o0_0_0_S64x1x256
  have v38 : FVec Ideal S64x256 .f32 := shapeCast S64x256 v37 shapeCasts_S64x1x256_S64x256
  have v39 : FVec Ideal S64x1x256 .f32 := extractStridedSlice S64x1x256 ![0, 1, 0] v36 slices_S64x2x256_o0_1_0_S64x1x256
  have v40 : FVec Ideal S64x256 .f32 := shapeCast S64x256 v39 shapeCasts_S64x1x256_S64x256
  addf v38 v40

/-- The body's value is one over the folded group sums of the exponentials of the centred scores. -/
theorem pay_cut (x0 x1 : Vec Ideal S64x256 .f32) :
    k0_pay1 x0 x1 = divf (broadcast S64x256 (Scalar.ofBits (F := Ideal) .f32 0x3F800000#32))
      (foldArr (groupArr (expArr (scoreArr x0 x1)))) := rfl

/-! ## The layout operations of the body, read at an index -/

section Layout
variable {α : Type}

/-- A `[64, 256]` array given a unit middle axis reads, at `(i, u, q)`, the operand at `(i, q)`. -/
theorem cast_mid_apply (v : S64x256.Idx → α) (i : Fin 64) (u : Fin 1) (q : Fin 256) :
    shapeCast S64x1x256 v shapeCasts_S64x256_S64x1x256 (ix3 i u q) = v (ix2 i q) :=
  shapeCast_apply v _ _ _ (by
    rw [Shape.rowMajor_val_two, Shape.rowMajor_val_three]
    show i.val * 256 + q.val = (i.val * 1 + u.val) * 256 + q.val
    omega)

/-- A `[64, 1, 256]` array with its unit middle axis dropped reads, at `(i, q)`, the operand at `(i, 0, q)`. -/
theorem uncast_mid_apply (v : S64x1x256.Idx → α) (i : Fin 64) (q : Fin 256) :
    shapeCast S64x256 v shapeCasts_S64x1x256_S64x256 (ix2 i q) = v (ix3 i (0 : Fin 1) q) :=
  shapeCast_apply v _ _ _ (by
    rw [Shape.rowMajor_val_two, Shape.rowMajor_val_three]
    show (i.val * 1 + 0) * 256 + q.val = i.val * 256 + q.val
    omega)

/-- A `[64, 1, 256]` array repeated 64 times along its middle axis reads, at `(i, j, q)`, the operand at `(i, 0, q)`. -/
theorem bcast_mid_apply (v : S64x1x256.Idx → α) (i j : Fin 64) (q : Fin 256) :
    broadcastTo S64x64x256 v broadcasts_S64x1x256_S64x64x256 (ix3 i j q) = v (ix3 i (0 : Fin 1) q) :=
  broadcastTo_apply v _ _ _ (fun a => by
    match a with
    | ⟨0, _⟩ => rfl
    | ⟨1, _⟩ => rfl
    | ⟨2, _⟩ => rfl)

/-- A `[1, 64, 256]` array repeated 64 times along its leading axis reads, at `(i, j, q)`, the operand at `(0, j, q)`. -/
theorem bcast_lead_apply (v : S1x64x256.Idx → α) (i j : Fin 64) (q : Fin 256) :
    broadcastTo S64x64x256 v broadcasts_S1x64x256_S64x64x256 (ix3 i j q) = v (ix3 (0 : Fin 1) j q) :=
  broadcastTo_apply v _ _ _ (fun a => by
    match a with
    | ⟨0, _⟩ => rfl
    | ⟨1, _⟩ => rfl
    | ⟨2, _⟩ => rfl)

end Layout

/-! ## Each cut read at an index -/

/-- The score at `(i, j, q)`: both factors are broadcasts, of `x0 / 8` along a new middle axis and of `x1` along a
    new leading axis. -/
theorem scoreArr_apply (x0 x1 : Vec Ideal S64x256 .f32) (i j : Fin 64) (q : Fin 256) :
    scoreArr x0 x1 (ix3 i j q) = (x0 (ix2 i q) * Spec.c8) * x1 (ix2 j q) := by
  unfold scoreArr
  rw [shapeCast_self, shapeCast_self, mulf_apply, bcast_mid_apply, bcast_lead_apply, cast_mid_apply,
    shapeCast_ab_1ab_apply, mulf_apply, broadcast_apply]
  show (x0 (ix2 i q) * Ideal.ofBits .f32 0x3E000000#32) * x1 (ix2 j q) = _
  rw [ofBits_eighth]

/-- The largest score over `j` at `(i, q)`: the fold of `max` from the bottom element. -/
theorem rowmax_apply (S : FVec Ideal S64x64x256 .f32) (i : Fin 64) (q : Fin 256) :
    multiReduction (F := Ideal) .maximumf [1] S64x256 S 0xFF800000#32 reduces_S64x64x256_S64x256 (.inl rfl) rfl (ix2 i q)
      = (Finset.univ : Finset (Fin 64)).fold max ⊥ (fun k => S (ix3 i k q)) := by
  refine (Ideal.multiReduction_maximumf_single S _ _ _ _ _).trans ?_
  show (Finset.univ : Finset (Fin 64)).fold max (Ideal.ofBits .f32 0xFF800000#32) (fun k => S (reduces_S64x64x256_S64x256.lift (ix2 i q) k)) = _
  rw [ofBits_bot]
  refine congrArg (fun f : Fin 64 → EReal => (Finset.univ : Finset (Fin 64)).fold max ⊥ f) (funext fun k => congrArg S (funext fun a => ?_))
  match a with
  | ⟨0, _⟩ => rfl
  | ⟨1, _⟩ => rfl
  | ⟨2, _⟩ => rfl

/-- The exponential at `(i, j, q)`: of the score less the largest score over `j`. -/
theorem expArr_apply (S : FVec Ideal S64x64x256 .f32) (i j : Fin 64) (q : Fin 256) :
    expArr S (ix3 i j q)
      = Ideal.exp (S (ix3 i j q) - (Finset.univ : Finset (Fin 64)).fold max ⊥ (fun k => S (ix3 i k q))) := by
  unfold expArr
  show Ideal.exp (subf S _ (ix3 i j q)) = _
  rw [subf_apply, bcast_mid_apply, cast_mid_apply, rowmax_apply]

/-! ## The sum over `j`, as the body adds it -/

/-- Group `g` of the eight slices added left to right holds the terms `j = 8 q' + g`, `q' = 0, …, 7`. -/
theorem groupArr_apply (E : FVec Ideal S64x64x256 .f32) (i : Fin 64) (g : Fin 8) (q : Fin 256) :
    groupArr E (ix3 i g q)
      = ∑ q' : Fin 8, E (ix3 i ⟨8 * q'.val + g.val, by have := q'.isLt; have := g.isLt; omega⟩ q) := by
  unfold groupArr
  rw [← Math.chain8]
  simp only [addf_apply]
  rw [slice3_axis1_apply 0 E _ i g q ⟨8 * (0 : Fin 8).val + g.val, by have := g.isLt; omega⟩ rfl,
    slice3_axis1_apply 8 E _ i g q ⟨8 * (1 : Fin 8).val + g.val, by have := g.isLt; omega⟩ rfl,
    slice3_axis1_apply 16 E _ i g q ⟨8 * (2 : Fin 8).val + g.val, by have := g.isLt; omega⟩ rfl,
    slice3_axis1_apply 24 E _ i g q ⟨8 * (3 : Fin 8).val + g.val, by have := g.isLt; omega⟩ rfl,
    slice3_axis1_apply 32 E _ i g q ⟨8 * (4 : Fin 8).val + g.val, by have := g.isLt; omega⟩ rfl,
    slice3_axis1_apply 40 E _ i g q ⟨8 * (5 : Fin 8).val + g.val, by have := g.isLt; omega⟩ rfl,
    slice3_axis1_apply 48 E _ i g q ⟨8 * (6 : Fin 8).val + g.val, by have := g.isLt; omega⟩ rfl,
    slice3_axis1_apply 56 E _ i g q ⟨8 * (7 : Fin 8).val + g.val, by have := g.isLt; omega⟩ rfl]

/-- The pairwise fold of the eight groups at `(i, q)` is their sum. -/
theorem foldArr_apply (A : FVec Ideal S64x8x256 .f32) (i : Fin 64) (q : Fin 256) :
    foldArr A (ix2 i q) = ∑ g : Fin 8, A (ix3 i g q) := by
  unfold foldArr
  simp only [addf_apply, uncast_mid_apply, slice3_axis1_eq]
  exact Math.tree8 (fun g => A (ix3 i g q))

/-- The body's grouping of the 64 terms is a regrouping of their sum: column `8 q' + g` is in group `g`. -/
theorem sum_apply (E : FVec Ideal S64x64x256 .f32) (i : Fin 64) (q : Fin 256) :
    foldArr (groupArr E) (ix2 i q) = ∑ j : Fin 64, E (ix3 i j q) := by
  rw [foldArr_apply]
  simp only [groupArr_apply]
  exact Math.regroup64 (fun j => E (ix3 i j q))

/-- The body's value at `(i, q)`: one over the sum over `k` of the exponentials of the scores less their maximum. -/
theorem pay_apply (x0 x1 : Vec Ideal S64x256 .f32) (i : Fin 64) (q : Fin 256) :
    k0_pay1 x0 x1 (ix2 i q)
      = Ideal.div 1 (∑ k : Fin 64, Ideal.exp ((x0 (ix2 i q) * Spec.c8) * x1 (ix2 k q)
          - (Finset.univ : Finset (Fin 64)).fold max ⊥ (fun k' => (x0 (ix2 i q) * Spec.c8) * x1 (ix2 k' q)))) := by
  rw [pay_cut, divf_apply, broadcast_apply, sum_apply]
  show Ideal.div (Ideal.ofBits .f32 0x3F800000#32) _ = _
  rw [ofBits_one]
  simp only [expArr_apply, scoreArr_apply]

/-! ## From the blocks to the array -/

/-- The specification's entry at feature `p` and batch column `b`, spelled over the transposed inputs. -/
theorem spec_apply (tT iT : Spec.Arr2 64 4096) (p : Fin 64) (b : Fin 4096) :
    Spec.tr (Spec.pool (Spec.tr tT) (Spec.tr iT)) (ix2 p b)
      = Ideal.div 1 (∑ k : Fin 64, Ideal.exp ((tT (ix2 p b) * Spec.c8) * iT (ix2 k b)
          - (Finset.univ : Finset (Fin 64)).fold max ⊥ (fun k' => (tT (ix2 p b) * Spec.c8) * iT (ix2 k' b)))) := rfl

/-- A block's origin in its staging buffer is the zero index. -/
theorem origin_eq : (![0, 0] : Fin 2 → Nat) = fun _ => 0 :=
  funext fun a => match a with | ⟨0, _⟩ => rfl | ⟨1, _⟩ => rfl

/-- The printed index maps, decided over the grid: at point `t` every window's block is block `(0, t)`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Where entry `(p, q)` of point `t`'s block lies in window 0's array: row `p`, column `256 t + q`. -/
theorem emb0_eq (t : Fin cfg0.N) (p : Fin 64) (q : Fin 256) :
    (((cfg0.win 0).blk t).view.emb (ix2 p q) : S64x4096.Idx)
      = ix2 p ⟨256 * t.val + q.val, by have : t.val < 16 := t.isLt; have := q.isLt; omega⟩ := by
  obtain ⟨e0, e1, e2, e3, e4, e5⟩ := idx_facts t
  have ht : t.val < 16 := t.isLt
  funext a; apply Fin.ext
  match a with
  | ⟨0, _⟩ => show win0_0.index t (0 : Fin 2) * 64 + 1 * p.val = p.val; omega
  | ⟨1, _⟩ => show win0_0.index t (1 : Fin 2) * 256 + 1 * q.val = 256 * t.val + q.val; omega

/-- Where entry `(p, q)` of point `t`'s block lies in window 1's array: row `p`, column `256 t + q`. -/
theorem emb1_eq (t : Fin cfg0.N) (p : Fin 64) (q : Fin 256) :
    (((cfg0.win 1).blk t).view.emb (ix2 p q) : S64x4096.Idx)
      = ix2 p ⟨256 * t.val + q.val, by have : t.val < 16 := t.isLt; have := q.isLt; omega⟩ := by
  obtain ⟨e0, e1, e2, e3, e4, e5⟩ := idx_facts t
  have ht : t.val < 16 := t.isLt
  funext a; apply Fin.ext
  match a with
  | ⟨0, _⟩ => show win0_1.index t (0 : Fin 2) * 64 + 1 * p.val = p.val; omega
  | ⟨1, _⟩ => show win0_1.index t (1 : Fin 2) * 256 + 1 * q.val = 256 * t.val + q.val; omega

/-- Where entry `(p, q)` of point `t`'s block lies in window 2's array: row `p`, column `256 t + q`. -/
theorem emb2_eq (t : Fin cfg0.N) (p : Fin 64) (q : Fin 256) :
    (((cfg0.win 2).blk t).view.emb (ix2 p q) : S64x4096.Idx)
      = ix2 p ⟨256 * t.val + q.val, by have : t.val < 16 := t.isLt; have := q.isLt; omega⟩ := by
  obtain ⟨e0, e1, e2, e3, e4, e5⟩ := idx_facts t
  have ht : t.val < 16 := t.isLt
  funext a; apply Fin.ext
  match a with
  | ⟨0, _⟩ => show win0_2.index t (0 : Fin 2) * 64 + 1 * p.val = p.val; omega
  | ⟨1, _⟩ => show win0_2.index t (1 : Fin 2) * 256 + 1 * q.val = 256 * t.val + q.val; omega

/-- What point `t` writes back is block `t` of the specification's array. -/
theorem flushed_eq (c : Dev nD) (t : Fin cfg0.N) :
    (dat0 (F := Ideal) V c).flushed 2 t = ((cfg0.win 2).blk t).view.read (Elt Ideal)
      (Spec.tr (Spec.pool (Spec.tr (V c (Pipeline.arrRef spec0 0))) (Spec.tr (V c (Pipeline.arrRef spec0 1))))) := by
  show (cfg0.win 2).cut (grid0.coords t) ((dat0 V c).after 2 t) = _
  rw [after0_2]
  unfold out0_2
  rw [View.canon_unit_zero origin_eq]
  simp only [View.ld_unit_zero (S := S64x256) origin_eq]
  refine funext fun (j : S64x256.Idx) => ?_
  obtain ⟨p, q, rfl⟩ : ∃ (p : Fin 64) (q : Fin 256), j = ix2 p q := ⟨j 0, j 1, eq_ix2 j⟩
  refine (pay_apply (iblk0 V c 0 t) (iblk0 V c 1 t) p q).trans ?_
  show _ = Spec.tr (Spec.pool (Spec.tr (V c (Pipeline.arrRef spec0 0))) (Spec.tr (V c (Pipeline.arrRef spec0 1))))
    (((cfg0.win 2).blk t).view.emb (ix2 p q))
  rw [emb2_eq, spec_apply]
  have h0 : ∀ p' : Fin 64, iblk0 V c 0 t (ix2 p' q)
      = V c (Pipeline.arrRef spec0 0) (ix2 p' ⟨256 * t.val + q.val, by have : t.val < 16 := t.isLt; have := q.isLt; omega⟩) :=
    fun p' => congrArg (V c (Pipeline.arrRef spec0 0)) (emb0_eq t p' q)
  have h1 : ∀ p' : Fin 64, iblk0 V c 1 t (ix2 p' q)
      = V c (Pipeline.arrRef spec0 1) (ix2 p' ⟨256 * t.val + q.val, by have : t.val < 16 := t.isLt; have := q.isLt; omega⟩) :=
    fun p' => congrArg (V c (Pipeline.arrRef spec0 1)) (emb1_eq t p' q)
  simp only [h0, h1]

/-- An index of the array is in point `t`'s block iff each coordinate is in the block's range on its axis. -/
theorem mem_blk (t : Fin cfg0.N) (i : S64x4096.Idx) :
    i ∈ ((cfg0.win 2).blk t).view.set ↔ ∀ a : Fin 2, win0_2.index t a * S64x256.size a ≤ (i a).val
      ∧ (i a).val < win0_2.index t a * S64x256.size a + S64x256.size a := by
  show i ∈ ((View.whole main_call0_v2).slice (win0_2.rect t)).set ↔ _
  rw [View.set_slice_whole, Rect.mem_set_unit]
  exact Iff.rfl

/-- Every entry of the array is written back by the point of its 256-column block. -/
theorem cover (i : S64x4096.Idx) :
    ∃ t : Fin cfg0.N, (cfg0.win 2).flush t = true ∧ i ∈ ((cfg0.win 2).blk t).view.set := by
  have hi0 : (i 0).val < 64 := (i 0).isLt
  have hi1 : (i 1).val < 4096 := (i 1).isLt
  have hlt : (i 1).val / 256 < 16 := by omega
  obtain ⟨e0, e1, e2, e3, e4, e5⟩ := idx_facts ⟨(i 1).val / 256, hlt⟩
  refine ⟨⟨(i 1).val / 256, hlt⟩, flush0_2 _, ?_⟩
  rw [mem_blk]
  intro a
  match a with
  | ⟨0, _⟩ =>
    show win0_2.index ⟨(i 1).val / 256, hlt⟩ (0 : Fin 2) * 64 ≤ (i 0).val
      ∧ (i 0).val < win0_2.index ⟨(i 1).val / 256, hlt⟩ (0 : Fin 2) * 64 + 64
    omega
  | ⟨1, _⟩ =>
    show win0_2.index ⟨(i 1).val / 256, hlt⟩ (1 : Fin 2) * 256 ≤ (i 1).val
      ∧ (i 1).val < win0_2.index ⟨(i 1).val / 256, hlt⟩ (1 : Fin 2) * 256 + 256
    have e5' : win0_2.index ⟨(i 1).val / 256, hlt⟩ (1 : Fin 2) = (i 1).val / 256 := e5
    omega

/-- The pooling region's output array after the region, as a function of its two input arrays at entry. -/
theorem pool_arr (c : Dev nD) :
    (dat0 (F := Ideal) V c).arrAt 2 cfg0.N
      = Spec.tr (Spec.pool (Spec.tr (V c (Pipeline.arrRef spec0 0))) (Spec.tr (V c (Pipeline.arrRef spec0 1)))) :=
  (dat0 (F := Ideal) V c).arrAt_eq_of_cover 2 _ (fun t _ => flushed_eq V c t) cover

end Cert.KernelIdeal.PoolValue

end
-- ==== Proof.KBnVar.lean ====
/-
  The second half of the affine + batch-normalisation + positive-part kernel's body, at the extended reals.
  From the centred values `dd = y - mean` the body forms `dd * dd`, sums each feature column over the 4096 rows as
  `32 × 16 × 8` groups (row `128 m + 8 u + l`: left to right over `m`, then over `u`, the last eight folded
  pairwise), scales by 1/4096 for the variance, adds `eps`, takes the square root, and writes
  `max (dd / sqrt (variance + eps) * g + be) 0`.  Regrouped, the column sum is the plain sum over the rows.
-/
import proofs.«105735_g86071144612153_cont_sun_m_685_12_alg».proof.Proof.Gen.KernelIdeal.Frame
import proofs.«105735_g86071144612153_cont_sun_m_685_12_alg».proof.Proof.Spec
import proofs.«105735_g86071144612153_cont_sun_m_685_12_alg».proof.Proof.Math
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.LayerVar

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## Slices and unit axes read at an index -/

/-- Slice `m` of a four-axis array along its first axis, the unit axis dropped, reads at `(u, l, d)` the array at
    `(m, u, l, d)`. -/
private theorem slice4_drop (q : FVec Ideal S32x16x8x64 .f32) (m : Nat) (hm : m < 32)
    (h : S32x16x8x64.Slices ![m, 0, 0, 0] S1x16x8x64) (hc : S1x16x8x64.ShapeCasts S16x8x64)
    (u : Fin 16) (l : Fin 8) (d : Fin 64) :
    shapeCast S16x8x64 (extractStridedSlice S1x16x8x64 ![m, 0, 0, 0] q h) hc (ix3 u l d)
      = q (ix4 (⟨m, hm⟩ : Fin 32) u l d) := by
  refine (shapeCast_1abc_abc_apply _ hc u l d).trans ?_
  refine extractStridedSlice_apply _ q h _ _ fun a => ?_
  match a with
  | ⟨0, _⟩ => exact (Nat.add_zero _).symm
  | ⟨1, _⟩ => exact (Nat.zero_add _).symm
  | ⟨2, _⟩ => exact (Nat.zero_add _).symm
  | ⟨3, _⟩ => exact (Nat.zero_add _).symm

/-- The same slice with its unit axis kept. -/
private theorem slice4_keep (q : FVec Ideal S32x16x8x64 .f32) (m : Nat) (hm : m < 32)
    (h : S32x16x8x64.Slices ![m, 0, 0, 0] S1x16x8x64) (u : Fin 16) (l : Fin 8) (d : Fin 64) :
    extractStridedSlice S1x16x8x64 ![m, 0, 0, 0] q h (ix4 (0 : Fin 1) u l d) = q (ix4 (⟨m, hm⟩ : Fin 32) u l d) := by
  refine extractStridedSlice_apply _ q h _ _ fun a => ?_
  match a with
  | ⟨0, _⟩ => exact (Nat.add_zero _).symm
  | ⟨1, _⟩ => exact (Nat.zero_add _).symm
  | ⟨2, _⟩ => exact (Nat.zero_add _).symm
  | ⟨3, _⟩ => exact (Nat.zero_add _).symm

/-- Slice `u` of a three-axis array along its first axis, the unit axis dropped, reads at `(l, d)` the array at
    `(u, l, d)`. -/
private theorem slice3_drop (c : FVec Ideal S16x8x64 .f32) (u : Nat) (hu : u < 16)
    (h : S16x8x64.Slices ![u, 0, 0] S1x8x64) (hc : S1x8x64.ShapeCasts S8x64) (l : Fin 8) (d : Fin 64) :
    shapeCast S8x64 (extractStridedSlice S1x8x64 ![u, 0, 0] c h) hc (ix2 l d) = c (ix3 (⟨u, hu⟩ : Fin 16) l d) := by
  refine (shapeCast_1ab_ab_apply _ hc l d).trans ?_
  refine extractStridedSlice_apply _ c h _ _ fun a => ?_
  match a with
  | ⟨0, _⟩ => exact (Nat.add_zero _).symm
  | ⟨1, _⟩ => exact (Nat.zero_add _).symm
  | ⟨2, _⟩ => exact (Nat.zero_add _).symm

/-! ## The squares, regrouped -/

/-- The squares cast to `32 × 16 × 8 × 64`: entry `(m, u, l, d)` is the square of the centred value at row
    `128 m + 8 u + l`, feature `d` (the two row-major positions agree). -/
private theorem sq_apply (v10 : FVec Ideal S4096x64 .f32) (v106 : FVec Ideal S16x8x64 .f32) (v111 : FVec Ideal S8x64 .f32)
    (v112 : FVec Ideal S1x8x64 .f32) (m : Fin 32) (u : Fin 16) (l : Fin 8) (d : Fin 64) :
    k1_pay8 (F := Ideal) v10 v106 v111 v112 (ix4 m u l d)
      = k1_pay7 (F := Ideal) v10 v106 v111 v112 (ix2 (⟨128 * m.val + 8 * u.val + l.val, by have := m.isLt; have := u.isLt; have := l.isLt; omega⟩ : Fin 4096) d)
        * k1_pay7 (F := Ideal) v10 v106 v111 v112 (ix2 (⟨128 * m.val + 8 * u.val + l.val, by have := m.isLt; have := u.isLt; have := l.isLt; omega⟩ : Fin 4096) d) := by
  unfold k1_pay8
  refine (shapeCast_apply _ _ (ix4 m u l d)
    (ix2 (⟨128 * m.val + 8 * u.val + l.val, by have := m.isLt; have := u.isLt; have := l.isLt; omega⟩ : Fin 4096) d) ?_).trans ?_
  · rw [Shape.rowMajor_val_two, Shape.rowMajor_val_four]
    show (128 * m.val + 8 * u.val + l.val) * 64 + d.val = ((m.val * 16 + u.val) * 8 + l.val) * 64 + d.val
    omega
  · rfl

/-! ## The sum over `m`, left to right, cut into four payloads -/

private theorem pay9_apply (v10 : FVec Ideal S4096x64 .f32) (v106 : FVec Ideal S16x8x64 .f32) (v111 : FVec Ideal S8x64 .f32)
    (v112 : FVec Ideal S1x8x64 .f32) (u : Fin 16) (l : Fin 8) (d : Fin 64) :
    k1_pay9 (F := Ideal) v10 v106 v111 v112 (ix3 u l d) = k1_pay8 (F := Ideal) v10 v106 v111 v112 (ix4 (0 : Fin 32) u l d) := by
  unfold k1_pay9
  exact slice4_drop _ 0 (by decide) _ _ u l d

private theorem pay10_apply (v10 : FVec Ideal S4096x64 .f32) (v106 : FVec Ideal S16x8x64 .f32) (v111 : FVec Ideal S8x64 .f32)
    (v112 : FVec Ideal S1x8x64 .f32) (u : Fin 16) (l : Fin 8) (d : Fin 64) :
    k1_pay10 (F := Ideal) v10 v106 v111 v112 (ix4 (0 : Fin 1) u l d) = k1_pay8 (F := Ideal) v10 v106 v111 v112 (ix4 (1 : Fin 32) u l d) := by
  unfold k1_pay10
  exact slice4_keep _ 1 (by decide) _ u l d

private theorem pay11_apply (q : FVec Ideal S32x16x8x64 .f32) (v170 : FVec Ideal S16x8x64 .f32) (v171 : FVec Ideal S1x16x8x64 .f32)
    (u : Fin 16) (l : Fin 8) (d : Fin 64) :
    k1_pay11 (F := Ideal) q v170 v171 (ix3 u l d)
      = v170 (ix3 u l d) + v171 (ix4 (0 : Fin 1) u l d) + q (ix4 (2 : Fin 32) u l d) + q (ix4 (3 : Fin 32) u l d) + q (ix4 (4 : Fin 32) u l d) + q (ix4 (5 : Fin 32) u l d) + q (ix4 (6 : Fin 32) u l d) + q (ix4 (7 : Fin 32) u l d) + q (ix4 (8 : Fin 32) u l d) + q (ix4 (9 : Fin 32) u l d) + q (ix4 (10 : Fin 32) u l d) + q (ix4 (11 : Fin 32) u l d) + q (ix4 (12 : Fin 32) u l d) + q (ix4 (13 : Fin 32) u l d) + q (ix4 (14 : Fin 32) u l d) + q (ix4 (15 : Fin 32) u l d) + q (ix4 (16 : Fin 32) u l d) + q (ix4 (17 : Fin 32) u l d) + q (ix4 (18 : Fin 32) u l d) + q (ix4 (19 : Fin 32) u l d) + q (ix4 (20 : Fin 32) u l d) := by
  unfold k1_pay11
  simp only [addf_apply]
  rw [shapeCast_1abc_abc_apply v171 _ u l d, slice4_drop q 2 (by decide), slice4_drop q 3 (by decide), slice4_drop q 4 (by decide), slice4_drop q 5 (by decide), slice4_drop q 6 (by decide), slice4_drop q 7 (by decide), slice4_drop q 8 (by decide), slice4_drop q 9 (by decide), slice4_drop q 10 (by decide), slice4_drop q 11 (by decide), slice4_drop q 12 (by decide), slice4_drop q 13 (by decide), slice4_drop q 14 (by decide), slice4_drop q 15 (by decide), slice4_drop q 16 (by decide), slice4_drop q 17 (by decide), slice4_drop q 18 (by decide), slice4_drop q 19 (by decide), slice4_drop q 20 (by decide)]
  rfl

private theorem pay12_apply (q : FVec Ideal S32x16x8x64 .f32) (u : Fin 16) (l : Fin 8) (d : Fin 64) :
    k1_pay12 (F := Ideal) q (ix4 (0 : Fin 1) u l d) = q (ix4 (21 : Fin 32) u l d) := by
  unfold k1_pay12
  exact slice4_keep _ 21 (by decide) _ u l d

private theorem pay13_apply (q : FVec Ideal S32x16x8x64 .f32) (v230 : FVec Ideal S16x8x64 .f32) (v231 : FVec Ideal S1x16x8x64 .f32)
    (u : Fin 16) (l : Fin 8) (d : Fin 64) :
    k1_pay13 (F := Ideal) q v230 v231 (ix3 u l d)
      = v230 (ix3 u l d) + v231 (ix4 (0 : Fin 1) u l d) + q (ix4 (22 : Fin 32) u l d) + q (ix4 (23 : Fin 32) u l d) + q (ix4 (24 : Fin 32) u l d) + q (ix4 (25 : Fin 32) u l d) + q (ix4 (26 : Fin 32) u l d) + q (ix4 (27 : Fin 32) u l d) + q (ix4 (28 : Fin 32) u l d) + q (ix4 (29 : Fin 32) u l d) + q (ix4 (30 : Fin 32) u l d) + q (ix4 (31 : Fin 32) u l d) := by
  unfold k1_pay13
  simp only [addf_apply]
  rw [shapeCast_1abc_abc_apply v231 _ u l d, slice4_drop q 22 (by decide), slice4_drop q 23 (by decide), slice4_drop q 24 (by decide), slice4_drop q 25 (by decide), slice4_drop q 26 (by decide), slice4_drop q 27 (by decide), slice4_drop q 28 (by decide), slice4_drop q 29 (by decide), slice4_drop q 30 (by decide), slice4_drop q 31 (by decide)]
  rfl

/-- The 32 slices added left to right: at `(u, l, d)` the sum over `m` of the squares at `(m, u, l, d)`. -/
private theorem sum_m_apply (v10 : FVec Ideal S4096x64 .f32) (v106 : FVec Ideal S16x8x64 .f32) (v111 : FVec Ideal S8x64 .f32)
    (v112 : FVec Ideal S1x8x64 .f32) (u : Fin 16) (l : Fin 8) (d : Fin 64) :
    k1_pay13 (F := Ideal) (k1_pay8 (F := Ideal) v10 v106 v111 v112) (k1_pay11 (F := Ideal) (k1_pay8 (F := Ideal) v10 v106 v111 v112) (k1_pay9 (F := Ideal) v10 v106 v111 v112) (k1_pay10 (F := Ideal) v10 v106 v111 v112))
        (k1_pay12 (F := Ideal) (k1_pay8 (F := Ideal) v10 v106 v111 v112)) (ix3 u l d)
      = ∑ m : Fin 32, k1_pay8 (F := Ideal) v10 v106 v111 v112 (ix4 m u l d) := by
  rw [pay13_apply, pay11_apply, pay12_apply, pay9_apply, pay10_apply]
  exact Cert.Math.chain32 (fun m : Fin 32 => k1_pay8 (F := Ideal) v10 v106 v111 v112 (ix4 m u l d))

/-! ## The sum over `u`, left to right, cut into three payloads; the pairwise fold over `l`; the normalisation -/

private theorem pay14_apply (q : FVec Ideal S32x16x8x64 .f32) (v230 : FVec Ideal S16x8x64 .f32) (v231 : FVec Ideal S1x16x8x64 .f32)
    (l : Fin 8) (d : Fin 64) :
    k1_pay14 (F := Ideal) q v230 v231 (ix2 l d)
      = k1_pay13 (F := Ideal) q v230 v231 (ix3 (0 : Fin 16) l d)
        + k1_pay13 (F := Ideal) q v230 v231 (ix3 (1 : Fin 16) l d)
        + k1_pay13 (F := Ideal) q v230 v231 (ix3 (2 : Fin 16) l d)
        + k1_pay13 (F := Ideal) q v230 v231 (ix3 (3 : Fin 16) l d)
        + k1_pay13 (F := Ideal) q v230 v231 (ix3 (4 : Fin 16) l d)
        + k1_pay13 (F := Ideal) q v230 v231 (ix3 (5 : Fin 16) l d)
        + k1_pay13 (F := Ideal) q v230 v231 (ix3 (6 : Fin 16) l d)
        + k1_pay13 (F := Ideal) q v230 v231 (ix3 (7 : Fin 16) l d)
        + k1_pay13 (F := Ideal) q v230 v231 (ix3 (8 : Fin 16) l d) := by
  unfold k1_pay14
  simp only [addf_apply]
  rw [slice3_drop (k1_pay13 (F := Ideal) q v230 v231) 0 (by decide),
    slice3_drop (k1_pay13 (F := Ideal) q v230 v231) 1 (by decide),
    slice3_drop (k1_pay13 (F := Ideal) q v230 v231) 2 (by decide),
    slice3_drop (k1_pay13 (F := Ideal) q v230 v231) 3 (by decide),
    slice3_drop (k1_pay13 (F := Ideal) q v230 v231) 4 (by decide),
    slice3_drop (k1_pay13 (F := Ideal) q v230 v231) 5 (by decide),
    slice3_drop (k1_pay13 (F := Ideal) q v230 v231) 6 (by decide),
    slice3_drop (k1_pay13 (F := Ideal) q v230 v231) 7 (by decide),
    slice3_drop (k1_pay13 (F := Ideal) q v230 v231) 8 (by decide)]
  rfl

private theorem pay15_apply (q : FVec Ideal S32x16x8x64 .f32) (v230 : FVec Ideal S16x8x64 .f32) (v231 : FVec Ideal S1x16x8x64 .f32)
    (l : Fin 8) (d : Fin 64) :
    k1_pay15 (F := Ideal) q v230 v231 (ix2 l d) = k1_pay13 (F := Ideal) q v230 v231 (ix3 (9 : Fin 16) l d) := by
  unfold k1_pay15
  exact slice3_drop _ 9 (by decide) _ _ l d

/-- The square root of a vector, read at an index. -/
private theorem sqrt_apply {s : Shape} (v : FVec Ideal s .f32) (i : s.Idx) : sqrt v i = Ideal.sqrt (v i) := rfl

/-- The column sums of the last payload before the fold over `l`. -/
private def colsum (v263 : FVec Ideal S16x8x64 .f32) (v289 v291 : FVec Ideal S8x64 .f32) (d : Fin 64) (l : Fin 8) : EReal :=
  v289 (ix2 l d) + v291 (ix2 l d) + v263 (ix3 (10 : Fin 16) l d) + v263 (ix3 (11 : Fin 16) l d) + v263 (ix3 (12 : Fin 16) l d) + v263 (ix3 (13 : Fin 16) l d) + v263 (ix3 (14 : Fin 16) l d) + v263 (ix3 (15 : Fin 16) l d)

private theorem pay16_apply (v166 : FVec Ideal S4096x64 .f32) (v263 : FVec Ideal S16x8x64 .f32) (v289 v291 : FVec Ideal S8x64 .f32)
    (x3 x4 : Vec Ideal S1x64 .f32) (r : Fin 4096) (d : Fin 64) :
    k1_pay16 (F := Ideal) v166 v263 v289 v291 x3 x4 (ix2 r d)
      = max (Ideal.div (v166 (ix2 r d))
            (Ideal.sqrt ((((colsum v263 v289 v291 d 0 + colsum v263 v289 v291 d 4) + (colsum v263 v289 v291 d 2 + colsum v263 v289 v291 d 6))
                + ((colsum v263 v289 v291 d 1 + colsum v263 v289 v291 d 5) + (colsum v263 v289 v291 d 3 + colsum v263 v289 v291 d 7)))
              * Ideal.ofBits .f32 0x39800000#32 + Ideal.ofBits .f32 0x3727C5AC#32))
          * x3 (ix2 0 d) + x4 (ix2 0 d)) (Ideal.ofBits .f32 0x00000000#32) := by
  unfold k1_pay16 colsum
  simp only [maximumf_apply, addf_apply, mulf_apply, divf_apply, broadcast_apply, broadcastTo_1b_ab_apply, sqrt_apply,
    shapeCast_self, slice2_axis0_eq, slice3_drop v263 10 (by decide), slice3_drop v263 11 (by decide), slice3_drop v263 12 (by decide), slice3_drop v263 13 (by decide), slice3_drop v263 14 (by decide), slice3_drop v263 15 (by decide)]
  rfl

/-- The sixteen slices over `u` added left to right: the column sum at `(l, d)` is the sum over `u` and `m`. -/
private theorem colsum_eq (v10 : FVec Ideal S4096x64 .f32) (v106 : FVec Ideal S16x8x64 .f32) (v111 : FVec Ideal S8x64 .f32)
    (v112 : FVec Ideal S1x8x64 .f32) (l : Fin 8) (d : Fin 64) :
    colsum (k1_pay13 (F := Ideal) (k1_pay8 (F := Ideal) v10 v106 v111 v112) (k1_pay11 (F := Ideal) (k1_pay8 (F := Ideal) v10 v106 v111 v112) (k1_pay9 (F := Ideal) v10 v106 v111 v112) (k1_pay10 (F := Ideal) v10 v106 v111 v112)) (k1_pay12 (F := Ideal) (k1_pay8 (F := Ideal) v10 v106 v111 v112)))
        (k1_pay14 (F := Ideal) (k1_pay8 (F := Ideal) v10 v106 v111 v112) (k1_pay11 (F := Ideal) (k1_pay8 (F := Ideal) v10 v106 v111 v112) (k1_pay9 (F := Ideal) v10 v106 v111 v112) (k1_pay10 (F := Ideal) v10 v106 v111 v112)) (k1_pay12 (F := Ideal) (k1_pay8 (F := Ideal) v10 v106 v111 v112)))
        (k1_pay15 (F := Ideal) (k1_pay8 (F := Ideal) v10 v106 v111 v112) (k1_pay11 (F := Ideal) (k1_pay8 (F := Ideal) v10 v106 v111 v112) (k1_pay9 (F := Ideal) v10 v106 v111 v112) (k1_pay10 (F := Ideal) v10 v106 v111 v112)) (k1_pay12 (F := Ideal) (k1_pay8 (F := Ideal) v10 v106 v111 v112))) d l
      = ∑ u : Fin 16, ∑ m : Fin 32, k1_pay8 (F := Ideal) v10 v106 v111 v112 (ix4 m u l d) := by
  unfold colsum
  rw [pay14_apply, pay15_apply]
  simp only [sum_m_apply]
  exact Cert.Math.chain16 (fun u : Fin 16 => ∑ m : Fin 32, k1_pay8 (F := Ideal) v10 v106 v111 v112 (ix4 m u l d))

/-- The three-level sum of the squares is their sum over the 4096 rows. -/
private theorem sum_sq (v10 : FVec Ideal S4096x64 .f32) (v106 : FVec Ideal S16x8x64 .f32) (v111 : FVec Ideal S8x64 .f32)
    (v112 : FVec Ideal S1x8x64 .f32) (d : Fin 64) :
    (∑ l : Fin 8, ∑ u : Fin 16, ∑ m : Fin 32, k1_pay8 (F := Ideal) v10 v106 v111 v112 (ix4 m u l d))
      = ∑ r' : Fin 4096, k1_pay7 (F := Ideal) v10 v106 v111 v112 (ix2 r' d) * k1_pay7 (F := Ideal) v10 v106 v111 v112 (ix2 r' d) :=
  (Finset.sum_congr rfl fun l _ => Finset.sum_congr rfl fun u _ => Finset.sum_congr rfl fun m _ =>
      sq_apply v10 v106 v111 v112 m u l d).trans
    (Cert.Math.regroup4096 (fun r' : Fin 4096 => k1_pay7 (F := Ideal) v10 v106 v111 v112 (ix2 r' d) * k1_pay7 (F := Ideal) v10 v106 v111 v112 (ix2 r' d)))

/-- The word `0x39800000` is `2 ^ (-12) = 1 / 4096`. -/
private theorem ofBits_c4096 : Ideal.ofBits .f32 0x39800000#32 = Cert.Spec.c4096 := by
  unfold Cert.Spec.c4096
  simp [Ideal.ofBits, Ideal.ieee, -EReal.coe_mul]
  norm_num

/-- The body's last payload over the centred values `dd` (the seventh payload, kept folded), entry by entry. -/
theorem var_half (v10 : FVec Ideal S4096x64 .f32) (v106 : FVec Ideal S16x8x64 .f32) (v111 : FVec Ideal S8x64 .f32)
    (v112 : FVec Ideal S1x8x64 .f32) (x3 x4 : Vec Ideal S1x64 .f32) (r : Fin 4096) (d : Fin 64) :
    k1_pay16 (F := Ideal) (k1_pay7 v10 v106 v111 v112)
        (k1_pay13 (k1_pay8 v10 v106 v111 v112) (k1_pay11 (k1_pay8 v10 v106 v111 v112) (k1_pay9 v10 v106 v111 v112) (k1_pay10 v10 v106 v111 v112)) (k1_pay12 (k1_pay8 v10 v106 v111 v112)))
        (k1_pay14 (k1_pay8 v10 v106 v111 v112) (k1_pay11 (k1_pay8 v10 v106 v111 v112) (k1_pay9 v10 v106 v111 v112) (k1_pay10 v10 v106 v111 v112)) (k1_pay12 (k1_pay8 v10 v106 v111 v112)))
        (k1_pay15 (k1_pay8 v10 v106 v111 v112) (k1_pay11 (k1_pay8 v10 v106 v111 v112) (k1_pay9 v10 v106 v111 v112) (k1_pay10 v10 v106 v111 v112)) (k1_pay12 (k1_pay8 v10 v106 v111 v112))) x3 x4 (ix2 r d)
      = max (Ideal.div (k1_pay7 (F := Ideal) v10 v106 v111 v112 (ix2 r d))
            (Ideal.sqrt ((∑ r' : Fin 4096, k1_pay7 (F := Ideal) v10 v106 v111 v112 (ix2 r' d) * k1_pay7 (F := Ideal) v10 v106 v111 v112 (ix2 r' d))
              * Spec.c4096 + Spec.eps))
          * x3 (ix2 0 d) + x4 (ix2 0 d)) 0 := by
  rw [pay16_apply]
  simp only [colsum_eq]
  rw [Cert.Math.tree8 (fun l : Fin 8 => ∑ u : Fin 16, ∑ m : Fin 32, k1_pay8 (F := Ideal) v10 v106 v111 v112 (ix4 m u l d)), sum_sq, ofBits_c4096,
    Ideal.ofBits_zero_f32]
  rfl

end Cert.KernelIdeal.LayerVar

end
-- ==== Proof.KBnBody.lean ====
/-
  The affine + batch-normalisation + positive-part kernel's body, at the extended reals, entry by entry.
  The body forms `y = x wt + b` (a 64-term product sum per entry), sums each feature column of `y` over the 4096
  rows as `32 × 16 × 8` groups (row `128 m + 8 u + l`: left to right over `m`, then over `u`, the last eight
  folded pairwise), scales by 1/4096 for the mean, centres, sums the squares the same way for the variance,
  and writes `max ((y - mean) / sqrt (variance + eps) * g + be) 0`.  Regrouped, the two column sums are plain sums
  over the rows, so the result is `Spec.layer` with `wt` the transposed weight and the three `[1, 64]` rows read
  as vectors.
-/
import proofs.«105735_g86071144612153_cont_sun_m_685_12_alg».proof.Proof.Gen.KernelIdeal.Frame
import proofs.«105735_g86071144612153_cont_sun_m_685_12_alg».proof.Proof.Spec
import proofs.«105735_g86071144612153_cont_sun_m_685_12_alg».proof.Proof.Math
import proofs.«105735_g86071144612153_cont_sun_m_685_12_alg».proof.Proof.KBnVar
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost
import Idealize.ShloMosaic.Lib.StackMember

set_option maxRecDepth 16384

noncomputable section

open scoped BigOperators

namespace Cert.KernelIdeal.LayerBody

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## Layout operations of the body, read at an index -/

/-- The 4096 rows regrouped as 32 × 16 × 8: group `(m, u, l)` is row `128 m + 8 u + l`. -/
theorem regroup_apply (y : FVec Ideal S4096x64 .f32) (h : S4096x64.ShapeCasts S32x16x8x64)
    (m : Fin 32) (u : Fin 16) (l : Fin 8) (d : Fin 64) :
    shapeCast S32x16x8x64 y h (ix4 m u l d)
      = y (ix2 (⟨128 * m.val + 8 * u.val + l.val, by have := m.isLt; have := u.isLt; have := l.isLt; omega⟩ : Fin 4096) d) := by
  refine shapeCast_apply y h _ _ ?_
  rw [Shape.rowMajor_val_two, Shape.rowMajor_val_four]
  show (128 * m.val + 8 * u.val + l.val) * 64 + d.val = ((m.val * 16 + u.val) * 8 + l.val) * 64 + d.val
  omega

/-- Slab `m` of a 32 × 16 × 8 × 64 array, read as a 16 × 8 × 64 array, is the array at leading coordinate `m`. -/
theorem slab_apply (z4 : FVec Ideal S32x16x8x64 .f32) (mv : Nat) (h : S32x16x8x64.Slices ![mv, 0, 0, 0] S1x16x8x64)
    (hc : S1x16x8x64.ShapeCasts S16x8x64) (u : Fin 16) (l : Fin 8) (d : Fin 64) :
    shapeCast S16x8x64 (extractStridedSlice S1x16x8x64 ![mv, 0, 0, 0] z4 h) hc (ix3 u l d)
      = z4 (ix4 (⟨mv, by obtain ⟨_, h2⟩ := h; have := h2 0; simp at this; omega⟩ : Fin 32) u l d) := by
  rw [shapeCast_1abc_abc_apply]
  refine extractStridedSlice_apply _ z4 h _ _ fun a => ?_
  match a with
  | ⟨0, _⟩ => rfl
  | ⟨1, _⟩ => exact (Nat.zero_add _).symm
  | ⟨2, _⟩ => exact (Nat.zero_add _).symm
  | ⟨3, _⟩ => exact (Nat.zero_add _).symm

/-- Row block `u` of a 16 × 8 × 64 array, kept with its unit axis, is the array at leading coordinate `u`. -/
theorem rowslice_apply (a3 : FVec Ideal S16x8x64 .f32) (uv : Nat) (h : S16x8x64.Slices ![uv, 0, 0] S1x8x64)
    (i : Fin 1) (l : Fin 8) (d : Fin 64) :
    extractStridedSlice S1x8x64 ![uv, 0, 0] a3 h (ix3 i l d)
      = a3 (ix3 (⟨uv, by obtain ⟨_, h2⟩ := h; have := h2 0; simp at this; omega⟩ : Fin 16) l d) := by
  refine extractStridedSlice_apply _ a3 h _ _ fun a => ?_
  match a with
  | ⟨0, _⟩ => show uv = uv + i.val; omega
  | ⟨1, _⟩ => exact (Nat.zero_add _).symm
  | ⟨2, _⟩ => exact (Nat.zero_add _).symm

/-- Row block `u` of a 16 × 8 × 64 array, read as an 8 × 64 array, is the array at leading coordinate `u`. -/
theorem rowblock_apply (a3 : FVec Ideal S16x8x64 .f32) (uv : Nat) (h : S16x8x64.Slices ![uv, 0, 0] S1x8x64)
    (hc : S1x8x64.ShapeCasts S8x64) (l : Fin 8) (d : Fin 64) :
    shapeCast S8x64 (extractStridedSlice S1x8x64 ![uv, 0, 0] a3 h) hc (ix2 l d)
      = a3 (ix3 (⟨uv, by obtain ⟨_, h2⟩ := h; have := h2 0; simp at this; omega⟩ : Fin 16) l d) := by
  rw [shapeCast_1ab_ab_apply, rowslice_apply]

/-! ## The sums as the body adds them -/

/-- The first fourteen terms of a 32-term sum, left to right. -/
def head14 (f : Fin 32 → EReal) : EReal :=
  f 0 + f 1 + f 2 + f 3 + f 4 + f 5 + f 6 + f 7 + f 8 + f 9 + f 10 + f 11 + f 12 + f 13

/-- A partial sum continued, left to right, by terms 14 to 31 of a 32-term sum. -/
def tail18 (a : EReal) (f : Fin 32 → EReal) : EReal :=
  a + f 14 + f 15 + f 16 + f 17 + f 18 + f 19 + f 20 + f 21 + f 22 + f 23 + f 24 + f 25 + f 26 + f 27 + f 28 + f 29
    + f 30 + f 31

/-- Fourteen terms then eighteen are the whole sum. -/
theorem tail18_head14 (f : Fin 32 → EReal) : tail18 (head14 f) f = ∑ m, f m := Math.chain32 f

/-- A partial sum continued, left to right, by terms 3 to 15 of a 16-term sum. -/
def tail13 (a : EReal) (f : Fin 16 → EReal) : EReal :=
  a + f 3 + f 4 + f 5 + f 6 + f 7 + f 8 + f 9 + f 10 + f 11 + f 12 + f 13 + f 14 + f 15

/-- Three terms then thirteen are the whole sum. -/
theorem tail13_head3 (f : Fin 16 → EReal) : tail13 (f 0 + f 1 + f 2) f = ∑ u, f u := Math.chain16 f

/-- Eight terms folded pairwise: halves, then halves of the halves, then the last two. -/
def fold8 (c : Fin 8 → EReal) : EReal := ((c 0 + c 4) + (c 2 + c 6)) + ((c 1 + c 5) + (c 3 + c 7))

/-- The pairwise fold is the sum. -/
theorem fold8_eq (c : Fin 8 → EReal) : fold8 c = ∑ l, c l := Math.tree8 c

/-- The word the body scales a column sum by is one over the batch size. -/
theorem word_c4096 : Ideal.ofBits .f32 0x39800000#32 = Spec.c4096 := by
  simp [Ideal.ofBits, Ideal.ieee, Spec.c4096, -EReal.coe_mul]; norm_num

/-! ## The payloads, entry by entry -/

/-- The kernel's product of a 4096 × 64 by a 64 × 64 matrix into zeros, entry by entry: the 64-term sum of products
    (the product is the plain one: rows by the contracted axis, the contracted axis by columns). -/
theorem mm_apply (A : FVec Ideal S4096x64 .bf16) (B : FVec Ideal S64x64 .bf16) (r : Fin 4096) (d : Fin 64) :
    matmul dot_S4096x64_S64x64_S4096x64_1_0_0_1_n_n none A B (constant (F := Ideal) S4096x64 .f32 0x00000000#32) (ix2 r d)
      = ∑ k : Fin 64, A (ix2 r k) * B (ix2 k d) := by
  rw [matmul_zero_eq_dotGeneral]
  exact StackMember.dotGeneral_plain_apply none A B r d

/-- The first payload, entry by entry: the product sum over the 64 input features plus the bias row. -/
theorem pay1_apply (x0 : Vec Ideal S4096x64 .f32) (x1 : Vec Ideal S64x64 .f32) (x2 : Vec Ideal S1x64 .f32)
    (r : Fin 4096) (d : Fin 64) :
    k1_pay1 (F := Ideal) x0 x1 x2 (ix2 r d) = (∑ k : Fin 64, x0 (ix2 r k) * x1 (ix2 k d)) + x2 (ix2 0 d) := by
  unfold k1_pay1
  simp only [addf_apply, shapeCast_self, mm_apply, truncf_apply, broadcastTo_1b_ab_apply]

/-- The first payload is the affine map of the specification, the weight read transposed. -/
theorem pay1_eq_lin (x0 : Vec Ideal S4096x64 .f32) (x1 : Vec Ideal S64x64 .f32) (x2 : Vec Ideal S1x64 .f32) :
    k1_pay1 (F := Ideal) x0 x1 x2 = Spec.lin x0 (Spec.tr x1) (Spec.unrow x2) := by
  funext j
  obtain ⟨r, d, rfl⟩ : ∃ (r : Fin 4096) (d : Fin 64), j = ix2 r d := ⟨j 0, j 1, eq_ix2 j⟩
  rw [pay1_apply]
  rfl

/-- The second payload: the first regrouped, group `(m, u, l)` being row `128 m + 8 u + l`. -/
theorem pay2_apply (x0 : Vec Ideal S4096x64 .f32) (x1 : Vec Ideal S64x64 .f32) (x2 : Vec Ideal S1x64 .f32)
    (m : Fin 32) (u : Fin 16) (l : Fin 8) (d : Fin 64) :
    k1_pay2 (F := Ideal) x0 x1 x2 (ix4 m u l d)
      = k1_pay1 (F := Ideal) x0 x1 x2
          (ix2 (⟨128 * m.val + 8 * u.val + l.val, by have := m.isLt; have := u.isLt; have := l.isLt; omega⟩ : Fin 4096) d) := by
  unfold k1_pay2
  exact regroup_apply _ _ m u l d

/-- The third payload: slabs 0 to 13 added left to right. -/
theorem pay3_apply (x0 : Vec Ideal S4096x64 .f32) (x1 : Vec Ideal S64x64 .f32) (x2 : Vec Ideal S1x64 .f32)
    (u : Fin 16) (l : Fin 8) (d : Fin 64) :
    k1_pay3 (F := Ideal) x0 x1 x2 (ix3 u l d) = head14 fun m => k1_pay2 (F := Ideal) x0 x1 x2 (ix4 m u l d) := by
  unfold k1_pay3
  simp only [addf_apply, slab_apply]
  rfl

/-- The fourth payload: the incoming partial sum continued by slabs 14 to 31. -/
theorem pay4_apply (z4 : FVec Ideal S32x16x8x64 .f32) (v52 : FVec Ideal S16x8x64 .f32) (u : Fin 16) (l : Fin 8) (d : Fin 64) :
    k1_pay4 (F := Ideal) z4 v52 (ix3 u l d) = tail18 (v52 (ix3 u l d)) fun m => z4 (ix4 m u l d) := by
  unfold k1_pay4
  simp only [addf_apply, slab_apply]
  rfl

/-- The fifth payload: row blocks 0 and 1 of the fourth, added. -/
theorem pay5_apply (z4 : FVec Ideal S32x16x8x64 .f32) (v52 : FVec Ideal S16x8x64 .f32) (l : Fin 8) (d : Fin 64) :
    k1_pay5 (F := Ideal) z4 v52 (ix2 l d)
      = k1_pay4 (F := Ideal) z4 v52 (ix3 0 l d) + k1_pay4 (F := Ideal) z4 v52 (ix3 1 l d) := by
  unfold k1_pay5
  simp only [addf_apply, rowblock_apply]
  rfl

/-- The sixth payload: row block 2 of the fourth. -/
theorem pay6_apply (z4 : FVec Ideal S32x16x8x64 .f32) (v52 : FVec Ideal S16x8x64 .f32) (i : Fin 1) (l : Fin 8) (d : Fin 64) :
    k1_pay6 (F := Ideal) z4 v52 (ix3 i l d) = k1_pay4 (F := Ideal) z4 v52 (ix3 2 l d) := by
  unfold k1_pay6
  simp only [rowslice_apply]
  rfl

/-- The seventh payload: the row-block sums continued by blocks 3 to 15, the eight rows left folded pairwise, the
    total scaled by the body's word, and the first argument centred by it. -/
theorem pay7_apply (v10 : FVec Ideal S4096x64 .f32) (v106 : FVec Ideal S16x8x64 .f32) (v111 : FVec Ideal S8x64 .f32)
    (v112 : FVec Ideal S1x8x64 .f32) (r : Fin 4096) (d : Fin 64) :
    k1_pay7 (F := Ideal) v10 v106 v111 v112 (ix2 r d)
      = v10 (ix2 r d)
        - fold8 (fun l => tail13 (v111 (ix2 l d) + v112 (ix3 0 l d)) fun u => v106 (ix3 u l d))
          * Ideal.ofBits .f32 0x39800000#32 := by
  unfold k1_pay7
  simp only [subf_apply, mulf_apply, addf_apply, broadcast_apply, broadcastTo_1b_ab_apply, slice2_axis0_eq,
    shapeCast_1ab_ab_apply, rowslice_apply]
  rfl

/-! ## The column mean and the centring -/

/-- Payloads four to seven over a regrouped array `z4` of `y` whose first fourteen slabs are already added: the
    32-term, 16-term and pairwise sums regroup to the plain sum over the 4096 rows, so the seventh payload centres
    `y` by its column mean. -/
theorem centre_apply (y : FVec Ideal S4096x64 .f32) (z4 : FVec Ideal S32x16x8x64 .f32) (v52 : FVec Ideal S16x8x64 .f32)
    (hz4 : ∀ (m : Fin 32) (u : Fin 16) (l : Fin 8) (d : Fin 64), z4 (ix4 m u l d)
      = y (ix2 (⟨128 * m.val + 8 * u.val + l.val, by have := m.isLt; have := u.isLt; have := l.isLt; omega⟩ : Fin 4096) d))
    (h52 : ∀ (u : Fin 16) (l : Fin 8) (d : Fin 64), v52 (ix3 u l d) = head14 fun m => z4 (ix4 m u l d))
    (r : Fin 4096) (d : Fin 64) :
    k1_pay7 (F := Ideal) y (k1_pay4 z4 v52) (k1_pay5 z4 v52) (k1_pay6 z4 v52) (ix2 r d) = y (ix2 r d) - Spec.mu y d := by
  -- the 32-term sum over the slabs
  have h4 : ∀ (u : Fin 16) (l : Fin 8), k1_pay4 (F := Ideal) z4 v52 (ix3 u l d) = ∑ m : Fin 32, z4 (ix4 m u l d) := fun u l => by
    rw [pay4_apply, h52, tail18_head14]
  -- the 16-term sum over the row blocks
  have hc : ∀ l : Fin 8, tail13 (k1_pay5 (F := Ideal) z4 v52 (ix2 l d) + k1_pay6 (F := Ideal) z4 v52 (ix3 0 l d))
      (fun u => k1_pay4 (F := Ideal) z4 v52 (ix3 u l d)) = ∑ u : Fin 16, ∑ m : Fin 32, z4 (ix4 m u l d) := fun l => by
    rw [pay5_apply, pay6_apply]
    refine (tail13_head3 fun u => k1_pay4 (F := Ideal) z4 v52 (ix3 u l d)).trans ?_
    exact Finset.sum_congr rfl fun u _ => h4 u l
  rw [pay7_apply, word_c4096]
  refine congrArg (fun t => y (ix2 r d) - t * Spec.c4096) ?_
  rw [fold8_eq]
  refine (Finset.sum_congr rfl fun l _ => hc l).trans ?_
  refine (Finset.sum_congr rfl fun l _ => Finset.sum_congr rfl fun u _ => Finset.sum_congr rfl fun m _ => hz4 m u l d).trans ?_
  exact Math.regroup4096 fun r' => y (ix2 r' d)

/-! ## The body -/

/-- What the body leaves in the output buffer, at the extended reals, is the layer of the specification. -/
theorem layer_body (x0 : Vec Ideal S4096x64 .f32) (x1 : Vec Ideal S64x64 .f32) (x2 x3 x4 : Vec Ideal S1x64 .f32) :
    out1_5 (F := Ideal) x0 x1 x2 x3 x4
      = Spec.layer x0 (Spec.tr x1) (Spec.unrow x2) (Spec.unrow x3) (Spec.unrow x4) := by
  have hz : (![0, 0] : Fin 2 → Nat) = fun _ => 0 := by funext a; fin_cases a <;> rfl
  unfold out1_5
  rw [View.canon_unit_zero hz]
  simp only [View.ld_unit_zero (S := S4096x64) hz, View.ld_unit_zero (S := S64x64) hz, View.ld_unit_zero (S := S1x64) hz]
  funext j
  obtain ⟨r, d, rfl⟩ : ∃ (r : Fin 4096) (d : Fin 64), j = ix2 r d := ⟨j 0, j 1, eq_ix2 j⟩
  -- the second half of the body, over the centred values
  refine (LayerVar.var_half _ _ _ _ x3 x4 r d).trans ?_
  -- the centred values are `y - mean`, with `y` the affine map
  have hdd : ∀ r' : Fin 4096, k1_pay7 (F := Ideal) (k1_pay1 x0 x1 x2)
      (k1_pay4 (k1_pay2 x0 x1 x2) (k1_pay3 x0 x1 x2)) (k1_pay5 (k1_pay2 x0 x1 x2) (k1_pay3 x0 x1 x2))
      (k1_pay6 (k1_pay2 x0 x1 x2) (k1_pay3 x0 x1 x2)) (ix2 r' d)
        = Spec.lin x0 (Spec.tr x1) (Spec.unrow x2) (ix2 r' d) - Spec.mu (Spec.lin x0 (Spec.tr x1) (Spec.unrow x2)) d := fun r' => by
    rw [centre_apply (k1_pay1 x0 x1 x2) (k1_pay2 x0 x1 x2) (k1_pay3 x0 x1 x2) (pay2_apply x0 x1 x2) (pay3_apply x0 x1 x2) r' d,
      pay1_eq_lin]
  simp only [hdd]
  rfl

end Cert.KernelIdeal.LayerBody

end
-- ==== Proof.KBn.lean ====
/-
  Regions 1, 3 and 5, the affine + batch-normalisation + positive-part kernel, each a single point over whole arrays:
  the one block of each window is the whole array, so the output array after the region is the body's result of the
  input arrays at entry, and the three kernels' bodies are one term.
  The body forms `y = x wt + b` (a 64-term product sum per entry), sums each feature column of `y` over the 4096
  rows as `32 × 16 × 8` groups (row `128 m + 8 u + l`: left to right over `m`, then over `u`, the last eight
  folded pairwise), scales by 1/4096 for the mean, centres, sums the squares the same way for the variance,
  and writes `max ((y - mean) / sqrt (variance + eps) * g + be) 0`.  That is `Spec.layer`, with `wt` the
  transposed weight and the three `[1, 64]` rows read as vectors.
-/
import proofs.«105735_g86071144612153_cont_sun_m_685_12_alg».proof.Proof.Gen.KernelIdeal.Frame
import proofs.«105735_g86071144612153_cont_sun_m_685_12_alg».proof.Proof.Spec
import proofs.«105735_g86071144612153_cont_sun_m_685_12_alg».proof.Proof.Math
import proofs.«105735_g86071144612153_cont_sun_m_685_12_alg».proof.Proof.KBnBody
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.LayerValue

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## Region 3's payloads are region 1's: the printed terms coincide -/

section Same3
variable {F : FTy → Type} [FloatOps F]

theorem pay1_3 (v0 : Vec F S4096x64 .f32) (v3 : Vec F S64x64 .f32) (v7 : Vec F S1x64 .f32) :
    k3_pay1 v0 v3 v7 = k1_pay1 v0 v3 v7 := rfl
theorem pay2_3 (v0 : Vec F S4096x64 .f32) (v3 : Vec F S64x64 .f32) (v7 : Vec F S1x64 .f32) :
    k3_pay2 v0 v3 v7 = k1_pay2 v0 v3 v7 := rfl
theorem pay3_3 (v0 : Vec F S4096x64 .f32) (v3 : Vec F S64x64 .f32) (v7 : Vec F S1x64 .f32) :
    k3_pay3 v0 v3 v7 = k1_pay3 v0 v3 v7 := rfl
theorem pay4_3 (v11 : FVec F S32x16x8x64 .f32) (v52 : FVec F S16x8x64 .f32) :
    k3_pay4 v11 v52 = k1_pay4 v11 v52 := rfl
theorem pay5_3 (v11 : FVec F S32x16x8x64 .f32) (v52 : FVec F S16x8x64 .f32) :
    k3_pay5 v11 v52 = k1_pay5 v11 v52 := rfl
theorem pay6_3 (v11 : FVec F S32x16x8x64 .f32) (v52 : FVec F S16x8x64 .f32) :
    k3_pay6 v11 v52 = k1_pay6 v11 v52 := rfl
theorem pay7_3 (v10 : FVec F S4096x64 .f32) (v106 : FVec F S16x8x64 .f32) (v111 : FVec F S8x64 .f32) (v112 : FVec F S1x8x64 .f32) :
    k3_pay7 v10 v106 v111 v112 = k1_pay7 v10 v106 v111 v112 := rfl
theorem pay8_3 (v10 : FVec F S4096x64 .f32) (v106 : FVec F S16x8x64 .f32) (v111 : FVec F S8x64 .f32) (v112 : FVec F S1x8x64 .f32) :
    k3_pay8 v10 v106 v111 v112 = k1_pay8 v10 v106 v111 v112 := rfl
theorem pay9_3 (v10 : FVec F S4096x64 .f32) (v106 : FVec F S16x8x64 .f32) (v111 : FVec F S8x64 .f32) (v112 : FVec F S1x8x64 .f32) :
    k3_pay9 v10 v106 v111 v112 = k1_pay9 v10 v106 v111 v112 := rfl
theorem pay10_3 (v10 : FVec F S4096x64 .f32) (v106 : FVec F S16x8x64 .f32) (v111 : FVec F S8x64 .f32) (v112 : FVec F S1x8x64 .f32) :
    k3_pay10 v10 v106 v111 v112 = k1_pay10 v10 v106 v111 v112 := rfl
theorem pay11_3 (v168 : FVec F S32x16x8x64 .f32) (v170 : FVec F S16x8x64 .f32) (v171 : FVec F S1x16x8x64 .f32) :
    k3_pay11 v168 v170 v171 = k1_pay11 v168 v170 v171 := rfl
theorem pay12_3 (v168 : FVec F S32x16x8x64 .f32) :
    k3_pay12 v168 = k1_pay12 v168 := rfl
theorem pay13_3 (v168 : FVec F S32x16x8x64 .f32) (v230 : FVec F S16x8x64 .f32) (v231 : FVec F S1x16x8x64 .f32) :
    k3_pay13 v168 v230 v231 = k1_pay13 v168 v230 v231 := rfl
theorem pay14_3 (v168 : FVec F S32x16x8x64 .f32) (v230 : FVec F S16x8x64 .f32) (v231 : FVec F S1x16x8x64 .f32) :
    k3_pay14 v168 v230 v231 = k1_pay14 v168 v230 v231 := rfl
theorem pay15_3 (v168 : FVec F S32x16x8x64 .f32) (v230 : FVec F S16x8x64 .f32) (v231 : FVec F S1x16x8x64 .f32) :
    k3_pay15 v168 v230 v231 = k1_pay15 v168 v230 v231 := rfl
theorem pay16_3 (v166 : FVec F S4096x64 .f32) (v263 : FVec F S16x8x64 .f32) (v289 : FVec F S8x64 .f32) (v291 : FVec F S8x64 .f32) (v327 : Vec F S1x64 .f32) (v331 : Vec F S1x64 .f32) :
    k3_pay16 v166 v263 v289 v291 v327 v331 = k1_pay16 v166 v263 v289 v291 v327 v331 := rfl

end Same3

/-! ## Region 5's payloads are region 1's: the printed terms coincide -/

section Same5
variable {F : FTy → Type} [FloatOps F]

theorem pay1_5 (v0 : Vec F S4096x64 .f32) (v3 : Vec F S64x64 .f32) (v7 : Vec F S1x64 .f32) :
    k5_pay1 v0 v3 v7 = k1_pay1 v0 v3 v7 := rfl
theorem pay2_5 (v0 : Vec F S4096x64 .f32) (v3 : Vec F S64x64 .f32) (v7 : Vec F S1x64 .f32) :
    k5_pay2 v0 v3 v7 = k1_pay2 v0 v3 v7 := rfl
theorem pay3_5 (v0 : Vec F S4096x64 .f32) (v3 : Vec F S64x64 .f32) (v7 : Vec F S1x64 .f32) :
    k5_pay3 v0 v3 v7 = k1_pay3 v0 v3 v7 := rfl
theorem pay4_5 (v11 : FVec F S32x16x8x64 .f32) (v52 : FVec F S16x8x64 .f32) :
    k5_pay4 v11 v52 = k1_pay4 v11 v52 := rfl
theorem pay5_5 (v11 : FVec F S32x16x8x64 .f32) (v52 : FVec F S16x8x64 .f32) :
    k5_pay5 v11 v52 = k1_pay5 v11 v52 := rfl
theorem pay6_5 (v11 : FVec F S32x16x8x64 .f32) (v52 : FVec F S16x8x64 .f32) :
    k5_pay6 v11 v52 = k1_pay6 v11 v52 := rfl
theorem pay7_5 (v10 : FVec F S4096x64 .f32) (v106 : FVec F S16x8x64 .f32) (v111 : FVec F S8x64 .f32) (v112 : FVec F S1x8x64 .f32) :
    k5_pay7 v10 v106 v111 v112 = k1_pay7 v10 v106 v111 v112 := rfl
theorem pay8_5 (v10 : FVec F S4096x64 .f32) (v106 : FVec F S16x8x64 .f32) (v111 : FVec F S8x64 .f32) (v112 : FVec F S1x8x64 .f32) :
    k5_pay8 v10 v106 v111 v112 = k1_pay8 v10 v106 v111 v112 := rfl
theorem pay9_5 (v10 : FVec F S4096x64 .f32) (v106 : FVec F S16x8x64 .f32) (v111 : FVec F S8x64 .f32) (v112 : FVec F S1x8x64 .f32) :
    k5_pay9 v10 v106 v111 v112 = k1_pay9 v10 v106 v111 v112 := rfl
theorem pay10_5 (v10 : FVec F S4096x64 .f32) (v106 : FVec F S16x8x64 .f32) (v111 : FVec F S8x64 .f32) (v112 : FVec F S1x8x64 .f32) :
    k5_pay10 v10 v106 v111 v112 = k1_pay10 v10 v106 v111 v112 := rfl
theorem pay11_5 (v168 : FVec F S32x16x8x64 .f32) (v170 : FVec F S16x8x64 .f32) (v171 : FVec F S1x16x8x64 .f32) :
    k5_pay11 v168 v170 v171 = k1_pay11 v168 v170 v171 := rfl
theorem pay12_5 (v168 : FVec F S32x16x8x64 .f32) :
    k5_pay12 v168 = k1_pay12 v168 := rfl
theorem pay13_5 (v168 : FVec F S32x16x8x64 .f32) (v230 : FVec F S16x8x64 .f32) (v231 : FVec F S1x16x8x64 .f32) :
    k5_pay13 v168 v230 v231 = k1_pay13 v168 v230 v231 := rfl
theorem pay14_5 (v168 : FVec F S32x16x8x64 .f32) (v230 : FVec F S16x8x64 .f32) (v231 : FVec F S1x16x8x64 .f32) :
    k5_pay14 v168 v230 v231 = k1_pay14 v168 v230 v231 := rfl
theorem pay15_5 (v168 : FVec F S32x16x8x64 .f32) (v230 : FVec F S16x8x64 .f32) (v231 : FVec F S1x16x8x64 .f32) :
    k5_pay15 v168 v230 v231 = k1_pay15 v168 v230 v231 := rfl
theorem pay16_5 (v166 : FVec F S4096x64 .f32) (v263 : FVec F S16x8x64 .f32) (v289 : FVec F S8x64 .f32) (v291 : FVec F S8x64 .f32) (v327 : Vec F S1x64 .f32) (v331 : Vec F S1x64 .f32) :
    k5_pay16 v166 v263 v289 v291 v327 v331 = k1_pay16 v166 v263 v289 v291 v327 v331 := rfl

end Same5

/-- The three kernels have one body: payload by payload the printed terms coincide. -/
theorem out3_eq {F : FTy → Type} [FloatOps F] (x0 : Vec F S4096x64 .f32) (x1 : Vec F S64x64 .f32) (x2 x3 x4 : Vec F S1x64 .f32) :
    out3_5 x0 x1 x2 x3 x4 = out1_5 x0 x1 x2 x3 x4 := by
  unfold out3_5 out1_5
  simp only [pay1_3, pay2_3, pay3_3, pay4_3, pay5_3, pay6_3, pay7_3, pay8_3, pay9_3, pay10_3, pay11_3, pay12_3, pay13_3, pay14_3, pay15_3, pay16_3]

theorem out5_eq {F : FTy → Type} [FloatOps F] (x0 : Vec F S4096x64 .f32) (x1 : Vec F S64x64 .f32) (x2 x3 x4 : Vec F S1x64 .f32) :
    out5_5 x0 x1 x2 x3 x4 = out1_5 x0 x1 x2 x3 x4 := by
  unfold out5_5 out1_5
  simp only [pay1_5, pay2_5, pay3_5, pay4_5, pay5_5, pay6_5, pay7_5, pay8_5, pay9_5, pay10_5, pay11_5, pay12_5, pay13_5, pay14_5, pay15_5, pay16_5]
variable (V : (c : Dev nD) → (b : Ref sig .tc) → Buf (Elt Ideal) ((c : Thread nD τ).loc b))

/-! ## Region 1: one point, every block the whole array -/

/-- Window 0's one block is its whole array: the block's origin is the array's and their extents agree. -/
theorem blk1_0 (c : Dev nD) (t : Fin cfg1.N) :
    (iblk1 V c 0 t : Vec Ideal S4096x64 .f32) = V c (Pipeline.arrRef spec1 0) := by
  refine funext fun (j : S4096x64.Idx) => ?_
  show V c (Pipeline.arrRef spec1 0) (((cfg1.win 0).blk t).view.emb j) = V c (Pipeline.arrRef spec1 0) j
  refine congrArg (V c (Pipeline.arrRef spec1 0)) (funext fun a => Fin.ext ?_)
  match a with
  | ⟨0, _⟩ => show win1_0.index t (0 : Fin 2) * 4096 + 1 * (j 0).val = (j 0).val; have h : win1_0.index t (0 : Fin 2) = 0 := rfl; omega
  | ⟨1, _⟩ => show win1_0.index t (1 : Fin 2) * 64 + 1 * (j 1).val = (j 1).val; have h : win1_0.index t (1 : Fin 2) = 0 := rfl; omega

/-- Window 1's one block is its whole array: the block's origin is the array's and their extents agree. -/
theorem blk1_1 (c : Dev nD) (t : Fin cfg1.N) :
    (iblk1 V c 1 t : Vec Ideal S64x64 .f32) = V c (Pipeline.arrRef spec1 1) := by
  refine funext fun (j : S64x64.Idx) => ?_
  show V c (Pipeline.arrRef spec1 1) (((cfg1.win 1).blk t).view.emb j) = V c (Pipeline.arrRef spec1 1) j
  refine congrArg (V c (Pipeline.arrRef spec1 1)) (funext fun a => Fin.ext ?_)
  match a with
  | ⟨0, _⟩ => show win1_1.index t (0 : Fin 2) * 64 + 1 * (j 0).val = (j 0).val; have h : win1_1.index t (0 : Fin 2) = 0 := rfl; omega
  | ⟨1, _⟩ => show win1_1.index t (1 : Fin 2) * 64 + 1 * (j 1).val = (j 1).val; have h : win1_1.index t (1 : Fin 2) = 0 := rfl; omega

/-- Window 2's one block is its whole array: the block's origin is the array's and their extents agree. -/
theorem blk1_2 (c : Dev nD) (t : Fin cfg1.N) :
    (iblk1 V c 2 t : Vec Ideal S1x64 .f32) = V c (Pipeline.arrRef spec1 2) := by
  refine funext fun (j : S1x64.Idx) => ?_
  show V c (Pipeline.arrRef spec1 2) (((cfg1.win 2).blk t).view.emb j) = V c (Pipeline.arrRef spec1 2) j
  refine congrArg (V c (Pipeline.arrRef spec1 2)) (funext fun a => Fin.ext ?_)
  match a with
  | ⟨0, _⟩ => show win1_2.index t (0 : Fin 2) * 1 + 1 * (j 0).val = (j 0).val; have h : win1_2.index t (0 : Fin 2) = 0 := rfl; omega
  | ⟨1, _⟩ => show win1_2.index t (1 : Fin 2) * 64 + 1 * (j 1).val = (j 1).val; have h : win1_2.index t (1 : Fin 2) = 0 := rfl; omega

/-- Window 3's one block is its whole array: the block's origin is the array's and their extents agree. -/
theorem blk1_3 (c : Dev nD) (t : Fin cfg1.N) :
    (iblk1 V c 3 t : Vec Ideal S1x64 .f32) = V c (Pipeline.arrRef spec1 3) := by
  refine funext fun (j : S1x64.Idx) => ?_
  show V c (Pipeline.arrRef spec1 3) (((cfg1.win 3).blk t).view.emb j) = V c (Pipeline.arrRef spec1 3) j
  refine congrArg (V c (Pipeline.arrRef spec1 3)) (funext fun a => Fin.ext ?_)
  match a with
  | ⟨0, _⟩ => show win1_3.index t (0 : Fin 2) * 1 + 1 * (j 0).val = (j 0).val; have h : win1_3.index t (0 : Fin 2) = 0 := rfl; omega
  | ⟨1, _⟩ => show win1_3.index t (1 : Fin 2) * 64 + 1 * (j 1).val = (j 1).val; have h : win1_3.index t (1 : Fin 2) = 0 := rfl; omega

/-- Window 4's one block is its whole array: the block's origin is the array's and their extents agree. -/
theorem blk1_4 (c : Dev nD) (t : Fin cfg1.N) :
    (iblk1 V c 4 t : Vec Ideal S1x64 .f32) = V c (Pipeline.arrRef spec1 4) := by
  refine funext fun (j : S1x64.Idx) => ?_
  show V c (Pipeline.arrRef spec1 4) (((cfg1.win 4).blk t).view.emb j) = V c (Pipeline.arrRef spec1 4) j
  refine congrArg (V c (Pipeline.arrRef spec1 4)) (funext fun a => Fin.ext ?_)
  match a with
  | ⟨0, _⟩ => show win1_4.index t (0 : Fin 2) * 1 + 1 * (j 0).val = (j 0).val; have h : win1_4.index t (0 : Fin 2) = 0 := rfl; omega
  | ⟨1, _⟩ => show win1_4.index t (1 : Fin 2) * 64 + 1 * (j 1).val = (j 1).val; have h : win1_4.index t (1 : Fin 2) = 0 := rfl; omega

/-- What the one point writes back is the whole of the specification's layer of the entry arrays. -/
theorem flushed1_eq (c : Dev nD) (t : Fin cfg1.N) :
    (dat1 (F := Ideal) V c).flushed 5 t = ((cfg1.win 5).blk t).view.read (Elt Ideal)
      (Spec.layer (V c (Pipeline.arrRef spec1 0)) (Spec.tr (V c (Pipeline.arrRef spec1 1)))
          (Spec.unrow (V c (Pipeline.arrRef spec1 2))) (Spec.unrow (V c (Pipeline.arrRef spec1 3)))
          (Spec.unrow (V c (Pipeline.arrRef spec1 4)))) := by
  show (cfg1.win 5).cut (grid1.coords t) ((dat1 V c).after 5 t) = _
  rw [after1_5, blk1_0, blk1_1, blk1_2, blk1_3, blk1_4, LayerBody.layer_body]
  refine funext fun (j : S4096x64.Idx) => ?_
  show _ = (Spec.layer (V c (Pipeline.arrRef spec1 0)) (Spec.tr (V c (Pipeline.arrRef spec1 1)))
          (Spec.unrow (V c (Pipeline.arrRef spec1 2))) (Spec.unrow (V c (Pipeline.arrRef spec1 3)))
          (Spec.unrow (V c (Pipeline.arrRef spec1 4)))) (((cfg1.win 5).blk t).view.emb j)
  refine congrArg (Spec.layer (V c (Pipeline.arrRef spec1 0)) (Spec.tr (V c (Pipeline.arrRef spec1 1)))
          (Spec.unrow (V c (Pipeline.arrRef spec1 2))) (Spec.unrow (V c (Pipeline.arrRef spec1 3)))
          (Spec.unrow (V c (Pipeline.arrRef spec1 4)))) (funext fun a => Fin.ext ?_)
  match a with
  | ⟨0, _⟩ => show (j 0).val = win1_5.index t (0 : Fin 2) * 4096 + 1 * (j 0).val; have h : win1_5.index t (0 : Fin 2) = 0 := rfl; omega
  | ⟨1, _⟩ => show (j 1).val = win1_5.index t (1 : Fin 2) * 64 + 1 * (j 1).val; have h : win1_5.index t (1 : Fin 2) = 0 := rfl; omega

/-- An index of the array is in the one block iff each coordinate is in the block's range on its axis. -/
theorem mem_blk1 (t : Fin cfg1.N) (i : S4096x64.Idx) :
    i ∈ ((cfg1.win 5).blk t).view.set ↔ ∀ a : Fin 2, win1_5.index t a * S4096x64.size a ≤ (i a).val
      ∧ (i a).val < win1_5.index t a * S4096x64.size a + S4096x64.size a := by
  show i ∈ ((View.whole main_call0_v4).slice (win1_5.rect t)).set ↔ _
  rw [View.set_slice_whole, Rect.mem_set_unit]
  exact Iff.rfl

/-- Every entry of the array is in the one point's block. -/
theorem cover1 (i : S4096x64.Idx) :
    ∃ t : Fin cfg1.N, (cfg1.win 5).flush t = true ∧ i ∈ ((cfg1.win 5).blk t).view.set := by
  have hi0 : (i 0).val < 4096 := (i 0).isLt
  have hi1 : (i 1).val < 64 := (i 1).isLt
  refine ⟨⟨0, Nat.one_pos⟩, flush1_5 _, ?_⟩
  rw [mem_blk1]
  intro a
  match a with
  | ⟨0, _⟩ =>
    show win1_5.index ⟨0, Nat.one_pos⟩ (0 : Fin 2) * 4096 ≤ (i 0).val
      ∧ (i 0).val < win1_5.index ⟨0, Nat.one_pos⟩ (0 : Fin 2) * 4096 + 4096
    have h : win1_5.index ⟨0, Nat.one_pos⟩ (0 : Fin 2) = 0 := rfl
    omega
  | ⟨1, _⟩ =>
    show win1_5.index ⟨0, Nat.one_pos⟩ (1 : Fin 2) * 64 ≤ (i 1).val
      ∧ (i 1).val < win1_5.index ⟨0, Nat.one_pos⟩ (1 : Fin 2) * 64 + 64
    have h : win1_5.index ⟨0, Nat.one_pos⟩ (1 : Fin 2) = 0 := rfl
    omega

/-- Region 1's output array after the region, as a function of its five input arrays at entry. -/
theorem layer_arr1 (c : Dev nD) :
    (dat1 (F := Ideal) V c).arrAt 5 cfg1.N
      = Spec.layer (V c (Pipeline.arrRef spec1 0)) (Spec.tr (V c (Pipeline.arrRef spec1 1)))
          (Spec.unrow (V c (Pipeline.arrRef spec1 2))) (Spec.unrow (V c (Pipeline.arrRef spec1 3)))
          (Spec.unrow (V c (Pipeline.arrRef spec1 4))) :=
  (dat1 (F := Ideal) V c).arrAt_eq_of_cover 5 _ (fun t _ => flushed1_eq V c t) (cover1)

/-! ## Region 3: one point, every block the whole array -/

/-- Window 0's one block is its whole array: the block's origin is the array's and their extents agree. -/
theorem blk3_0 (c : Dev nD) (t : Fin cfg3.N) :
    (iblk3 V c 0 t : Vec Ideal S4096x64 .f32) = V c (Pipeline.arrRef spec3 0) := by
  refine funext fun (j : S4096x64.Idx) => ?_
  show V c (Pipeline.arrRef spec3 0) (((cfg3.win 0).blk t).view.emb j) = V c (Pipeline.arrRef spec3 0) j
  refine congrArg (V c (Pipeline.arrRef spec3 0)) (funext fun a => Fin.ext ?_)
  match a with
  | ⟨0, _⟩ => show win3_0.index t (0 : Fin 2) * 4096 + 1 * (j 0).val = (j 0).val; have h : win3_0.index t (0 : Fin 2) = 0 := rfl; omega
  | ⟨1, _⟩ => show win3_0.index t (1 : Fin 2) * 64 + 1 * (j 1).val = (j 1).val; have h : win3_0.index t (1 : Fin 2) = 0 := rfl; omega

/-- Window 1's one block is its whole array: the block's origin is the array's and their extents agree. -/
theorem blk3_1 (c : Dev nD) (t : Fin cfg3.N) :
    (iblk3 V c 1 t : Vec Ideal S64x64 .f32) = V c (Pipeline.arrRef spec3 1) := by
  refine funext fun (j : S64x64.Idx) => ?_
  show V c (Pipeline.arrRef spec3 1) (((cfg3.win 1).blk t).view.emb j) = V c (Pipeline.arrRef spec3 1) j
  refine congrArg (V c (Pipeline.arrRef spec3 1)) (funext fun a => Fin.ext ?_)
  match a with
  | ⟨0, _⟩ => show win3_1.index t (0 : Fin 2) * 64 + 1 * (j 0).val = (j 0).val; have h : win3_1.index t (0 : Fin 2) = 0 := rfl; omega
  | ⟨1, _⟩ => show win3_1.index t (1 : Fin 2) * 64 + 1 * (j 1).val = (j 1).val; have h : win3_1.index t (1 : Fin 2) = 0 := rfl; omega

/-- Window 2's one block is its whole array: the block's origin is the array's and their extents agree. -/
theorem blk3_2 (c : Dev nD) (t : Fin cfg3.N) :
    (iblk3 V c 2 t : Vec Ideal S1x64 .f32) = V c (Pipeline.arrRef spec3 2) := by
  refine funext fun (j : S1x64.Idx) => ?_
  show V c (Pipeline.arrRef spec3 2) (((cfg3.win 2).blk t).view.emb j) = V c (Pipeline.arrRef spec3 2) j
  refine congrArg (V c (Pipeline.arrRef spec3 2)) (funext fun a => Fin.ext ?_)
  match a with
  | ⟨0, _⟩ => show win3_2.index t (0 : Fin 2) * 1 + 1 * (j 0).val = (j 0).val; have h : win3_2.index t (0 : Fin 2) = 0 := rfl; omega
  | ⟨1, _⟩ => show win3_2.index t (1 : Fin 2) * 64 + 1 * (j 1).val = (j 1).val; have h : win3_2.index t (1 : Fin 2) = 0 := rfl; omega

/-- Window 3's one block is its whole array: the block's origin is the array's and their extents agree. -/
theorem blk3_3 (c : Dev nD) (t : Fin cfg3.N) :
    (iblk3 V c 3 t : Vec Ideal S1x64 .f32) = V c (Pipeline.arrRef spec3 3) := by
  refine funext fun (j : S1x64.Idx) => ?_
  show V c (Pipeline.arrRef spec3 3) (((cfg3.win 3).blk t).view.emb j) = V c (Pipeline.arrRef spec3 3) j
  refine congrArg (V c (Pipeline.arrRef spec3 3)) (funext fun a => Fin.ext ?_)
  match a with
  | ⟨0, _⟩ => show win3_3.index t (0 : Fin 2) * 1 + 1 * (j 0).val = (j 0).val; have h : win3_3.index t (0 : Fin 2) = 0 := rfl; omega
  | ⟨1, _⟩ => show win3_3.index t (1 : Fin 2) * 64 + 1 * (j 1).val = (j 1).val; have h : win3_3.index t (1 : Fin 2) = 0 := rfl; omega

/-- Window 4's one block is its whole array: the block's origin is the array's and their extents agree. -/
theorem blk3_4 (c : Dev nD) (t : Fin cfg3.N) :
    (iblk3 V c 4 t : Vec Ideal S1x64 .f32) = V c (Pipeline.arrRef spec3 4) := by
  refine funext fun (j : S1x64.Idx) => ?_
  show V c (Pipeline.arrRef spec3 4) (((cfg3.win 4).blk t).view.emb j) = V c (Pipeline.arrRef spec3 4) j
  refine congrArg (V c (Pipeline.arrRef spec3 4)) (funext fun a => Fin.ext ?_)
  match a with
  | ⟨0, _⟩ => show win3_4.index t (0 : Fin 2) * 1 + 1 * (j 0).val = (j 0).val; have h : win3_4.index t (0 : Fin 2) = 0 := rfl; omega
  | ⟨1, _⟩ => show win3_4.index t (1 : Fin 2) * 64 + 1 * (j 1).val = (j 1).val; have h : win3_4.index t (1 : Fin 2) = 0 := rfl; omega

/-- What the one point writes back is the whole of the specification's layer of the entry arrays. -/
theorem flushed3_eq (c : Dev nD) (t : Fin cfg3.N) :
    (dat3 (F := Ideal) V c).flushed 5 t = ((cfg3.win 5).blk t).view.read (Elt Ideal)
      (Spec.layer (V c (Pipeline.arrRef spec3 0)) (Spec.tr (V c (Pipeline.arrRef spec3 1)))
          (Spec.unrow (V c (Pipeline.arrRef spec3 2))) (Spec.unrow (V c (Pipeline.arrRef spec3 3)))
          (Spec.unrow (V c (Pipeline.arrRef spec3 4)))) := by
  show (cfg3.win 5).cut (grid3.coords t) ((dat3 V c).after 5 t) = _
  rw [after3_5, blk3_0, blk3_1, blk3_2, blk3_3, blk3_4, out3_eq, LayerBody.layer_body]
  refine funext fun (j : S4096x64.Idx) => ?_
  show _ = (Spec.layer (V c (Pipeline.arrRef spec3 0)) (Spec.tr (V c (Pipeline.arrRef spec3 1)))
          (Spec.unrow (V c (Pipeline.arrRef spec3 2))) (Spec.unrow (V c (Pipeline.arrRef spec3 3)))
          (Spec.unrow (V c (Pipeline.arrRef spec3 4)))) (((cfg3.win 5).blk t).view.emb j)
  refine congrArg (Spec.layer (V c (Pipeline.arrRef spec3 0)) (Spec.tr (V c (Pipeline.arrRef spec3 1)))
          (Spec.unrow (V c (Pipeline.arrRef spec3 2))) (Spec.unrow (V c (Pipeline.arrRef spec3 3)))
          (Spec.unrow (V c (Pipeline.arrRef spec3 4)))) (funext fun a => Fin.ext ?_)
  match a with
  | ⟨0, _⟩ => show (j 0).val = win3_5.index t (0 : Fin 2) * 4096 + 1 * (j 0).val; have h : win3_5.index t (0 : Fin 2) = 0 := rfl; omega
  | ⟨1, _⟩ => show (j 1).val = win3_5.index t (1 : Fin 2) * 64 + 1 * (j 1).val; have h : win3_5.index t (1 : Fin 2) = 0 := rfl; omega

/-- An index of the array is in the one block iff each coordinate is in the block's range on its axis. -/
theorem mem_blk3 (t : Fin cfg3.N) (i : S4096x64.Idx) :
    i ∈ ((cfg3.win 5).blk t).view.set ↔ ∀ a : Fin 2, win3_5.index t a * S4096x64.size a ≤ (i a).val
      ∧ (i a).val < win3_5.index t a * S4096x64.size a + S4096x64.size a := by
  show i ∈ ((View.whole main_call0_v8).slice (win3_5.rect t)).set ↔ _
  rw [View.set_slice_whole, Rect.mem_set_unit]
  exact Iff.rfl

/-- Every entry of the array is in the one point's block. -/
theorem cover3 (i : S4096x64.Idx) :
    ∃ t : Fin cfg3.N, (cfg3.win 5).flush t = true ∧ i ∈ ((cfg3.win 5).blk t).view.set := by
  have hi0 : (i 0).val < 4096 := (i 0).isLt
  have hi1 : (i 1).val < 64 := (i 1).isLt
  refine ⟨⟨0, Nat.one_pos⟩, flush3_5 _, ?_⟩
  rw [mem_blk3]
  intro a
  match a with
  | ⟨0, _⟩ =>
    show win3_5.index ⟨0, Nat.one_pos⟩ (0 : Fin 2) * 4096 ≤ (i 0).val
      ∧ (i 0).val < win3_5.index ⟨0, Nat.one_pos⟩ (0 : Fin 2) * 4096 + 4096
    have h : win3_5.index ⟨0, Nat.one_pos⟩ (0 : Fin 2) = 0 := rfl
    omega
  | ⟨1, _⟩ =>
    show win3_5.index ⟨0, Nat.one_pos⟩ (1 : Fin 2) * 64 ≤ (i 1).val
      ∧ (i 1).val < win3_5.index ⟨0, Nat.one_pos⟩ (1 : Fin 2) * 64 + 64
    have h : win3_5.index ⟨0, Nat.one_pos⟩ (1 : Fin 2) = 0 := rfl
    omega

/-- Region 3's output array after the region. -/
theorem layer_arr3 (c : Dev nD) :
    (dat3 (F := Ideal) V c).arrAt 5 cfg3.N
      = Spec.layer (V c (Pipeline.arrRef spec3 0)) (Spec.tr (V c (Pipeline.arrRef spec3 1)))
          (Spec.unrow (V c (Pipeline.arrRef spec3 2))) (Spec.unrow (V c (Pipeline.arrRef spec3 3)))
          (Spec.unrow (V c (Pipeline.arrRef spec3 4))) :=
  (dat3 (F := Ideal) V c).arrAt_eq_of_cover 5 _ (fun t _ => flushed3_eq V c t) (cover3)

/-! ## Region 5: one point, every block the whole array -/

/-- Window 0's one block is its whole array: the block's origin is the array's and their extents agree. -/
theorem blk5_0 (c : Dev nD) (t : Fin cfg5.N) :
    (iblk5 V c 0 t : Vec Ideal S4096x64 .f32) = V c (Pipeline.arrRef spec5 0) := by
  refine funext fun (j : S4096x64.Idx) => ?_
  show V c (Pipeline.arrRef spec5 0) (((cfg5.win 0).blk t).view.emb j) = V c (Pipeline.arrRef spec5 0) j
  refine congrArg (V c (Pipeline.arrRef spec5 0)) (funext fun a => Fin.ext ?_)
  match a with
  | ⟨0, _⟩ => show win5_0.index t (0 : Fin 2) * 4096 + 1 * (j 0).val = (j 0).val; have h : win5_0.index t (0 : Fin 2) = 0 := rfl; omega
  | ⟨1, _⟩ => show win5_0.index t (1 : Fin 2) * 64 + 1 * (j 1).val = (j 1).val; have h : win5_0.index t (1 : Fin 2) = 0 := rfl; omega

/-- Window 1's one block is its whole array: the block's origin is the array's and their extents agree. -/
theorem blk5_1 (c : Dev nD) (t : Fin cfg5.N) :
    (iblk5 V c 1 t : Vec Ideal S64x64 .f32) = V c (Pipeline.arrRef spec5 1) := by
  refine funext fun (j : S64x64.Idx) => ?_
  show V c (Pipeline.arrRef spec5 1) (((cfg5.win 1).blk t).view.emb j) = V c (Pipeline.arrRef spec5 1) j
  refine congrArg (V c (Pipeline.arrRef spec5 1)) (funext fun a => Fin.ext ?_)
  match a with
  | ⟨0, _⟩ => show win5_1.index t (0 : Fin 2) * 64 + 1 * (j 0).val = (j 0).val; have h : win5_1.index t (0 : Fin 2) = 0 := rfl; omega
  | ⟨1, _⟩ => show win5_1.index t (1 : Fin 2) * 64 + 1 * (j 1).val = (j 1).val; have h : win5_1.index t (1 : Fin 2) = 0 := rfl; omega

/-- Window 2's one block is its whole array: the block's origin is the array's and their extents agree. -/
theorem blk5_2 (c : Dev nD) (t : Fin cfg5.N) :
    (iblk5 V c 2 t : Vec Ideal S1x64 .f32) = V c (Pipeline.arrRef spec5 2) := by
  refine funext fun (j : S1x64.Idx) => ?_
  show V c (Pipeline.arrRef spec5 2) (((cfg5.win 2).blk t).view.emb j) = V c (Pipeline.arrRef spec5 2) j
  refine congrArg (V c (Pipeline.arrRef spec5 2)) (funext fun a => Fin.ext ?_)
  match a with
  | ⟨0, _⟩ => show win5_2.index t (0 : Fin 2) * 1 + 1 * (j 0).val = (j 0).val; have h : win5_2.index t (0 : Fin 2) = 0 := rfl; omega
  | ⟨1, _⟩ => show win5_2.index t (1 : Fin 2) * 64 + 1 * (j 1).val = (j 1).val; have h : win5_2.index t (1 : Fin 2) = 0 := rfl; omega

/-- Window 3's one block is its whole array: the block's origin is the array's and their extents agree. -/
theorem blk5_3 (c : Dev nD) (t : Fin cfg5.N) :
    (iblk5 V c 3 t : Vec Ideal S1x64 .f32) = V c (Pipeline.arrRef spec5 3) := by
  refine funext fun (j : S1x64.Idx) => ?_
  show V c (Pipeline.arrRef spec5 3) (((cfg5.win 3).blk t).view.emb j) = V c (Pipeline.arrRef spec5 3) j
  refine congrArg (V c (Pipeline.arrRef spec5 3)) (funext fun a => Fin.ext ?_)
  match a with
  | ⟨0, _⟩ => show win5_3.index t (0 : Fin 2) * 1 + 1 * (j 0).val = (j 0).val; have h : win5_3.index t (0 : Fin 2) = 0 := rfl; omega
  | ⟨1, _⟩ => show win5_3.index t (1 : Fin 2) * 64 + 1 * (j 1).val = (j 1).val; have h : win5_3.index t (1 : Fin 2) = 0 := rfl; omega

/-- Window 4's one block is its whole array: the block's origin is the array's and their extents agree. -/
theorem blk5_4 (c : Dev nD) (t : Fin cfg5.N) :
    (iblk5 V c 4 t : Vec Ideal S1x64 .f32) = V c (Pipeline.arrRef spec5 4) := by
  refine funext fun (j : S1x64.Idx) => ?_
  show V c (Pipeline.arrRef spec5 4) (((cfg5.win 4).blk t).view.emb j) = V c (Pipeline.arrRef spec5 4) j
  refine congrArg (V c (Pipeline.arrRef spec5 4)) (funext fun a => Fin.ext ?_)
  match a with
  | ⟨0, _⟩ => show win5_4.index t (0 : Fin 2) * 1 + 1 * (j 0).val = (j 0).val; have h : win5_4.index t (0 : Fin 2) = 0 := rfl; omega
  | ⟨1, _⟩ => show win5_4.index t (1 : Fin 2) * 64 + 1 * (j 1).val = (j 1).val; have h : win5_4.index t (1 : Fin 2) = 0 := rfl; omega

/-- What the one point writes back is the whole of the specification's layer of the entry arrays. -/
theorem flushed5_eq (c : Dev nD) (t : Fin cfg5.N) :
    (dat5 (F := Ideal) V c).flushed 5 t = ((cfg5.win 5).blk t).view.read (Elt Ideal)
      (Spec.layer (V c (Pipeline.arrRef spec5 0)) (Spec.tr (V c (Pipeline.arrRef spec5 1)))
          (Spec.unrow (V c (Pipeline.arrRef spec5 2))) (Spec.unrow (V c (Pipeline.arrRef spec5 3)))
          (Spec.unrow (V c (Pipeline.arrRef spec5 4)))) := by
  show (cfg5.win 5).cut (grid5.coords t) ((dat5 V c).after 5 t) = _
  rw [after5_5, blk5_0, blk5_1, blk5_2, blk5_3, blk5_4, out5_eq, LayerBody.layer_body]
  refine funext fun (j : S4096x64.Idx) => ?_
  show _ = (Spec.layer (V c (Pipeline.arrRef spec5 0)) (Spec.tr (V c (Pipeline.arrRef spec5 1)))
          (Spec.unrow (V c (Pipeline.arrRef spec5 2))) (Spec.unrow (V c (Pipeline.arrRef spec5 3)))
          (Spec.unrow (V c (Pipeline.arrRef spec5 4)))) (((cfg5.win 5).blk t).view.emb j)
  refine congrArg (Spec.layer (V c (Pipeline.arrRef spec5 0)) (Spec.tr (V c (Pipeline.arrRef spec5 1)))
          (Spec.unrow (V c (Pipeline.arrRef spec5 2))) (Spec.unrow (V c (Pipeline.arrRef spec5 3)))
          (Spec.unrow (V c (Pipeline.arrRef spec5 4)))) (funext fun a => Fin.ext ?_)
  match a with
  | ⟨0, _⟩ => show (j 0).val = win5_5.index t (0 : Fin 2) * 4096 + 1 * (j 0).val; have h : win5_5.index t (0 : Fin 2) = 0 := rfl; omega
  | ⟨1, _⟩ => show (j 1).val = win5_5.index t (1 : Fin 2) * 64 + 1 * (j 1).val; have h : win5_5.index t (1 : Fin 2) = 0 := rfl; omega

/-- An index of the array is in the one block iff each coordinate is in the block's range on its axis. -/
theorem mem_blk5 (t : Fin cfg5.N) (i : S4096x64.Idx) :
    i ∈ ((cfg5.win 5).blk t).view.set ↔ ∀ a : Fin 2, win5_5.index t a * S4096x64.size a ≤ (i a).val
      ∧ (i a).val < win5_5.index t a * S4096x64.size a + S4096x64.size a := by
  show i ∈ ((View.whole main_v12).slice (win5_5.rect t)).set ↔ _
  rw [View.set_slice_whole, Rect.mem_set_unit]
  exact Iff.rfl

/-- Every entry of the array is in the one point's block. -/
theorem cover5 (i : S4096x64.Idx) :
    ∃ t : Fin cfg5.N, (cfg5.win 5).flush t = true ∧ i ∈ ((cfg5.win 5).blk t).view.set := by
  have hi0 : (i 0).val < 4096 := (i 0).isLt
  have hi1 : (i 1).val < 64 := (i 1).isLt
  refine ⟨⟨0, Nat.one_pos⟩, flush5_5 _, ?_⟩
  rw [mem_blk5]
  intro a
  match a with
  | ⟨0, _⟩ =>
    show win5_5.index ⟨0, Nat.one_pos⟩ (0 : Fin 2) * 4096 ≤ (i 0).val
      ∧ (i 0).val < win5_5.index ⟨0, Nat.one_pos⟩ (0 : Fin 2) * 4096 + 4096
    have h : win5_5.index ⟨0, Nat.one_pos⟩ (0 : Fin 2) = 0 := rfl
    omega
  | ⟨1, _⟩ =>
    show win5_5.index ⟨0, Nat.one_pos⟩ (1 : Fin 2) * 64 ≤ (i 1).val
      ∧ (i 1).val < win5_5.index ⟨0, Nat.one_pos⟩ (1 : Fin 2) * 64 + 64
    have h : win5_5.index ⟨0, Nat.one_pos⟩ (1 : Fin 2) = 0 := rfl
    omega

/-- Region 5's output array after the region. -/
theorem layer_arr5 (c : Dev nD) :
    (dat5 (F := Ideal) V c).arrAt 5 cfg5.N
      = Spec.layer (V c (Pipeline.arrRef spec5 0)) (Spec.tr (V c (Pipeline.arrRef spec5 1)))
          (Spec.unrow (V c (Pipeline.arrRef spec5 2))) (Spec.unrow (V c (Pipeline.arrRef spec5 3)))
          (Spec.unrow (V c (Pipeline.arrRef spec5 4))) :=
  (dat5 (F := Ideal) V c).arrAt_eq_of_cover 5 _ (fun t _ => flushed5_eq V c t) (cover5)

end Cert.KernelIdeal.LayerValue

end
-- ==== Proof.KMm.lean ====
/-
  Regions 2 and 4, the affinity product, on a grid of 8 points: point `t` reads the whole transposed activations
  `hT` (64 × 4096) and rows `512 t … 512 t + 511` of the affinity matrix `A`, and writes columns
  `512 t … 512 t + 511` of the 64 × 4096 output: entry `(k, b)` is `∑ r, hT k r * A b r`.  That is the transpose
  of `Spec.aff A h` with `h` the transpose of `hT`.
-/
import proofs.«105735_g86071144612153_cont_sun_m_685_12_alg».proof.Proof.Gen.KernelIdeal.Frame
import proofs.«105735_g86071144612153_cont_sun_m_685_12_alg».proof.Proof.Spec
import proofs.«105735_g86071144612153_cont_sun_m_685_12_alg».proof.Proof.Math
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.AffValue

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The two-entry offset vector is the zero vector. -/
theorem zero_off : (![0, 0] : Fin 2 → Nat) = fun _ => 0 := funext fun a => by
  match a with
  | ⟨0, _⟩ => rfl
  | ⟨1, _⟩ => rfl

/-! ## The product at an index -/

/-- The left operand's row coordinate is the output's row coordinate. -/
theorem lhs_ax0 (i : S64x512.Idx) (q : dot_S64x4096_S512x4096_S64x512_1_1_0_0_n_n.contr.Idx) :
    (dot_S64x4096_S512x4096_S64x512_1_1_0_0_n_n.lhsIdx i q 0).val = (i 0).val := by
  unfold DotDims.lhsIdx
  rw [dif_neg (show ¬(0 : Fin S64x4096.rank) ∈ dot_S64x4096_S512x4096_S64x512_1_1_0_0_n_n.lhsBatch by decide),
    dif_pos (show (0 : Fin S64x4096.rank) ∈ dot_S64x4096_S512x4096_S64x512_1_1_0_0_n_n.lhsNonContracting by decide)]
  rfl

/-- The left operand's column coordinate is the contracted one. -/
theorem lhs_ax1 (i : S64x512.Idx) (q : dot_S64x4096_S512x4096_S64x512_1_1_0_0_n_n.contr.Idx) :
    (dot_S64x4096_S512x4096_S64x512_1_1_0_0_n_n.lhsIdx i q 1).val = (q ⟨0, by decide⟩).val :=
  dot_S64x4096_S512x4096_S64x512_1_1_0_0_n_n.lhsIdx_val_of_single rfl i q

/-- The right operand's row coordinate is the output's column coordinate. -/
theorem rhs_ax0 (i : S64x512.Idx) (q : dot_S64x4096_S512x4096_S64x512_1_1_0_0_n_n.contr.Idx) :
    (dot_S64x4096_S512x4096_S64x512_1_1_0_0_n_n.rhsIdx i q 0).val = (i 1).val := by
  unfold DotDims.rhsIdx
  rw [dif_neg (show ¬(0 : Fin S512x4096.rank) ∈ dot_S64x4096_S512x4096_S64x512_1_1_0_0_n_n.rhsBatch by decide),
    dif_pos (show (0 : Fin S512x4096.rank) ∈ dot_S64x4096_S512x4096_S64x512_1_1_0_0_n_n.rhsNonContracting by decide)]
  rfl

/-- The right operand's column coordinate is the contracted one. -/
theorem rhs_ax1 (i : S64x512.Idx) (q : dot_S64x4096_S512x4096_S64x512_1_1_0_0_n_n.contr.Idx) :
    (dot_S64x4096_S512x4096_S64x512_1_1_0_0_n_n.rhsIdx i q 1).val = (q ⟨0, by decide⟩).val :=
  dot_S64x4096_S512x4096_S64x512_1_1_0_0_n_n.rhsIdx_val_of_single rfl i q

/-- Entry `(k, q)` of the product of a 64 × 4096 block with a 512 × 4096 block, both contracted on their second
    axis, into a zero accumulator: the sum over the 4096 columns of the products of row `k` of the first and row `q`
    of the second (the change of format of the operands is the identity on extended reals). -/
theorem mm_apply (x0 : Vec Ideal S64x4096 .f32) (x1 : Vec Ideal S512x4096 .f32) (k : Fin 64) (q : Fin 512) :
    matmul dot_S64x4096_S512x4096_S64x512_1_1_0_0_n_n none
        (truncf .bf16 (shapeCast S64x4096 x0 shapeCasts_S64x4096_S64x4096) bitsLt_bf16_f32)
        (truncf .bf16 x1 bitsLt_bf16_f32) (constant (F := Ideal) S64x512 .f32 0x00000000#32) (ix2 k q)
      = ∑ r : Fin 4096, x0 (ix2 k r) * x1 (ix2 q r) := by
  refine (Ideal.matmul_constant_zero_apply dot_S64x4096_S512x4096_S64x512_1_1_0_0_n_n none _ _ (ix2 k q)).trans ?_
  rw [← Equiv.sum_comp (contrEquiv1 dot_S64x4096_S512x4096_S64x512_1_1_0_0_n_n 4096 rfl rfl).symm]
  refine Finset.sum_congr rfl fun r _ => ?_
  have hr := contrEquiv1_symm_val dot_S64x4096_S512x4096_S64x512_1_1_0_0_n_n 4096 rfl rfl r
  have el : dot_S64x4096_S512x4096_S64x512_1_1_0_0_n_n.lhsIdx (ix2 k q)
      ((contrEquiv1 dot_S64x4096_S512x4096_S64x512_1_1_0_0_n_n 4096 rfl rfl).symm r) = ix2 k r :=
    funext fun a => Fin.ext (by
      match a with
      | ⟨0, _⟩ => exact lhs_ax0 _ _
      | ⟨1, _⟩ => exact (lhs_ax1 _ _).trans hr)
  have er : dot_S64x4096_S512x4096_S64x512_1_1_0_0_n_n.rhsIdx (ix2 k q)
      ((contrEquiv1 dot_S64x4096_S512x4096_S64x512_1_1_0_0_n_n 4096 rfl rfl).symm r) = ix2 q r :=
    funext fun a => Fin.ext (by
      match a with
      | ⟨0, _⟩ => exact rhs_ax0 _ _
      | ⟨1, _⟩ => exact (rhs_ax1 _ _).trans hr)
  rw [el, er, truncf_apply, truncf_apply, shapeCast_self]

/-- Region 2's payload at an index. -/
theorem prod_apply2 (x0 : Vec Ideal S64x4096 .f32) (x1 : Vec Ideal S512x4096 .f32) (k : Fin 64) (q : Fin 512) :
    k2_pay1 (F := Ideal) x0 x1 (ix2 k q) = ∑ r : Fin 4096, x0 (ix2 k r) * x1 (ix2 q r) := by
  unfold k2_pay1
  exact mm_apply x0 x1 k q

/-- Region 4's payload at an index. -/
theorem prod_apply4 (x0 : Vec Ideal S64x4096 .f32) (x1 : Vec Ideal S512x4096 .f32) (k : Fin 64) (q : Fin 512) :
    k4_pay1 (F := Ideal) x0 x1 (ix2 k q) = ∑ r : Fin 4096, x0 (ix2 k r) * x1 (ix2 q r) := by
  unfold k4_pay1
  exact mm_apply x0 x1 k q

/-- Entry `(k, b)` of the transposed affinity product: the sum over `r` of `hT k r * A b r` (the specification's
    factors in the other order). -/
theorem affT_apply (hT : Spec.Arr2 64 4096) (A : Spec.Arr2 4096 4096) (k : Fin 64) (b : Fin 4096) :
    Spec.tr (Spec.aff A (Spec.tr hT)) (ix2 k b) = ∑ r : Fin 4096, hT (ix2 k r) * A (ix2 b r) := by
  show ∑ r : Fin 4096, A (ix2 b r) * hT (ix2 k r) = _
  exact Finset.sum_congr rfl fun r _ => mul_comm _ _

variable (V : (c : Dev nD) → (b : Ref sig .tc) → Buf (Elt Ideal) ((c : Thread nD τ).loc b))

/-! ## Region 2: from the blocks to the array -/

/-- The printed index maps over the grid: window 0 stays at block (0, 0), window 1 moves down the rows with the
    point, window 2 along the columns. -/
theorem idx_facts2 : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val :=
  (by decide +kernel : ∀ t : Fin grid2.N, _)

/-- Window 0's block at every point is the whole 64 × 4096 array. -/
theorem hT_blk2 (c : Dev nD) (t : Fin cfg2.N) (k : Fin 64) (r : Fin 4096) :
    (iblk2 (F := Ideal) V c 0 t : Vec Ideal S64x4096 .f32) (ix2 k r)
      = (V c (Pipeline.arrRef spec2 0) : S64x4096.Idx → EReal) (ix2 k r) := by
  obtain ⟨e00, e01, -, -, -, -⟩ := idx_facts2 t
  unfold iblk2
  rw [View.read_apply]
  refine congrArg (V c (Pipeline.arrRef spec2 0) : S64x4096.Idx → EReal) ?_
  funext a; apply Fin.ext
  match a with
  | ⟨0, _⟩ => show win2_0.index t (0 : Fin 2) * 64 + 1 * k.val = k.val; rw [e00]; omega
  | ⟨1, _⟩ => show win2_0.index t (1 : Fin 2) * 4096 + 1 * r.val = r.val; rw [e01]; omega

/-- Window 1's block at point `t` is rows `512 t … 512 t + 511` of the affinity matrix. -/
theorem A_blk2 (c : Dev nD) (t : Fin cfg2.N) (q : Fin 512) (r : Fin 4096) (b : Fin 4096) (hb : b.val = 512 * t.val + q.val) :
    (iblk2 (F := Ideal) V c 1 t : Vec Ideal S512x4096 .f32) (ix2 q r)
      = (V c (Pipeline.arrRef spec2 1) : S4096x4096.Idx → EReal) (ix2 b r) := by
  obtain ⟨-, -, e10, e11, -, -⟩ := idx_facts2 t
  unfold iblk2
  rw [View.read_apply]
  refine congrArg (V c (Pipeline.arrRef spec2 1) : S4096x4096.Idx → EReal) ?_
  funext a; apply Fin.ext
  match a with
  | ⟨0, _⟩ => show win2_1.index t (0 : Fin 2) * 512 + 1 * q.val = b.val; rw [e10, hb]; omega
  | ⟨1, _⟩ => show win2_1.index t (1 : Fin 2) * 4096 + 1 * r.val = r.val; rw [e11]; omega

/-- What point `t` writes back is block `t` of the transposed affinity product of the two arrays at entry. -/
theorem flushed_eq2 (c : Dev nD) (t : Fin cfg2.N) :
    (dat2 (F := Ideal) V c).flushed 2 t
      = ((cfg2.win 2).blk t).view.read (Elt Ideal)
          (Spec.tr (Spec.aff (V c (Pipeline.arrRef spec2 1)) (Spec.tr (V c (Pipeline.arrRef spec2 0))))) := by
  show (cfg2.win 2).cut (grid2.coords t) ((dat2 (F := Ideal) V c).after 2 t) = _
  rw [after2_2]
  unfold out2_2
  rw [View.canon_unit_zero zero_off]
  simp only [View.ld_unit_zero (S := S64x4096) zero_off, View.ld_unit_zero (S := S512x4096) zero_off]
  obtain ⟨-, -, -, -, e20, e21⟩ := idx_facts2 t
  have ht : t.val < 8 := lt_of_lt_of_eq t.isLt N_2
  funext j
  have hj0 : (j 0).val < 64 := (j 0).isLt
  have hj1 : (j 1).val < 512 := (j 1).isLt
  have hx : (cfg2.win 2).xinj (grid2.coords t) j = ix2 (⟨(j 0).val, hj0⟩ : Fin 64) (⟨(j 1).val, hj1⟩ : Fin 512) :=
    funext fun a => by
      match a with
      | ⟨0, _⟩ => rfl
      | ⟨1, _⟩ => rfl
  have hy : ((cfg2.win 2).blk t).view.emb j
      = ix2 (⟨(j 0).val, hj0⟩ : Fin 64) (⟨512 * t.val + (j 1).val, by omega⟩ : Fin 4096) := by
    funext a; apply Fin.ext
    match a with
    | ⟨0, _⟩ => show win2_2.index t (0 : Fin 2) * 64 + 1 * (j 0).val = (j 0).val; rw [e20]; omega
    | ⟨1, _⟩ => show win2_2.index t (1 : Fin 2) * 512 + 1 * (j 1).val = 512 * t.val + (j 1).val; rw [e21]; omega
  refine (congrArg (k2_pay1 (F := Ideal) (iblk2 V c 0 t) (iblk2 V c 1 t)) hx).trans ?_
  refine (prod_apply2 (iblk2 V c 0 t) (iblk2 V c 1 t) _ _).trans ?_
  rw [View.read_apply, hy]
  refine Eq.trans ?_ (affT_apply _ _ _ _).symm
  refine Finset.sum_congr rfl fun r _ => ?_
  rw [hT_blk2 V c t ⟨(j 0).val, hj0⟩ r, A_blk2 V c t ⟨(j 1).val, hj1⟩ r ⟨512 * t.val + (j 1).val, by omega⟩ rfl]

/-- An index of the output array is in point `t`'s block iff each coordinate is in the block's range on its axis. -/
theorem mem_blk2 (t : Fin cfg2.N) (i : S64x4096.Idx) :
    i ∈ ((cfg2.win 2).blk t).view.set
      ↔ ∀ a : Fin 2, win2_2.index t a * S64x512.size a ≤ (i a).val ∧ (i a).val < win2_2.index t a * S64x512.size a + S64x512.size a := by
  show i ∈ ((View.whole main_call0_v6).slice (win2_2.rect t)).set ↔ _
  rw [View.set_slice_whole, Rect.mem_set_unit]
  exact Iff.rfl

/-- Every index of the output array is in the block of the point its column falls to. -/
theorem cover2 (i : S64x4096.Idx) :
    ∃ t : Fin cfg2.N, (cfg2.win 2).flush t = true ∧ i ∈ ((cfg2.win 2).blk t).view.set := by
  have hi0 : (i 0).val < 64 := (i 0).isLt
  have hi1 : (i 1).val < 4096 := (i 1).isLt
  let t : Fin cfg2.N := ⟨(i 1).val / 512, lt_of_lt_of_eq (by omega) N_2.symm⟩
  obtain ⟨-, -, -, -, e20, e21⟩ := idx_facts2 t
  have htv : t.val = (i 1).val / 512 := rfl
  refine ⟨t, flush2_2 t, ?_⟩
  rw [mem_blk2]
  intro a
  match a with
  | ⟨0, _⟩ => show win2_2.index t (0 : Fin 2) * 64 ≤ (i 0).val ∧ (i 0).val < win2_2.index t (0 : Fin 2) * 64 + 64; rw [e20]; omega
  | ⟨1, _⟩ => show win2_2.index t (1 : Fin 2) * 512 ≤ (i 1).val ∧ (i 1).val < win2_2.index t (1 : Fin 2) * 512 + 512; rw [e21, htv]; omega

/-- Region 2's output array after the region, as a function of its two input arrays at entry. -/
theorem aff_arr2 (c : Dev nD) :
    (dat2 (F := Ideal) V c).arrAt 2 cfg2.N
      = Spec.tr (Spec.aff (V c (Pipeline.arrRef spec2 1)) (Spec.tr (V c (Pipeline.arrRef spec2 0)))) :=
  (dat2 (F := Ideal) V c).arrAt_eq_of_cover 2 _ (fun t _ => flushed_eq2 V c t) cover2

/-! ## Region 4: from the blocks to the array -/

/-- The printed index maps over the grid: window 0 stays at block (0, 0), window 1 moves down the rows with the
    point, window 2 along the columns. -/
theorem idx_facts4 : ∀ t : Fin cfg4.N,
    win4_0.index t (0 : Fin 2) = 0 ∧ win4_0.index t (1 : Fin 2) = 0
    ∧ win4_1.index t (0 : Fin 2) = t.val ∧ win4_1.index t (1 : Fin 2) = 0
    ∧ win4_2.index t (0 : Fin 2) = 0 ∧ win4_2.index t (1 : Fin 2) = t.val :=
  (by decide +kernel : ∀ t : Fin grid4.N, _)

/-- Window 0's block at every point is the whole 64 × 4096 array. -/
theorem hT_blk4 (c : Dev nD) (t : Fin cfg4.N) (k : Fin 64) (r : Fin 4096) :
    (iblk4 (F := Ideal) V c 0 t : Vec Ideal S64x4096 .f32) (ix2 k r)
      = (V c (Pipeline.arrRef spec4 0) : S64x4096.Idx → EReal) (ix2 k r) := by
  obtain ⟨e00, e01, -, -, -, -⟩ := idx_facts4 t
  unfold iblk4
  rw [View.read_apply]
  refine congrArg (V c (Pipeline.arrRef spec4 0) : S64x4096.Idx → EReal) ?_
  funext a; apply Fin.ext
  match a with
  | ⟨0, _⟩ => show win4_0.index t (0 : Fin 2) * 64 + 1 * k.val = k.val; rw [e00]; omega
  | ⟨1, _⟩ => show win4_0.index t (1 : Fin 2) * 4096 + 1 * r.val = r.val; rw [e01]; omega

/-- Window 1's block at point `t` is rows `512 t … 512 t + 511` of the affinity matrix. -/
theorem A_blk4 (c : Dev nD) (t : Fin cfg4.N) (q : Fin 512) (r : Fin 4096) (b : Fin 4096) (hb : b.val = 512 * t.val + q.val) :
    (iblk4 (F := Ideal) V c 1 t : Vec Ideal S512x4096 .f32) (ix2 q r)
      = (V c (Pipeline.arrRef spec4 1) : S4096x4096.Idx → EReal) (ix2 b r) := by
  obtain ⟨-, -, e10, e11, -, -⟩ := idx_facts4 t
  unfold iblk4
  rw [View.read_apply]
  refine congrArg (V c (Pipeline.arrRef spec4 1) : S4096x4096.Idx → EReal) ?_
  funext a; apply Fin.ext
  match a with
  | ⟨0, _⟩ => show win4_1.index t (0 : Fin 2) * 512 + 1 * q.val = b.val; rw [e10, hb]; omega
  | ⟨1, _⟩ => show win4_1.index t (1 : Fin 2) * 4096 + 1 * r.val = r.val; rw [e11]; omega

/-- What point `t` writes back is block `t` of the transposed affinity product of the two arrays at entry. -/
theorem flushed_eq4 (c : Dev nD) (t : Fin cfg4.N) :
    (dat4 (F := Ideal) V c).flushed 2 t
      = ((cfg4.win 2).blk t).view.read (Elt Ideal)
          (Spec.tr (Spec.aff (V c (Pipeline.arrRef spec4 1)) (Spec.tr (V c (Pipeline.arrRef spec4 0))))) := by
  show (cfg4.win 2).cut (grid4.coords t) ((dat4 (F := Ideal) V c).after 2 t) = _
  rw [after4_2]
  unfold out4_2
  rw [View.canon_unit_zero zero_off]
  simp only [View.ld_unit_zero (S := S64x4096) zero_off, View.ld_unit_zero (S := S512x4096) zero_off]
  obtain ⟨-, -, -, -, e20, e21⟩ := idx_facts4 t
  have ht : t.val < 8 := lt_of_lt_of_eq t.isLt N_4
  funext j
  have hj0 : (j 0).val < 64 := (j 0).isLt
  have hj1 : (j 1).val < 512 := (j 1).isLt
  have hx : (cfg4.win 2).xinj (grid4.coords t) j = ix2 (⟨(j 0).val, hj0⟩ : Fin 64) (⟨(j 1).val, hj1⟩ : Fin 512) :=
    funext fun a => by
      match a with
      | ⟨0, _⟩ => rfl
      | ⟨1, _⟩ => rfl
  have hy : ((cfg4.win 2).blk t).view.emb j
      = ix2 (⟨(j 0).val, hj0⟩ : Fin 64) (⟨512 * t.val + (j 1).val, by omega⟩ : Fin 4096) := by
    funext a; apply Fin.ext
    match a with
    | ⟨0, _⟩ => show win4_2.index t (0 : Fin 2) * 64 + 1 * (j 0).val = (j 0).val; rw [e20]; omega
    | ⟨1, _⟩ => show win4_2.index t (1 : Fin 2) * 512 + 1 * (j 1).val = 512 * t.val + (j 1).val; rw [e21]; omega
  refine (congrArg (k4_pay1 (F := Ideal) (iblk4 V c 0 t) (iblk4 V c 1 t)) hx).trans ?_
  refine (prod_apply4 (iblk4 V c 0 t) (iblk4 V c 1 t) _ _).trans ?_
  rw [View.read_apply, hy]
  refine Eq.trans ?_ (affT_apply _ _ _ _).symm
  refine Finset.sum_congr rfl fun r _ => ?_
  rw [hT_blk4 V c t ⟨(j 0).val, hj0⟩ r, A_blk4 V c t ⟨(j 1).val, hj1⟩ r ⟨512 * t.val + (j 1).val, by omega⟩ rfl]

/-- An index of the output array is in point `t`'s block iff each coordinate is in the block's range on its axis. -/
theorem mem_blk4 (t : Fin cfg4.N) (i : S64x4096.Idx) :
    i ∈ ((cfg4.win 2).blk t).view.set
      ↔ ∀ a : Fin 2, win4_2.index t a * S64x512.size a ≤ (i a).val ∧ (i a).val < win4_2.index t a * S64x512.size a + S64x512.size a := by
  show i ∈ ((View.whole main_call0_v10).slice (win4_2.rect t)).set ↔ _
  rw [View.set_slice_whole, Rect.mem_set_unit]
  exact Iff.rfl

/-- Every index of the output array is in the block of the point its column falls to. -/
theorem cover4 (i : S64x4096.Idx) :
    ∃ t : Fin cfg4.N, (cfg4.win 2).flush t = true ∧ i ∈ ((cfg4.win 2).blk t).view.set := by
  have hi0 : (i 0).val < 64 := (i 0).isLt
  have hi1 : (i 1).val < 4096 := (i 1).isLt
  let t : Fin cfg4.N := ⟨(i 1).val / 512, lt_of_lt_of_eq (by omega) N_4.symm⟩
  obtain ⟨-, -, -, -, e20, e21⟩ := idx_facts4 t
  have htv : t.val = (i 1).val / 512 := rfl
  refine ⟨t, flush4_2 t, ?_⟩
  rw [mem_blk4]
  intro a
  match a with
  | ⟨0, _⟩ => show win4_2.index t (0 : Fin 2) * 64 ≤ (i 0).val ∧ (i 0).val < win4_2.index t (0 : Fin 2) * 64 + 64; rw [e20]; omega
  | ⟨1, _⟩ => show win4_2.index t (1 : Fin 2) * 512 ≤ (i 1).val ∧ (i 1).val < win4_2.index t (1 : Fin 2) * 512 + 512; rw [e21, htv]; omega

/-- Region 4's output array after the region. -/
theorem aff_arr4 (c : Dev nD) :
    (dat4 (F := Ideal) V c).arrAt 2 cfg4.N
      = Spec.tr (Spec.aff (V c (Pipeline.arrRef spec4 1)) (Spec.tr (V c (Pipeline.arrRef spec4 0)))) :=
  (dat4 (F := Ideal) V c).arrAt_eq_of_cover 2 _ (fun t _ => flushed_eq4 V c t) cover4

end Cert.KernelIdeal.AffValue

end
-- ==== Proof.KVal.lean ====
/-
  The kernel program's result as the specification of its arguments.  The last region's output array is the
  layer of its inputs; its first input is the transpose (a host operation) of the previous affinity region's
  output, which is the transposed affinity product of the host-transposed previous layer; and so on back to the
  pooling region, whose inputs are the host transposes of the first two arguments.  The weights reach their
  regions through one host transpose each and the vectors through one reshape to a row each, written before the
  first region and untouched afterwards.  Transposing twice, and reading a reshaped row back as a vector, are
  the identity, so the composition is `Spec.final` of the sixteen arguments.
-/
import proofs.«105735_g86071144612153_cont_sun_m_685_12_alg».proof.Proof.Gen.KernelIdeal.Frame
import proofs.«105735_g86071144612153_cont_sun_m_685_12_alg».proof.Proof.Spec
import proofs.«105735_g86071144612153_cont_sun_m_685_12_alg».proof.Proof.Math
import proofs.«105735_g86071144612153_cont_sun_m_685_12_alg».proof.Proof.KPool
import proofs.«105735_g86071144612153_cont_sun_m_685_12_alg».proof.Proof.KBn
import proofs.«105735_g86071144612153_cont_sun_m_685_12_alg».proof.Proof.KMm
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Value

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## Layout: a printed transpose and a printed reshape, read as the specification reads them -/

/-- A printed transpose of a matrix is the specification's transpose. -/
theorem transpose_eq_tr {a b : ℕ} (x : Spec.Arr2 a b)
    (h : (⟨2, ![a, b]⟩ : Shape).Transposes [1, 0] ⟨2, ![b, a]⟩) :
    transpose ⟨2, ![b, a]⟩ [1, 0] x h = Spec.tr x := by
  funext j
  exact transpose_apply _ x h j (ix2 (Spec.c1 j) (Spec.c0 j))
    (fun d => match d with | ⟨0, _⟩ => rfl | ⟨1, _⟩ => rfl)

/-- A vector reshaped to a row and read back as a vector is the vector. -/
theorem unrow_shapeCast {n : ℕ} (x : Spec.Arr1 n)
    (h : (⟨1, ![n]⟩ : Shape).ShapeCasts ⟨2, ![1, n]⟩) :
    Spec.unrow (shapeCast ⟨2, ![1, n]⟩ x h) = x := by
  funext j
  show shapeCast ⟨2, ![1, n]⟩ x h (ix2 (0 : Fin 1) ⟨(j 0).val, (j 0).isLt⟩) = x j
  rw [shapeCast_a_1a_apply]
  exact congrArg x (funext fun d => match d with | ⟨0, _⟩ => rfl)

/-- A layer of equal inputs. -/
theorem layer_congr {x x' : Spec.Arr2 4096 64} {W W' : Spec.Arr2 64 64} {b b' g g' be be' : Spec.Arr1 64}
    (hx : x = x') (hW : W = W') (hb : b = b') (hg : g = g') (hbe : be = be') :
    Spec.layer x W b g be = Spec.layer x' W' b' g' be' := by
  subst hx hW hb hg hbe; rfl

/-! ## The host stretches, over any contents at their start

Each operation writes its own result and nothing else, so a result buffer holds its operation's function of
the operand's contents at the start, and a buffer that is no operation's result holds what it held. -/

section Stretches

variable (X : Valuation τ sig (Elt Ideal))

theorem ops0_v0 : StableHlo.after hostOps0 X (Proc.devRef .tc main_v0) = Spec.tr (X (Proc.devRef .tc main_arg4)) := by
  dsimp only [hostOps0]; after_results; exact transpose_eq_tr _ _
theorem ops0_v1 : Spec.unrow (StableHlo.after hostOps0 X (Proc.devRef .tc main_v1)) = X (Proc.devRef .tc main_arg5) := by
  dsimp only [hostOps0]; after_results; exact unrow_shapeCast _ _
theorem ops0_v2 : Spec.unrow (StableHlo.after hostOps0 X (Proc.devRef .tc main_v2)) = X (Proc.devRef .tc main_arg6) := by
  dsimp only [hostOps0]; after_results; exact unrow_shapeCast _ _
theorem ops0_v3 : Spec.unrow (StableHlo.after hostOps0 X (Proc.devRef .tc main_v3)) = X (Proc.devRef .tc main_arg7) := by
  dsimp only [hostOps0]; after_results; exact unrow_shapeCast _ _
theorem ops0_v4 : StableHlo.after hostOps0 X (Proc.devRef .tc main_v4) = Spec.tr (X (Proc.devRef .tc main_arg8)) := by
  dsimp only [hostOps0]; after_results; exact transpose_eq_tr _ _
theorem ops0_v5 : Spec.unrow (StableHlo.after hostOps0 X (Proc.devRef .tc main_v5)) = X (Proc.devRef .tc main_arg9) := by
  dsimp only [hostOps0]; after_results; exact unrow_shapeCast _ _
theorem ops0_v6 : Spec.unrow (StableHlo.after hostOps0 X (Proc.devRef .tc main_v6)) = X (Proc.devRef .tc main_arg10) := by
  dsimp only [hostOps0]; after_results; exact unrow_shapeCast _ _
theorem ops0_v7 : Spec.unrow (StableHlo.after hostOps0 X (Proc.devRef .tc main_v7)) = X (Proc.devRef .tc main_arg11) := by
  dsimp only [hostOps0]; after_results; exact unrow_shapeCast _ _
theorem ops0_v8 : StableHlo.after hostOps0 X (Proc.devRef .tc main_v8) = Spec.tr (X (Proc.devRef .tc main_arg12)) := by
  dsimp only [hostOps0]; after_results; exact transpose_eq_tr _ _
theorem ops0_v9 : Spec.unrow (StableHlo.after hostOps0 X (Proc.devRef .tc main_v9)) = X (Proc.devRef .tc main_arg13) := by
  dsimp only [hostOps0]; after_results; exact unrow_shapeCast _ _
theorem ops0_v10 : Spec.unrow (StableHlo.after hostOps0 X (Proc.devRef .tc main_v10)) = X (Proc.devRef .tc main_arg14) := by
  dsimp only [hostOps0]; after_results; exact unrow_shapeCast _ _
theorem ops0_v11 : Spec.unrow (StableHlo.after hostOps0 X (Proc.devRef .tc main_v11)) = X (Proc.devRef .tc main_arg15) := by
  dsimp only [hostOps0]; after_results; exact unrow_shapeCast _ _

theorem ops0_1_v0 : StableHlo.after hostOps0_1 X (Proc.devRef .tc main_call0_v0) = Spec.tr (X (Proc.devRef .tc main_arg0)) := by
  dsimp only [hostOps0_1]; after_results; exact transpose_eq_tr _ _
theorem ops0_1_v1 : StableHlo.after hostOps0_1 X (Proc.devRef .tc main_call0_v1) = Spec.tr (X (Proc.devRef .tc main_arg1)) := by
  dsimp only [hostOps0_1]; after_results; exact transpose_eq_tr _ _
theorem ops1_v3 : StableHlo.after hostOps1 X (Proc.devRef .tc main_call0_v3) = Spec.tr (X (Proc.devRef .tc main_call0_v2)) := by
  dsimp only [hostOps1]; after_results; exact transpose_eq_tr _ _
theorem ops2_v5 : StableHlo.after hostOps2 X (Proc.devRef .tc main_call0_v5) = Spec.tr (X (Proc.devRef .tc main_call0_v4)) := by
  dsimp only [hostOps2]; after_results; exact transpose_eq_tr _ _
theorem ops3_v7 : StableHlo.after hostOps3 X (Proc.devRef .tc main_call0_v7) = Spec.tr (X (Proc.devRef .tc main_call0_v6)) := by
  dsimp only [hostOps3]; after_results; exact transpose_eq_tr _ _
theorem ops4_v9 : StableHlo.after hostOps4 X (Proc.devRef .tc main_call0_v9) = Spec.tr (X (Proc.devRef .tc main_call0_v8)) := by
  dsimp only [hostOps4]; after_results; exact transpose_eq_tr _ _
theorem ops5_v11 : StableHlo.after hostOps5 X (Proc.devRef .tc main_call0_v11) = Spec.tr (X (Proc.devRef .tc main_call0_v10)) := by
  dsimp only [hostOps5]; after_results; exact transpose_eq_tr _ _

theorem ops0_keep (b : Ref sig .tc)
    (h : ∀ y ∈ ([main_v0, main_v1, main_v2, main_v3, main_v4, main_v5, main_v6, main_v7, main_v8, main_v9, main_v10,
      main_v11] : List (Ref sig .tc)), b ≠ y) :
    StableHlo.after hostOps0 X (Proc.devRef .tc b) = X (Proc.devRef .tc b) := by
  refine StableHlo.after_of_forall_not_mem (b := Proc.devRef .tc b) _ _ (List.forall_iff_forall_mem.mp ?_)
  simp only [hostOps0, List.Forall, StableHlo.unary_writes, StableHlo.reshape_writes, Finset.mem_singleton]
  refine ⟨?_, ?_, ?_, ?_, ?_, ?_, ?_, ?_, ?_, ?_, ?_, ?_⟩ <;> exact StableHlo.devRef_ne_of_ne (h _ (by decide))
theorem ops0_1_keep (b : Ref sig .tc) (h0 : b ≠ main_call0_v0) (h1 : b ≠ main_call0_v1) :
    StableHlo.after hostOps0_1 X (Proc.devRef .tc b) = X (Proc.devRef .tc b) :=
  (StableHlo.unary_result_ne (h := h1) ..).trans (StableHlo.unary_result_ne (h := h0) ..)
theorem ops1_keep (b : Ref sig .tc) (h : b ≠ main_call0_v3) : StableHlo.after hostOps1 X (Proc.devRef .tc b) = X (Proc.devRef .tc b) :=
  StableHlo.unary_result_ne (h := h) ..
theorem ops2_keep (b : Ref sig .tc) (h : b ≠ main_call0_v5) : StableHlo.after hostOps2 X (Proc.devRef .tc b) = X (Proc.devRef .tc b) :=
  StableHlo.unary_result_ne (h := h) ..
theorem ops3_keep (b : Ref sig .tc) (h : b ≠ main_call0_v7) : StableHlo.after hostOps3 X (Proc.devRef .tc b) = X (Proc.devRef .tc b) :=
  StableHlo.unary_result_ne (h := h) ..
theorem ops4_keep (b : Ref sig .tc) (h : b ≠ main_call0_v9) : StableHlo.after hostOps4 X (Proc.devRef .tc b) = X (Proc.devRef .tc b) :=
  StableHlo.unary_result_ne (h := h) ..
theorem ops5_keep (b : Ref sig .tc) (h : b ≠ main_call0_v11) : StableHlo.after hostOps5 X (Proc.devRef .tc b) = X (Proc.devRef .tc b) :=
  StableHlo.unary_result_ne (h := h) ..

end Stretches

variable (m : (ℓ : Loc nD τ sig) → Buf (Elt Ideal) ℓ) (ρ : Dev nD → PrngReg)

/-! ## A buffer nobody writes between two boundaries

What a buffer must avoid to hold at a region's entry what it held after the first stretch: being the result of
a later stretch, or an array of an earlier region. -/

section Walk

/-- Below region 0's entry: the two results of the second stretch. -/
abbrev Clear2 (b : Ref sig .tc) : Prop := b ≠ main_call0_v0 ∧ b ≠ main_call0_v1
/-- Below region 1's entry. -/
abbrev Clear4 (b : Ref sig .tc) : Prop := (b ≠ main_call0_v3 ∧ ∀ w, Pipeline.arrRef spec0 w ≠ b) ∧ Clear2 b
/-- Below region 2's entry. -/
abbrev Clear6 (b : Ref sig .tc) : Prop := (b ≠ main_call0_v5 ∧ ∀ w, Pipeline.arrRef spec1 w ≠ b) ∧ Clear4 b
/-- Below region 3's entry. -/
abbrev Clear8 (b : Ref sig .tc) : Prop := (b ≠ main_call0_v7 ∧ ∀ w, Pipeline.arrRef spec2 w ≠ b) ∧ Clear6 b
/-- Below region 4's entry. -/
abbrev Clear10 (b : Ref sig .tc) : Prop := (b ≠ main_call0_v9 ∧ ∀ w, Pipeline.arrRef spec3 w ≠ b) ∧ Clear8 b
/-- Below region 5's entry. -/
abbrev Clear12 (b : Ref sig .tc) : Prop := (b ≠ main_call0_v11 ∧ ∀ w, Pipeline.arrRef spec4 w ≠ b) ∧ Clear10 b

variable (c : Dev nD) (b : Ref sig .tc)

theorem W2_W1 (h : Clear2 b) : W2 (F := Ideal) m ρ c (Proc.devRef .tc b) = W1 m ρ c (Proc.devRef .tc b) :=
  ops0_1_keep (W1 m ρ c) b h.1 h.2
theorem W4_W1 (h : Clear4 b) : W4 (F := Ideal) m ρ c (Proc.devRef .tc b) = W1 m ρ c (Proc.devRef .tc b) :=
  (ops1_keep (W3 m ρ c) b h.1.1).trans ((W3_of_ne m ρ c b h.1.2).trans (W2_W1 m ρ c b h.2))
theorem W6_W1 (h : Clear6 b) : W6 (F := Ideal) m ρ c (Proc.devRef .tc b) = W1 m ρ c (Proc.devRef .tc b) :=
  (ops2_keep (W5 m ρ c) b h.1.1).trans ((W5_of_ne m ρ c b h.1.2).trans (W4_W1 m ρ c b h.2))
theorem W8_W1 (h : Clear8 b) : W8 (F := Ideal) m ρ c (Proc.devRef .tc b) = W1 m ρ c (Proc.devRef .tc b) :=
  (ops3_keep (W7 m ρ c) b h.1.1).trans ((W7_of_ne m ρ c b h.1.2).trans (W6_W1 m ρ c b h.2))
theorem W10_W1 (h : Clear10 b) : W10 (F := Ideal) m ρ c (Proc.devRef .tc b) = W1 m ρ c (Proc.devRef .tc b) :=
  (ops4_keep (W9 m ρ c) b h.1.1).trans ((W9_of_ne m ρ c b h.1.2).trans (W8_W1 m ρ c b h.2))
theorem W12_W1 (h : Clear12 b) : W12 (F := Ideal) m ρ c (Proc.devRef .tc b) = W1 m ρ c (Proc.devRef .tc b) :=
  (ops5_keep (W11 m ρ c) b h.1.1).trans ((W11_of_ne m ρ c b h.1.2).trans (W10_W1 m ρ c b h.2))

end Walk

/-! ## The regions' outputs, from the first to the last -/

section Compose

variable (c : Dev nD)

/-- The pooled features of the first two arguments. -/
def pooled : Spec.Arr2 4096 64 := Spec.pool (m ((c : Thread nD τ).loc main_arg0)) (m ((c : Thread nD τ).loc main_arg1))
/-- The first layer. -/
def layer1 : Spec.Arr2 4096 64 :=
  Spec.layer (pooled m c) (m ((c : Thread nD τ).loc main_arg4)) (m ((c : Thread nD τ).loc main_arg5))
    (m ((c : Thread nD τ).loc main_arg6)) (m ((c : Thread nD τ).loc main_arg7))
/-- The first affinity product. -/
def aff1 : Spec.Arr2 4096 64 := Spec.aff (m ((c : Thread nD τ).loc main_arg2)) (layer1 m c)
/-- The second layer. -/
def layer2 : Spec.Arr2 4096 64 :=
  Spec.layer (aff1 m c) (m ((c : Thread nD τ).loc main_arg8)) (m ((c : Thread nD τ).loc main_arg9))
    (m ((c : Thread nD τ).loc main_arg10)) (m ((c : Thread nD τ).loc main_arg11))
/-- The second affinity product. -/
def aff2 : Spec.Arr2 4096 64 := Spec.aff (m ((c : Thread nD τ).loc main_arg3)) (layer2 m c)

/-- Region 0 leaves the pooled features, transposed. -/
theorem out0 : W3 (F := Ideal) m ρ c (Proc.devRef .tc main_call0_v2) = Spec.tr (pooled m c) := by
  refine (W3_arr m ρ c 2).trans ((PoolValue.pool_arr (V2 m ρ) c).trans ?_)
  have e0 : Spec.tr (W2 (F := Ideal) m ρ c (Proc.devRef .tc main_call0_v0)) = (m ((c : Thread nD τ).loc main_arg0)) :=
    (congrArg Spec.tr ((ops0_1_v0 (W1 m ρ c)).trans
      (congrArg Spec.tr (ops0_keep (W0 m ρ c) main_arg0 (by decide))))).trans (Spec.tr_tr _)
  have e1 : Spec.tr (W2 (F := Ideal) m ρ c (Proc.devRef .tc main_call0_v1)) = (m ((c : Thread nD τ).loc main_arg1)) :=
    (congrArg Spec.tr ((ops0_1_v1 (W1 m ρ c)).trans
      (congrArg Spec.tr (ops0_keep (W0 m ρ c) main_arg1 (by decide))))).trans (Spec.tr_tr _)
  exact congrArg Spec.tr (congrArg₂ Spec.pool e0 e1)

/-- Region 1 leaves the first layer. -/
theorem out1 : W5 (F := Ideal) m ρ c (Proc.devRef .tc main_call0_v4) = layer1 m c := by
  refine (W5_arr m ρ c 5).trans ((LayerValue.layer_arr1 (V4 m ρ) c).trans ?_)
  refine layer_congr ?_ ?_ ?_ ?_ ?_
  · exact ((ops1_v3 (W3 m ρ c)).trans (congrArg Spec.tr (out0 m ρ c))).trans (Spec.tr_tr _)
  · exact (congrArg Spec.tr ((W4_W1 m ρ c main_v0 (by decide)).trans (ops0_v0 (W0 m ρ c)))).trans (Spec.tr_tr _)
  · exact (congrArg Spec.unrow (W4_W1 m ρ c main_v1 (by decide))).trans (ops0_v1 (W0 m ρ c))
  · exact (congrArg Spec.unrow (W4_W1 m ρ c main_v2 (by decide))).trans (ops0_v2 (W0 m ρ c))
  · exact (congrArg Spec.unrow (W4_W1 m ρ c main_v3 (by decide))).trans (ops0_v3 (W0 m ρ c))

/-- Region 2 leaves the first affinity product, transposed. -/
theorem out2 : W7 (F := Ideal) m ρ c (Proc.devRef .tc main_call0_v6) = Spec.tr (aff1 m c) := by
  refine (W7_arr m ρ c 2).trans ((AffValue.aff_arr2 (V6 m ρ) c).trans ?_)
  have eA : W6 (F := Ideal) m ρ c (Proc.devRef .tc main_arg2) = (m ((c : Thread nD τ).loc main_arg2)) :=
    (W6_W1 m ρ c main_arg2 (by decide)).trans (ops0_keep (W0 m ρ c) main_arg2 (by decide))
  have eh : Spec.tr (W6 (F := Ideal) m ρ c (Proc.devRef .tc main_call0_v5)) = layer1 m c :=
    (congrArg Spec.tr ((ops2_v5 (W5 m ρ c)).trans (congrArg Spec.tr (out1 m ρ c)))).trans (Spec.tr_tr _)
  exact congrArg Spec.tr (congrArg₂ Spec.aff eA eh)

/-- Region 3 leaves the second layer. -/
theorem out3 : W9 (F := Ideal) m ρ c (Proc.devRef .tc main_call0_v8) = layer2 m c := by
  refine (W9_arr m ρ c 5).trans ((LayerValue.layer_arr3 (V8 m ρ) c).trans ?_)
  refine layer_congr ?_ ?_ ?_ ?_ ?_
  · exact ((ops3_v7 (W7 m ρ c)).trans (congrArg Spec.tr (out2 m ρ c))).trans (Spec.tr_tr _)
  · exact (congrArg Spec.tr ((W8_W1 m ρ c main_v4 (by decide)).trans (ops0_v4 (W0 m ρ c)))).trans (Spec.tr_tr _)
  · exact (congrArg Spec.unrow (W8_W1 m ρ c main_v5 (by decide))).trans (ops0_v5 (W0 m ρ c))
  · exact (congrArg Spec.unrow (W8_W1 m ρ c main_v6 (by decide))).trans (ops0_v6 (W0 m ρ c))
  · exact (congrArg Spec.unrow (W8_W1 m ρ c main_v7 (by decide))).trans (ops0_v7 (W0 m ρ c))

/-- Region 4 leaves the second affinity product, transposed. -/
theorem out4 : W11 (F := Ideal) m ρ c (Proc.devRef .tc main_call0_v10) = Spec.tr (aff2 m c) := by
  refine (W11_arr m ρ c 2).trans ((AffValue.aff_arr4 (V10 m ρ) c).trans ?_)
  have eA : W10 (F := Ideal) m ρ c (Proc.devRef .tc main_arg3) = (m ((c : Thread nD τ).loc main_arg3)) :=
    (W10_W1 m ρ c main_arg3 (by decide)).trans (ops0_keep (W0 m ρ c) main_arg3 (by decide))
  have eh : Spec.tr (W10 (F := Ideal) m ρ c (Proc.devRef .tc main_call0_v9)) = layer2 m c :=
    (congrArg Spec.tr ((ops4_v9 (W9 m ρ c)).trans (congrArg Spec.tr (out3 m ρ c)))).trans (Spec.tr_tr _)
  exact congrArg Spec.tr (congrArg₂ Spec.aff eA eh)

/-- Region 5 leaves the third layer. -/
theorem out5 : W13 (F := Ideal) m ρ c (Proc.devRef .tc main_v12)
    = Spec.layer (aff2 m c) (m ((c : Thread nD τ).loc main_arg12)) (m ((c : Thread nD τ).loc main_arg13))
        (m ((c : Thread nD τ).loc main_arg14)) (m ((c : Thread nD τ).loc main_arg15)) := by
  refine (W13_arr m ρ c 5).trans ((LayerValue.layer_arr5 (V12 m ρ) c).trans ?_)
  refine layer_congr ?_ ?_ ?_ ?_ ?_
  · exact ((ops5_v11 (W11 m ρ c)).trans (congrArg Spec.tr (out4 m ρ c))).trans (Spec.tr_tr _)
  · exact (congrArg Spec.tr ((W12_W1 m ρ c main_v8 (by decide)).trans (ops0_v8 (W0 m ρ c)))).trans (Spec.tr_tr _)
  · exact (congrArg Spec.unrow (W12_W1 m ρ c main_v9 (by decide))).trans (ops0_v9 (W0 m ρ c))
  · exact (congrArg Spec.unrow (W12_W1 m ρ c main_v10 (by decide))).trans (ops0_v10 (W0 m ρ c))
  · exact (congrArg Spec.unrow (W12_W1 m ρ c main_v11 (by decide))).trans (ops0_v11 (W0 m ρ c))

end Compose

/-- The result buffer at the last boundary's contents is the specification of the launch contents of the
    sixteen arguments. -/
theorem kernel_value (c : Dev nD) :
    W13 (F := Ideal) m ρ c (Proc.devRef .tc main_v12)
      = Spec.final (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) (m ((c : Thread nD τ).loc main_arg13))
          (m ((c : Thread nD τ).loc main_arg14)) (m ((c : Thread nD τ).loc main_arg15)) :=
  (out5 m ρ c).trans rfl

end Cert.KernelIdeal.Value

end
-- ==== Proof.RefTerm.lean ====
/-
  The reference's result as one term of its sixteen arguments, stage by stage, in the operations the
  program itself applies: the pooling of the softmax's largest entry, the batch variance, one
  affine + batch-normalisation + positive-part layer, the affinity product, and their composition.
  Each definition below is, operation for operation, the stretch of the reference's @main (its called
  functions written at their call sites) that computes the stage from the stage's inputs.
-/
import proofs.«105735_g86071144612153_cont_sun_m_685_12_alg».proof.Proof.Gen.ReferenceIdeal

noncomputable section

namespace Cert.ReferenceIdeal.Stage

open Cert.ReferenceIdeal Cert.ReferenceIdeal.Facts₀ Idealize.ShloMosaic Idealize.SL.Sem

variable {F : FTy → Type} [FloatOps F]

/-- A vector of 64 entries laid along the feature axis of every row. -/
def rows (v : FVec F S64 .f32) : FVec F S4096x64 .f32 :=
  broadcastInDim S4096x64 ![0, 1] bcast_S1x64_S4096x64_0_1 (broadcastInDim S1x64 ![1] bcast_S64_S1x64_1 v)

/-- A scalar laid over every entry of a 64-vector. -/
def splat64 (v : FVec F S_ .f32) : FVec F S64 .f32 := broadcastInDim S64 ![] bcast_S_S64 v

/-- The scores `t b i * im b j / 8`, their softmax along `j`, and the softmax's largest entry. -/
def pool (t im : FVec F S4096x64 .f32) : FVec F S4096x64 .f32 :=
  have v0 : FVec F S4096x64x1 .f32 := broadcastInDim S4096x64x1 ![0, 1] bcast_S4096x64_S4096x64x1_0_1 t
  have v1 : FVec F S4096x1x64 .f32 := broadcastInDim S4096x1x64 ![0, 2] bcast_S4096x64_S4096x1x64_0_2 im
  have v2 : FVec F S4096x64x64 .f32 := Host.dotGeneral dot_S4096x64x1_S4096x1x64_S4096x64x64_2_1_1_2_0_0 none v0 v1
  have v3 : FVec F S4096x64x64 .f32 := broadcastInDim S4096x64x64 ![] bcast_S_S4096x64x64 (constant S_ .f32 0x41000000#32)
  have v4 : FVec F S4096x64x64 .f32 := Host.divf v2 v3
  have v5 : FVec F S4096x64 .f32 := Host.reduce FloatOps.maximumf v4 (constant S_ .f32 0xFF800000#32) reducesTo_S4096x64x64_S4096x64_d2 h_S_
  have v6 : FVec F S4096x64 .f32 := broadcastInDim S4096x64 ![] bcast_S_S4096x64 (constant S_ .f32 0xFF800000#32)
  have v7 : FVec F S4096x64 .f32 := maximumf v6 v5
  have v8 : FVec F S4096x64x1 .f32 := broadcastInDim S4096x64x1 ![0, 1] bcast_S4096x64_S4096x64x1_0_1 v7
  have v9 : FVec F S4096x64x64 .f32 := broadcastInDim S4096x64x64 ![0, 1, 2] bcast_S4096x64x1_S4096x64x64_0_1_2 v8
  have v10 : FVec F S4096x64x64 .f32 := subf v4 v9
  have v11 : FVec F S4096x64x64 .f32 := Host.exp v10
  have v12 : FVec F S4096x64 .f32 := Host.reduceAdd v11 (constant S_ .f32 0x00000000#32) reducesTo_S4096x64x64_S4096x64_d2 h_S_
  have v13 : FVec F S4096x64x1 .f32 := broadcastInDim S4096x64x1 ![0, 1] bcast_S4096x64_S4096x64x1_0_1 v12
  have v14 : FVec F S4096x64x64 .f32 := broadcastInDim S4096x64x64 ![0, 1, 2] bcast_S4096x64x1_S4096x64x64_0_1_2 v13
  have v15 : FVec F S4096x64x64 .f32 := Host.divf v11 v14
  Host.reduce FloatOps.maximumf v15 (constant S_ .f32 0xFF800000#32) reducesTo_S4096x64x64_S4096x64_d2 h_S_

/-- The biased variance of each feature column over the batch, guarded by "the divisor is positive". -/
def variance (x : FVec F S4096x64 .f32) : FVec F S64 .f32 :=
  have v0 : FVec F S64 .f32 := Host.reduceAdd x (constant S_ .f32 0x00000000#32) reducesTo_S4096x64_S64_d0 h_S_
  have v1 : FVec F S1x64 .f32 := broadcastInDim S1x64 ![1] bcast_S64_S1x64_1 v0
  have v2 : FVec F S1x64 .f32 := broadcastInDim S1x64 ![] bcast_S_S1x64 (constant S_ .f32 0x45800000#32)
  have v3 : FVec F S1x64 .f32 := Host.divf v1 v2
  have v4 : FVec F S4096x64 .f32 := broadcastInDim S4096x64 ![0, 1] bcast_S1x64_S4096x64_0_1 v3
  have v5 : FVec F S4096x64 .f32 := subf x v4
  have v6 : FVec F S4096x64 .f32 := mulf v5 v5
  have v7 : FVec F S_ .f32 := sitofp .f32 (constantI S_ 32 0#32)
  have v8 : FVec F S_ .f32 := subf (constant S_ .f32 0x45800000#32) v7
  have v9 : FVec F S64 .f32 := Host.reduceAdd v6 (constant S_ .f32 0x00000000#32) reducesTo_S4096x64_S64_d0 h_S_
  have v10 : FVec F S64 .f32 := broadcastInDim S64 ![] bcast_S_S64 v8
  have v11 : FVec F S64 .f32 := Host.divf v9 v10
  have v12 : IVec S_ 1 := cmpf .ogt v8 (constant S_ .f32 0x00000000#32)
  have w0 : FVec F S_ .f32 := id (constant S_ .f32 0x7FC00000#32)
  have w1 : FVec F S64 .f32 := broadcastInDim S64 ![] bcast_S_S64 w0
  select (broadcastInDim S64 ![] bcast_S_S64 v12) v11 w1

/-- One layer: `x Wᵀ + b`, centred by the column means, divided by `sqrt (variance + eps)`, scaled,
    shifted, and clipped below at zero. -/
def layer (x : FVec F S4096x64 .f32) (W : FVec F S64x64 .f32) (b g be : FVec F S64 .f32) : FVec F S4096x64 .f32 :=
  have wT : FVec F S64x64 .f32 := transpose S64x64 [1, 0] W transposes_S64x64_S64x64_1_0
  have v18 : FVec F S4096x64 .f32 := Host.dotGeneral dot_S4096x64_S64x64_S4096x64_1_0_0_1_n_n none x wT
  have v21 : FVec F S4096x64 .f32 := addf v18 (rows b)
  have v22 : FVec F S64 .f32 := Host.reduceAdd v21 (constant S_ .f32 0x00000000#32) reducesTo_S4096x64_S64_d0 h_S_
  have v24 : FVec F S64 .f32 := Host.divf v22 (splat64 (constant S_ .f32 0x45800000#32))
  have v25 : FVec F S64 .f32 := variance v21
  have v28 : FVec F S4096x64 .f32 := subf v21 (rows v24)
  have v30 : FVec F S64 .f32 := addf v25 (splat64 (constant S_ .f32 0x3727C5AC#32))
  have v31 : FVec F S64 .f32 := Host.sqrt v30
  have v34 : FVec F S4096x64 .f32 := Host.divf v28 (rows v31)
  have v37 : FVec F S4096x64 .f32 := mulf v34 (rows g)
  have v40 : FVec F S4096x64 .f32 := addf v37 (rows be)
  maximumf v40 (broadcastInDim S4096x64 ![] bcast_S_S4096x64 (constant S_ .f32 0x00000000#32))

/-- The affinity product. -/
def aff (A : FVec F S4096x4096 .f32) (h : FVec F S4096x64 .f32) : FVec F S4096x64 .f32 :=
  Host.dotGeneral dot_S4096x4096_S4096x64_S4096x64_1_0_0_1_n_n none A h

/-- The reference's result of its sixteen arguments. -/
def final (t im : FVec F S4096x64 .f32) (Ain Aout : FVec F S4096x4096 .f32)
    (Wc : FVec F S64x64 .f32) (bc gc bec : FVec F S64 .f32) (W1 : FVec F S64x64 .f32) (b1 g1 be1 : FVec F S64 .f32)
    (W2 : FVec F S64x64 .f32) (b2 g2 be2 : FVec F S64 .f32) : FVec F S4096x64 .f32 :=
  layer (aff Aout (layer (aff Ain (layer (pool t im) Wc bc gc bec)) W1 b1 g1 be1)) W2 b2 g2 be2

end Cert.ReferenceIdeal.Stage

end
-- ==== Proof.RefRun.lean ====
/-
  The reference program's run.  Its @main is a straight line of host operations once the three called
  functions (the variance with its guarded select, the positive part) are written at their call sites over
  the buffers each call names; every weakly fair execution of it terminates with each buffer at the
  operations' fold over the launch contents.  Read at the result buffer the fold is the composition of the
  stages (`Stage.final`) of the arguments' contents, and at an argument's buffer it is the argument's
  contents: no operation writes an argument.
-/
import proofs.«105735_g86071144612153_cont_sun_m_685_12_alg».proof.Proof.Gen.ReferenceIdeal
import proofs.«105735_g86071144612153_cont_sun_m_685_12_alg».proof.Proof.RefTerm
import Idealize.ShloMosaic.Lib.StableHlo.Run

noncomputable section

open scoped BigOperators

namespace Cert.ReferenceIdeal.Run

open Cert.ReferenceIdeal Cert.ReferenceIdeal.Facts₀ Idealize.ShloMosaic Idealize.ShloMosaic.TcCoe Idealize.SL.Sem

open Idealize.ShloMosaic.StableHlo

variable {F : FTy → Type} [FloatOps F]

/-- @main's operations in order, the called functions' operations at their call sites. -/
abbrev ops : List (HloOp τ sig (Elt F)) :=
  [ StableHlo.unary main_arg0 main_v0 (broadcastInDim S4096x64x1 ![0, 1] bcast_S4096x64_S4096x64x1_0_1 : (⟨S4096x64, .f32⟩ : BufTy).Contents (Elt F) → (⟨S4096x64x1, .f32⟩ : BufTy).Contents (Elt F)),
    StableHlo.unary main_arg1 main_v1 (broadcastInDim S4096x1x64 ![0, 2] bcast_S4096x64_S4096x1x64_0_2 : (⟨S4096x64, .f32⟩ : BufTy).Contents (Elt F) → (⟨S4096x1x64, .f32⟩ : BufTy).Contents (Elt F)),
    StableHlo.binary main_v0 main_v1 main_v2 ((fun l r => Host.dotGeneral dot_S4096x64x1_S4096x1x64_S4096x64x64_2_1_1_2_0_0 none l r) : (⟨S4096x64x1, .f32⟩ : BufTy).Contents (Elt F) → (⟨S4096x1x64, .f32⟩ : BufTy).Contents (Elt F) → (⟨S4096x64x64, .f32⟩ : BufTy).Contents (Elt F)),
    StableHlo.nullary main_cst (constant S_ .f32 0x41000000#32),
    StableHlo.unary main_cst main_v3 (broadcastInDim S4096x64x64 ![] bcast_S_S4096x64x64 : (⟨S_, .f32⟩ : BufTy).Contents (Elt F) → (⟨S4096x64x64, .f32⟩ : BufTy).Contents (Elt F)),
    StableHlo.binary main_v2 main_v3 main_v4 (Host.divf : (⟨S4096x64x64, .f32⟩ : BufTy).Contents (Elt F) → (⟨S4096x64x64, .f32⟩ : BufTy).Contents (Elt F) → (⟨S4096x64x64, .f32⟩ : BufTy).Contents (Elt F)),
    StableHlo.nullary main_cst_0 (constant S_ .f32 0xFF800000#32),
    StableHlo.binary main_v4 main_cst_0 main_v5 ((fun x v => Host.reduce FloatOps.maximumf x v reducesTo_S4096x64x64_S4096x64_d2 h_S_) : (⟨S4096x64x64, .f32⟩ : BufTy).Contents (Elt F) → (⟨S_, .f32⟩ : BufTy).Contents (Elt F) → (⟨S4096x64, .f32⟩ : BufTy).Contents (Elt F)),
    StableHlo.nullary main_cst_1 (constant S_ .f32 0xFF800000#32),
    StableHlo.unary main_cst_1 main_v6 (broadcastInDim S4096x64 ![] bcast_S_S4096x64 : (⟨S_, .f32⟩ : BufTy).Contents (Elt F) → (⟨S4096x64, .f32⟩ : BufTy).Contents (Elt F)),
    StableHlo.binary main_v6 main_v5 main_v7 (maximumf : (⟨S4096x64, .f32⟩ : BufTy).Contents (Elt F) → (⟨S4096x64, .f32⟩ : BufTy).Contents (Elt F) → (⟨S4096x64, .f32⟩ : BufTy).Contents (Elt F)),
    StableHlo.unary main_v7 main_v8 (broadcastInDim S4096x64x1 ![0, 1] bcast_S4096x64_S4096x64x1_0_1 : (⟨S4096x64, .f32⟩ : BufTy).Contents (Elt F) → (⟨S4096x64x1, .f32⟩ : BufTy).Contents (Elt F)),
    StableHlo.unary main_v8 main_v9 (broadcastInDim S4096x64x64 ![0, 1, 2] bcast_S4096x64x1_S4096x64x64_0_1_2 : (⟨S4096x64x1, .f32⟩ : BufTy).Contents (Elt F) → (⟨S4096x64x64, .f32⟩ : BufTy).Contents (Elt F)),
    StableHlo.binary main_v4 main_v9 main_v10 (subf : (⟨S4096x64x64, .f32⟩ : BufTy).Contents (Elt F) → (⟨S4096x64x64, .f32⟩ : BufTy).Contents (Elt F) → (⟨S4096x64x64, .f32⟩ : BufTy).Contents (Elt F)),
    StableHlo.unary main_v10 main_v11 (Host.exp : (⟨S4096x64x64, .f32⟩ : BufTy).Contents (Elt F) → (⟨S4096x64x64, .f32⟩ : BufTy).Contents (Elt F)),
    StableHlo.nullary main_cst_2 (constant S_ .f32 0x00000000#32),
    StableHlo.binary main_v11 main_cst_2 main_v12 ((fun x v => Host.reduceAdd x v reducesTo_S4096x64x64_S4096x64_d2 h_S_) : (⟨S4096x64x64, .f32⟩ : BufTy).Contents (Elt F) → (⟨S_, .f32⟩ : BufTy).Contents (Elt F) → (⟨S4096x64, .f32⟩ : BufTy).Contents (Elt F)),
    StableHlo.unary main_v12 main_v13 (broadcastInDim S4096x64x1 ![0, 1] bcast_S4096x64_S4096x64x1_0_1 : (⟨S4096x64, .f32⟩ : BufTy).Contents (Elt F) → (⟨S4096x64x1, .f32⟩ : BufTy).Contents (Elt F)),
    StableHlo.unary main_v13 main_v14 (broadcastInDim S4096x64x64 ![0, 1, 2] bcast_S4096x64x1_S4096x64x64_0_1_2 : (⟨S4096x64x1, .f32⟩ : BufTy).Contents (Elt F) → (⟨S4096x64x64, .f32⟩ : BufTy).Contents (Elt F)),
    StableHlo.binary main_v11 main_v14 main_v15 (Host.divf : (⟨S4096x64x64, .f32⟩ : BufTy).Contents (Elt F) → (⟨S4096x64x64, .f32⟩ : BufTy).Contents (Elt F) → (⟨S4096x64x64, .f32⟩ : BufTy).Contents (Elt F)),
    StableHlo.nullary main_cst_3 (constant S_ .f32 0xFF800000#32),
    StableHlo.binary main_v15 main_cst_3 main_v16 ((fun x v => Host.reduce FloatOps.maximumf x v reducesTo_S4096x64x64_S4096x64_d2 h_S_) : (⟨S4096x64x64, .f32⟩ : BufTy).Contents (Elt F) → (⟨S_, .f32⟩ : BufTy).Contents (Elt F) → (⟨S4096x64, .f32⟩ : BufTy).Contents (Elt F)),
    StableHlo.unary main_arg4 main_v17 ((transpose S64x64 [1, 0] · transposes_S64x64_S64x64_1_0) : (⟨S64x64, .f32⟩ : BufTy).Contents (Elt F) → (⟨S64x64, .f32⟩ : BufTy).Contents (Elt F)),
    StableHlo.binary main_v16 main_v17 main_v18 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    StableHlo.unary main_arg5 main_v19 (broadcastInDim S1x64 ![1] bcast_S64_S1x64_1 : (⟨S64, .f32⟩ : BufTy).Contents (Elt F) → (⟨S1x64, .f32⟩ : BufTy).Contents (Elt F)),
    StableHlo.unary main_v19 main_v20 (broadcastInDim S4096x64 ![0, 1] bcast_S1x64_S4096x64_0_1 : (⟨S1x64, .f32⟩ : BufTy).Contents (Elt F) → (⟨S4096x64, .f32⟩ : BufTy).Contents (Elt F)),
    StableHlo.binary main_v18 main_v20 main_v21 (addf : (⟨S4096x64, .f32⟩ : BufTy).Contents (Elt F) → (⟨S4096x64, .f32⟩ : BufTy).Contents (Elt F) → (⟨S4096x64, .f32⟩ : BufTy).Contents (Elt F)),
    StableHlo.nullary main_cst_4 (constant S_ .f32 0x00000000#32),
    StableHlo.binary main_v21 main_cst_4 main_v22 ((fun x v => Host.reduceAdd x v reducesTo_S4096x64_S64_d0 h_S_) : (⟨S4096x64, .f32⟩ : BufTy).Contents (Elt F) → (⟨S_, .f32⟩ : BufTy).Contents (Elt F) → (⟨S64, .f32⟩ : BufTy).Contents (Elt F)),
    StableHlo.nullary main_cst_5 (constant S_ .f32 0x45800000#32),
    StableHlo.unary main_cst_5 main_v23 (broadcastInDim S64 ![] bcast_S_S64 : (⟨S_, .f32⟩ : BufTy).Contents (Elt F) → (⟨S64, .f32⟩ : BufTy).Contents (Elt F)),
    StableHlo.binary main_v22 main_v23 main_v24 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (.of main_v21 : TRef sig ⟨S4096x64, .f32⟩) main_call0.cst main_call0.v0 (fun x v => Host.reduceAdd x v reducesTo_S4096x64_S64_d0 h_S_),
    StableHlo.TRef.unary main_call0.v0 main_call0.v1 (broadcastInDim S1x64 ![1] bcast_S64_S1x64_1),
    StableHlo.TRef.nullary main_call0.cst_0 (constant S_ .f32 0x45800000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S4096x64 ![0, 1] bcast_S1x64_S4096x64_0_1),
    StableHlo.TRef.binary (.of main_v21 : TRef sig ⟨S4096x64, .f32⟩) main_call0.v4 main_call0.v5 subf,
    StableHlo.TRef.binary main_call0.v5 main_call0.v5 main_call0.v6 mulf,
    StableHlo.TRef.unary (.of main_c : TRef sig ⟨S_, .i32⟩) main_call0.v7 (sitofp .f32),
    StableHlo.TRef.nullary main_call0.cst_1 (constant S_ .f32 0x45800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4096x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v24 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S4096x64 ![0, 1] bcast_S1x64_S4096x64_0_1 : (⟨S1x64, .f32⟩ : BufTy).Contents (Elt F) → (⟨S4096x64, .f32⟩ : BufTy).Contents (Elt F)),
    StableHlo.binary main_v21 main_v27 main_v28 (subf : (⟨S4096x64, .f32⟩ : BufTy).Contents (Elt F) → (⟨S4096x64, .f32⟩ : BufTy).Contents (Elt F) → (⟨S4096x64, .f32⟩ : BufTy).Contents (Elt F)),
    StableHlo.nullary main_cst_6 (constant S_ .f32 0x3727C5AC#32),
    StableHlo.unary main_cst_6 main_v29 (broadcastInDim S64 ![] bcast_S_S64 : (⟨S_, .f32⟩ : BufTy).Contents (Elt F) → (⟨S64, .f32⟩ : BufTy).Contents (Elt F)),
    StableHlo.binary main_v25 main_v29 main_v30 (addf : (⟨S64, .f32⟩ : BufTy).Contents (Elt F) → (⟨S64, .f32⟩ : BufTy).Contents (Elt F) → (⟨S64, .f32⟩ : BufTy).Contents (Elt F)),
    StableHlo.unary main_v30 main_v31 (Host.sqrt : (⟨S64, .f32⟩ : BufTy).Contents (Elt F) → (⟨S64, .f32⟩ : BufTy).Contents (Elt F)),
    StableHlo.unary main_v31 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S4096x64 ![0, 1] bcast_S1x64_S4096x64_0_1 : (⟨S1x64, .f32⟩ : BufTy).Contents (Elt F) → (⟨S4096x64, .f32⟩ : BufTy).Contents (Elt F)),
    StableHlo.binary main_v28 main_v33 main_v34 (Host.divf : (⟨S4096x64, .f32⟩ : BufTy).Contents (Elt F) → (⟨S4096x64, .f32⟩ : BufTy).Contents (Elt F) → (⟨S4096x64, .f32⟩ : BufTy).Contents (Elt F)),
    StableHlo.unary main_arg6 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S4096x64 ![0, 1] bcast_S1x64_S4096x64_0_1 : (⟨S1x64, .f32⟩ : BufTy).Contents (Elt F) → (⟨S4096x64, .f32⟩ : BufTy).Contents (Elt F)),
    StableHlo.binary main_v34 main_v36 main_v37 (mulf : (⟨S4096x64, .f32⟩ : BufTy).Contents (Elt F) → (⟨S4096x64, .f32⟩ : BufTy).Contents (Elt F) → (⟨S4096x64, .f32⟩ : BufTy).Contents (Elt F)),
    StableHlo.unary main_arg7 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S4096x64 ![0, 1] bcast_S1x64_S4096x64_0_1 : (⟨S1x64, .f32⟩ : BufTy).Contents (Elt F) → (⟨S4096x64, .f32⟩ : BufTy).Contents (Elt F)),
    StableHlo.binary main_v37 main_v39 main_v40 (addf : (⟨S4096x64, .f32⟩ : BufTy).Contents (Elt F) → (⟨S4096x64, .f32⟩ : BufTy).Contents (Elt F) → (⟨S4096x64, .f32⟩ : BufTy).Contents (Elt F)),
    StableHlo.TRef.nullary main_call1.cst (constant S_ .f32 0x00000000#32),
    StableHlo.TRef.unary main_call1.cst main_call1.v0 (broadcastInDim S4096x64 ![] bcast_S_S4096x64),
    StableHlo.TRef.binary (.of main_v40 : TRef sig ⟨S4096x64, .f32⟩) main_call1.v0 main_call1.v1 maximumf,
    StableHlo.binary main_arg2 main_v41 main_v42 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    StableHlo.unary main_arg8 main_v43 ((transpose S64x64 [1, 0] · transposes_S64x64_S64x64_1_0) : (⟨S64x64, .f32⟩ : BufTy).Contents (Elt F) → (⟨S64x64, .f32⟩ : BufTy).Contents (Elt F)),
    StableHlo.binary main_v42 main_v43 main_v44 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    StableHlo.unary main_arg9 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S4096x64 ![0, 1] bcast_S1x64_S4096x64_0_1 : (⟨S1x64, .f32⟩ : BufTy).Contents (Elt F) → (⟨S4096x64, .f32⟩ : BufTy).Contents (Elt F)),
    StableHlo.binary main_v44 main_v46 main_v47 (addf : (⟨S4096x64, .f32⟩ : BufTy).Contents (Elt F) → (⟨S4096x64, .f32⟩ : BufTy).Contents (Elt F) → (⟨S4096x64, .f32⟩ : BufTy).Contents (Elt F)),
    StableHlo.nullary main_cst_7 (constant S_ .f32 0x00000000#32),
    StableHlo.binary main_v47 main_cst_7 main_v48 ((fun x v => Host.reduceAdd x v reducesTo_S4096x64_S64_d0 h_S_) : (⟨S4096x64, .f32⟩ : BufTy).Contents (Elt F) → (⟨S_, .f32⟩ : BufTy).Contents (Elt F) → (⟨S64, .f32⟩ : BufTy).Contents (Elt F)),
    StableHlo.nullary main_cst_8 (constant S_ .f32 0x45800000#32),
    StableHlo.unary main_cst_8 main_v49 (broadcastInDim S64 ![] bcast_S_S64 : (⟨S_, .f32⟩ : BufTy).Contents (Elt F) → (⟨S64, .f32⟩ : BufTy).Contents (Elt F)),
    StableHlo.binary main_v48 main_v49 main_v50 (Host.divf : (⟨S64, .f32⟩ : BufTy).Contents (Elt F) → (⟨S64, .f32⟩ : BufTy).Contents (Elt F) → (⟨S64, .f32⟩ : BufTy).Contents (Elt F)),
    StableHlo.nullary main_c_9 (constantI S_ 32 0#32),
    StableHlo.TRef.nullary main_call2.cst (constant S_ .f32 0x00000000#32),
    StableHlo.TRef.binary (.of main_v47 : TRef sig ⟨S4096x64, .f32⟩) main_call2.cst main_call2.v0 (fun x v => Host.reduceAdd x v reducesTo_S4096x64_S64_d0 h_S_),
    StableHlo.TRef.unary main_call2.v0 main_call2.v1 (broadcastInDim S1x64 ![1] bcast_S64_S1x64_1),
    StableHlo.TRef.nullary main_call2.cst_0 (constant S_ .f32 0x45800000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S4096x64 ![0, 1] bcast_S1x64_S4096x64_0_1),
    StableHlo.TRef.binary (.of main_v47 : TRef sig ⟨S4096x64, .f32⟩) main_call2.v4 main_call2.v5 subf,
    StableHlo.TRef.binary main_call2.v5 main_call2.v5 main_call2.v6 mulf,
    StableHlo.TRef.unary (.of main_c_9 : TRef sig ⟨S_, .i32⟩) main_call2.v7 (sitofp .f32),
    StableHlo.TRef.nullary main_call2.cst_1 (constant S_ .f32 0x45800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S4096x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v50 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S4096x64 ![0, 1] bcast_S1x64_S4096x64_0_1 : (⟨S1x64, .f32⟩ : BufTy).Contents (Elt F) → (⟨S4096x64, .f32⟩ : BufTy).Contents (Elt F)),
    StableHlo.binary main_v47 main_v53 main_v54 (subf : (⟨S4096x64, .f32⟩ : BufTy).Contents (Elt F) → (⟨S4096x64, .f32⟩ : BufTy).Contents (Elt F) → (⟨S4096x64, .f32⟩ : BufTy).Contents (Elt F)),
    StableHlo.nullary main_cst_10 (constant S_ .f32 0x3727C5AC#32),
    StableHlo.unary main_cst_10 main_v55 (broadcastInDim S64 ![] bcast_S_S64 : (⟨S_, .f32⟩ : BufTy).Contents (Elt F) → (⟨S64, .f32⟩ : BufTy).Contents (Elt F)),
    StableHlo.binary main_v51 main_v55 main_v56 (addf : (⟨S64, .f32⟩ : BufTy).Contents (Elt F) → (⟨S64, .f32⟩ : BufTy).Contents (Elt F) → (⟨S64, .f32⟩ : BufTy).Contents (Elt F)),
    StableHlo.unary main_v56 main_v57 (Host.sqrt : (⟨S64, .f32⟩ : BufTy).Contents (Elt F) → (⟨S64, .f32⟩ : BufTy).Contents (Elt F)),
    StableHlo.unary main_v57 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S4096x64 ![0, 1] bcast_S1x64_S4096x64_0_1 : (⟨S1x64, .f32⟩ : BufTy).Contents (Elt F) → (⟨S4096x64, .f32⟩ : BufTy).Contents (Elt F)),
    StableHlo.binary main_v54 main_v59 main_v60 (Host.divf : (⟨S4096x64, .f32⟩ : BufTy).Contents (Elt F) → (⟨S4096x64, .f32⟩ : BufTy).Contents (Elt F) → (⟨S4096x64, .f32⟩ : BufTy).Contents (Elt F)),
    StableHlo.unary main_arg10 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S4096x64 ![0, 1] bcast_S1x64_S4096x64_0_1 : (⟨S1x64, .f32⟩ : BufTy).Contents (Elt F) → (⟨S4096x64, .f32⟩ : BufTy).Contents (Elt F)),
    StableHlo.binary main_v60 main_v62 main_v63 (mulf : (⟨S4096x64, .f32⟩ : BufTy).Contents (Elt F) → (⟨S4096x64, .f32⟩ : BufTy).Contents (Elt F) → (⟨S4096x64, .f32⟩ : BufTy).Contents (Elt F)),
    StableHlo.unary main_arg11 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S4096x64 ![0, 1] bcast_S1x64_S4096x64_0_1 : (⟨S1x64, .f32⟩ : BufTy).Contents (Elt F) → (⟨S4096x64, .f32⟩ : BufTy).Contents (Elt F)),
    StableHlo.binary main_v63 main_v65 main_v66 (addf : (⟨S4096x64, .f32⟩ : BufTy).Contents (Elt F) → (⟨S4096x64, .f32⟩ : BufTy).Contents (Elt F) → (⟨S4096x64, .f32⟩ : BufTy).Contents (Elt F)),
    StableHlo.TRef.nullary main_call3.cst (constant S_ .f32 0x00000000#32),
    StableHlo.TRef.unary main_call3.cst main_call3.v0 (broadcastInDim S4096x64 ![] bcast_S_S4096x64),
    StableHlo.TRef.binary (.of main_v66 : TRef sig ⟨S4096x64, .f32⟩) main_call3.v0 main_call3.v1 maximumf,
    StableHlo.binary main_arg3 main_v67 main_v68 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    StableHlo.unary main_arg12 main_v69 ((transpose S64x64 [1, 0] · transposes_S64x64_S64x64_1_0) : (⟨S64x64, .f32⟩ : BufTy).Contents (Elt F) → (⟨S64x64, .f32⟩ : BufTy).Contents (Elt F)),
    StableHlo.binary main_v68 main_v69 main_v70 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    StableHlo.unary main_arg13 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S4096x64 ![0, 1] bcast_S1x64_S4096x64_0_1 : (⟨S1x64, .f32⟩ : BufTy).Contents (Elt F) → (⟨S4096x64, .f32⟩ : BufTy).Contents (Elt F)),
    StableHlo.binary main_v70 main_v72 main_v73 (addf : (⟨S4096x64, .f32⟩ : BufTy).Contents (Elt F) → (⟨S4096x64, .f32⟩ : BufTy).Contents (Elt F) → (⟨S4096x64, .f32⟩ : BufTy).Contents (Elt F)),
    StableHlo.nullary main_cst_11 (constant S_ .f32 0x00000000#32),
    StableHlo.binary main_v73 main_cst_11 main_v74 ((fun x v => Host.reduceAdd x v reducesTo_S4096x64_S64_d0 h_S_) : (⟨S4096x64, .f32⟩ : BufTy).Contents (Elt F) → (⟨S_, .f32⟩ : BufTy).Contents (Elt F) → (⟨S64, .f32⟩ : BufTy).Contents (Elt F)),
    StableHlo.nullary main_cst_12 (constant S_ .f32 0x45800000#32),
    StableHlo.unary main_cst_12 main_v75 (broadcastInDim S64 ![] bcast_S_S64 : (⟨S_, .f32⟩ : BufTy).Contents (Elt F) → (⟨S64, .f32⟩ : BufTy).Contents (Elt F)),
    StableHlo.binary main_v74 main_v75 main_v76 (Host.divf : (⟨S64, .f32⟩ : BufTy).Contents (Elt F) → (⟨S64, .f32⟩ : BufTy).Contents (Elt F) → (⟨S64, .f32⟩ : BufTy).Contents (Elt F)),
    StableHlo.nullary main_c_13 (constantI S_ 32 0#32),
    StableHlo.TRef.nullary main_call4.cst (constant S_ .f32 0x00000000#32),
    StableHlo.TRef.binary (.of main_v73 : TRef sig ⟨S4096x64, .f32⟩) main_call4.cst main_call4.v0 (fun x v => Host.reduceAdd x v reducesTo_S4096x64_S64_d0 h_S_),
    StableHlo.TRef.unary main_call4.v0 main_call4.v1 (broadcastInDim S1x64 ![1] bcast_S64_S1x64_1),
    StableHlo.TRef.nullary main_call4.cst_0 (constant S_ .f32 0x45800000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S4096x64 ![0, 1] bcast_S1x64_S4096x64_0_1),
    StableHlo.TRef.binary (.of main_v73 : TRef sig ⟨S4096x64, .f32⟩) main_call4.v4 main_call4.v5 subf,
    StableHlo.TRef.binary main_call4.v5 main_call4.v5 main_call4.v6 mulf,
    StableHlo.TRef.unary (.of main_c_13 : TRef sig ⟨S_, .i32⟩) main_call4.v7 (sitofp .f32),
    StableHlo.TRef.nullary main_call4.cst_1 (constant S_ .f32 0x45800000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S4096x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v76 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S4096x64 ![0, 1] bcast_S1x64_S4096x64_0_1 : (⟨S1x64, .f32⟩ : BufTy).Contents (Elt F) → (⟨S4096x64, .f32⟩ : BufTy).Contents (Elt F)),
    StableHlo.binary main_v73 main_v79 main_v80 (subf : (⟨S4096x64, .f32⟩ : BufTy).Contents (Elt F) → (⟨S4096x64, .f32⟩ : BufTy).Contents (Elt F) → (⟨S4096x64, .f32⟩ : BufTy).Contents (Elt F)),
    StableHlo.nullary main_cst_14 (constant S_ .f32 0x3727C5AC#32),
    StableHlo.unary main_cst_14 main_v81 (broadcastInDim S64 ![] bcast_S_S64 : (⟨S_, .f32⟩ : BufTy).Contents (Elt F) → (⟨S64, .f32⟩ : BufTy).Contents (Elt F)),
    StableHlo.binary main_v77 main_v81 main_v82 (addf : (⟨S64, .f32⟩ : BufTy).Contents (Elt F) → (⟨S64, .f32⟩ : BufTy).Contents (Elt F) → (⟨S64, .f32⟩ : BufTy).Contents (Elt F)),
    StableHlo.unary main_v82 main_v83 (Host.sqrt : (⟨S64, .f32⟩ : BufTy).Contents (Elt F) → (⟨S64, .f32⟩ : BufTy).Contents (Elt F)),
    StableHlo.unary main_v83 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S4096x64 ![0, 1] bcast_S1x64_S4096x64_0_1 : (⟨S1x64, .f32⟩ : BufTy).Contents (Elt F) → (⟨S4096x64, .f32⟩ : BufTy).Contents (Elt F)),
    StableHlo.binary main_v80 main_v85 main_v86 (Host.divf : (⟨S4096x64, .f32⟩ : BufTy).Contents (Elt F) → (⟨S4096x64, .f32⟩ : BufTy).Contents (Elt F) → (⟨S4096x64, .f32⟩ : BufTy).Contents (Elt F)),
    StableHlo.unary main_arg14 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S4096x64 ![0, 1] bcast_S1x64_S4096x64_0_1 : (⟨S1x64, .f32⟩ : BufTy).Contents (Elt F) → (⟨S4096x64, .f32⟩ : BufTy).Contents (Elt F)),
    StableHlo.binary main_v86 main_v88 main_v89 (mulf : (⟨S4096x64, .f32⟩ : BufTy).Contents (Elt F) → (⟨S4096x64, .f32⟩ : BufTy).Contents (Elt F) → (⟨S4096x64, .f32⟩ : BufTy).Contents (Elt F)),
    StableHlo.unary main_arg15 main_v90 (broadcastInDim S1x64 ![1] bcast_S64_S1x64_1 : (⟨S64, .f32⟩ : BufTy).Contents (Elt F) → (⟨S1x64, .f32⟩ : BufTy).Contents (Elt F)),
    StableHlo.unary main_v90 main_v91 (broadcastInDim S4096x64 ![0, 1] bcast_S1x64_S4096x64_0_1 : (⟨S1x64, .f32⟩ : BufTy).Contents (Elt F) → (⟨S4096x64, .f32⟩ : BufTy).Contents (Elt F)),
    StableHlo.binary main_v89 main_v91 main_v92 (addf : (⟨S4096x64, .f32⟩ : BufTy).Contents (Elt F) → (⟨S4096x64, .f32⟩ : BufTy).Contents (Elt F) → (⟨S4096x64, .f32⟩ : BufTy).Contents (Elt F)),
    StableHlo.TRef.nullary main_call5.cst (constant S_ .f32 0x00000000#32),
    StableHlo.TRef.unary main_call5.cst main_call5.v0 (broadcastInDim S4096x64 ![] bcast_S_S4096x64),
    StableHlo.TRef.binary (.of main_v92 : TRef sig ⟨S4096x64, .f32⟩) main_call5.v0 main_call5.v1 maximumf ]

set_option maxRecDepth 16384 in
set_option maxHeartbeats 4000000 in
/-- @main is that straight line. -/
theorem main_eq (c : Dev nD) : main (F := F) c = seq ops := by
  simp only [main, main_part0, main_part1, fn_var.body, fn_where.body, fn_relu.body, seq, bind_assoc, pure_bind]

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., unary_bufs_sub .., binary_bufs_sub .., nullary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., nullary_bufs_sub .., binary_bufs_sub .., unary_bufs_sub .., binary_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., binary_bufs_sub .., unary_bufs_sub .., binary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., binary_bufs_sub .., unary_bufs_sub .., binary_bufs_sub .., unary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..⟩

/-- Every weakly fair execution of @main terminates, nothing faulting, every TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) := by
  exact run_seq scopedRefs_eq scopedSems_eq defs main (fun _ => ops) main_eq (fun _ => ops_sub) m ρ

set_option maxRecDepth 16384 in
set_option maxHeartbeats 4000000 in
/-- The fold at the result buffer is the composition of the stages of the arguments' contents. -/
theorem out_eq (V : Valuation τ sig (Elt F)) :
    after ops V (main_v93 : DevRef τ sig)
      = Stage.final (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) (V (main_arg13 : DevRef τ sig)) (V (main_arg14 : DevRef τ sig))
          (V (main_arg15 : DevRef τ sig)) := by
  -- each operation's result at its own buffer is its function of its operands' contents, at any other buffer what
  -- was there; the composed term and the stages' composition are the same term once the stages are unfolded
  after_results_simp
  rfl

set_option maxRecDepth 16384 in
set_option maxHeartbeats 4000000 in
/-- No operation writes an argument: the fold at an argument's buffer is its contents. -/
theorem arg_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig)
    ∧ after ops V (main_arg12 : DevRef τ sig) = V (main_arg12 : DevRef τ sig)
    ∧ after ops V (main_arg13 : DevRef τ sig) = V (main_arg13 : DevRef τ sig)
    ∧ after ops V (main_arg14 : DevRef τ sig) = V (main_arg14 : DevRef τ sig)
    ∧ after ops V (main_arg15 : DevRef τ sig) = V (main_arg15 : DevRef τ sig) := by
  -- every operation's result buffer is a value of the body, none an argument
  refine ⟨?_, ?_, ?_, ?_, ?_, ?_, ?_, ?_, ?_, ?_, ?_, ?_, ?_, ?_, ?_, ?_⟩ <;> after_results_simp

end Cert.ReferenceIdeal.Run

end
-- ==== Proof.RefPool.lean ====
/-
  The reference's pooling stage is `Spec.pool` when the two inputs are finite.  At row `b` and feature `i` the
  reference forms `s j = (t b i * im b j) / 8` (a product sum over one term), the maximum `M` of `s` (folded from
  `-∞`, and once more against `-∞`), `e j = exp (s j - M)`, their sum `S`, and the largest of `e j / S`.
  `(x * y) / 8 = (x / 8) * y` on all extended reals; for finite `s` the largest `e j` is `exp 0 = 1` and `S` is a
  positive real, so the largest quotient is `1 / S` (`Math.softmax_max`).
-/
import proofs.«105735_g86071144612153_cont_sun_m_685_12_alg».proof.Proof.Gen.ReferenceIdeal
import proofs.«105735_g86071144612153_cont_sun_m_685_12_alg».proof.Proof.RefTerm
import proofs.«105735_g86071144612153_cont_sun_m_685_12_alg».proof.Proof.Spec
import proofs.«105735_g86071144612153_cont_sun_m_685_12_alg».proof.Proof.Math
import Idealize.ShloMosaic.Lib.ValueIdx
import Idealize.ShloMosaic.Lib.IdealHost
import Idealize.ShloMosaic.Lib.Pipeline.Value
import Idealize.ShloMosaic.Lib.StackMember
import Idealize.ShloMosaic.PureOps.Ideal.Laws

noncomputable section

open scoped BigOperators

namespace Cert.ReferenceIdeal.PoolValue

open Cert.ReferenceIdeal Cert.ReferenceIdeal.Facts₀ Idealize.ShloMosaic Idealize.ShloMosaic.TcCoe Idealize.SL.Sem

open Idealize.ShloMosaic.ValueIdx

/-- The pattern of minus infinity. -/
theorem ofBits_neg_inf : Ideal.ofBits .f32 0xFF800000#32 = ⊥ := by
  simp [Ideal.ofBits, Ideal.ieee]

/-- The pattern of eight. -/
theorem ofBits_eight : Ideal.ofBits .f32 0x41000000#32 = ((8 : ℝ) : EReal) := by
  simp [Ideal.ofBits, Ideal.ieee, -EReal.coe_mul]; norm_num

/-- Dropping the last axis of a [4096, 64, 64] array leaves a [4096, 64] array. -/
theorem reduces2 : S4096x64x64.Reduces [2] S4096x64 := by decide

/-- The index over `(b, i)` with `k` inserted on the dropped axis is `(b, i, k)`. -/
theorem lift_ix (b : Fin 4096) (i k : Fin 64) : reduces2.lift (ix2 b i) k = ix3 b i k := by
  funext c
  match c with
  | ⟨0, _⟩ => rfl
  | ⟨1, _⟩ => rfl
  | ⟨2, _⟩ => rfl

/-- The maximum along the last axis from the pattern of minus infinity: `max` is commutative and associative, so the
    row-major fold is the fold over the 64 coordinates from `⊥`. -/
theorem reduceMax_apply (X : FVec Ideal S4096x64x64 .f32) (b : Fin 4096) (i : Fin 64) :
    Host.reduce FloatOps.maximumf X (constant (F := Ideal) S_ .f32 0xFF800000#32) reducesTo_S4096x64x64_S4096x64_d2 h_S_ (ix2 b i)
      = (Finset.univ : Finset (Fin 64)).fold max ⊥ (fun k => X (ix3 b i k)) := by
  rw [Host.reduce_eq_fold_single FloatOps.maximumf X _ reducesTo_S4096x64x64_S4096x64_d2 reduces2 h_S_ (ix2 b i)]
  rw [constant_apply, ofBits_neg_inf]
  have e : (X ∘ reduces2.lift (ix2 b i)) = fun k : Fin 64 => X (ix3 b i k) := funext fun k => congrArg X (lift_ix b i k)
  rw [e]
  rfl

/-- The sum along the last axis from the pattern of zero: `0 + ∑` over the 64 coordinates. -/
theorem reduceAdd_apply (X : FVec Ideal S4096x64x64 .f32) (b : Fin 4096) (i : Fin 64) :
    Host.reduceAdd X (constant (F := Ideal) S_ .f32 0x00000000#32) reducesTo_S4096x64x64_S4096x64_d2 h_S_ (ix2 b i)
      = 0 + ∑ k : Fin 64, X (ix3 b i k) := by
  rw [hostReduceAdd_apply, Ideal.hostReduceAdd_single reducesTo_S4096x64x64_S4096x64_d2 reduces2, constant_apply,
    Ideal.ofBits_zero_f32]
  exact congrArg (fun z => (0 : EReal) + z) (Finset.sum_congr rfl fun k _ => congrArg X (lift_ix b i k))

/-- The batched product contracts an axis of extent one: its sum has the one term. -/
theorem dot_apply (A : FVec Ideal S4096x64x1 .f32) (B : FVec Ideal S4096x1x64 .f32) (b : Fin 4096) (i k : Fin 64) :
    Host.dotGeneral dot_S4096x64x1_S4096x1x64_S4096x64x64_2_1_1_2_0_0 none A B (ix3 b i k)
      = A (ix3 b i 0) * B (ix3 b 0 k) := by
  have h := StackMember.dotGeneral_stack_apply (G := 4096) (m := 64) (n := 64) (k := 1)
    dot_S4096x64x1_S4096x1x64_S4096x64x64_2_1_1_2_0_0_wf none A B b i k
  rw [Fin.sum_univ_one] at h
  exact h

/-- The host's exponential at an index. -/
theorem hostExp_apply {s : Shape} (x : FVec Ideal s .f32) (j : s.Idx) : Host.exp x j = Ideal.exp (x j) := rfl

/-- A [4096, 64] array laid along a new last unit axis. -/
theorem bcLast_apply {α : Type} (x : S4096x64.Idx → α) (b : Fin 4096) (i : Fin 64) (u : Fin 1) :
    broadcastInDim S4096x64x1 ![0, 1] bcast_S4096x64_S4096x64x1_0_1 x (ix3 b i u) = x (ix2 b i) :=
  broadcastInDim_apply _ _ x _ (ix2 b i) (fun a => by match a with | ⟨0, _⟩ => rfl | ⟨1, _⟩ => rfl)

/-- A [4096, 64] array laid along a new middle unit axis. -/
theorem bcMid_apply {α : Type} (x : S4096x64.Idx → α) (b : Fin 4096) (u : Fin 1) (k : Fin 64) :
    broadcastInDim S4096x1x64 ![0, 2] bcast_S4096x64_S4096x1x64_0_2 x (ix3 b u k) = x (ix2 b k) :=
  broadcastInDim_apply _ _ x _ (ix2 b k) (fun a => by match a with | ⟨0, _⟩ => rfl | ⟨1, _⟩ => rfl)

/-- A [4096, 64, 1] array repeated along its last axis. -/
theorem bcRep_apply {α : Type} (x : S4096x64x1.Idx → α) (b : Fin 4096) (i k : Fin 64) :
    broadcastInDim S4096x64x64 ![0, 1, 2] bcast_S4096x64x1_S4096x64x64_0_1_2 x (ix3 b i k) = x (ix3 b i 0) :=
  broadcastInDim_apply _ _ x _ (ix3 b i 0) (fun a => by match a with | ⟨0, _⟩ => rfl | ⟨1, _⟩ => rfl | ⟨2, _⟩ => rfl)

/-- The reference's scores: the product over eight, at every extended real. -/
def sc (t im : FVec Ideal S4096x64 .f32) (b : Fin 4096) (i : Fin 64) : Fin 64 → EReal :=
  fun k => Ideal.div (t (ix2 b i) * im (ix2 b k)) ((8 : ℝ) : EReal)

/-- The scores as the reference's array: a product sum over one term, divided by the splat of eight. -/
def V4 (t im : FVec Ideal S4096x64 .f32) : FVec Ideal S4096x64x64 .f32 :=
  Host.divf
    (Host.dotGeneral dot_S4096x64x1_S4096x1x64_S4096x64x64_2_1_1_2_0_0 none
      (broadcastInDim S4096x64x1 ![0, 1] bcast_S4096x64_S4096x64x1_0_1 t)
      (broadcastInDim S4096x1x64 ![0, 2] bcast_S4096x64_S4096x1x64_0_2 im))
    (broadcastInDim S4096x64x64 ![] bcast_S_S4096x64x64 (constant S_ .f32 0x41000000#32))

/-- The score array at `(b, i, k)`: both broadcasts read their operand, the splat reads eight. -/
theorem V4_apply (t im : FVec Ideal S4096x64 .f32) (b : Fin 4096) (i k : Fin 64) :
    V4 t im (ix3 b i k) = sc t im b i k := by
  unfold V4 sc
  rw [hostDivf_apply, dot_apply, bcLast_apply, bcMid_apply, broadcastInDim_scalar_apply, constant_apply, ofBits_eight]

/-- The row maximum, taken once more against minus infinity. -/
def V7 (t im : FVec Ideal S4096x64 .f32) : FVec Ideal S4096x64 .f32 :=
  maximumf (broadcastInDim S4096x64 ![] bcast_S_S4096x64 (constant S_ .f32 0xFF800000#32))
    (Host.reduce FloatOps.maximumf (V4 t im) (constant S_ .f32 0xFF800000#32) reducesTo_S4096x64x64_S4096x64_d2 h_S_)

/-- The maximum the reference subtracts. -/
def mx (t im : FVec Ideal S4096x64 .f32) (b : Fin 4096) (i : Fin 64) : EReal :=
  max ⊥ ((Finset.univ : Finset (Fin 64)).fold max ⊥ (sc t im b i))

/-- The subtracted maximum at `(b, i)`: the fold of the scores from `⊥`, once more against `⊥`. -/
theorem V7_apply (t im : FVec Ideal S4096x64 .f32) (b : Fin 4096) (i : Fin 64) :
    V7 t im (ix2 b i) = mx t im b i := by
  unfold V7 mx
  rw [maximumf_apply, broadcastInDim_scalar_apply, constant_apply, ofBits_neg_inf, reduceMax_apply]
  exact congrArg (fun f : Fin 64 → EReal => max ⊥ ((Finset.univ : Finset (Fin 64)).fold max ⊥ f))
    (funext fun k => V4_apply t im b i k)

/-- The exponentials of the scores less the maximum. -/
def V11 (t im : FVec Ideal S4096x64 .f32) : FVec Ideal S4096x64x64 .f32 :=
  Host.exp (subf (V4 t im)
    (broadcastInDim S4096x64x64 ![0, 1, 2] bcast_S4096x64x1_S4096x64x64_0_1_2
      (broadcastInDim S4096x64x1 ![0, 1] bcast_S4096x64_S4096x64x1_0_1 (V7 t im))))

/-- The exponentials at `(b, i, k)`: the maximum is repeated along the last axis. -/
theorem V11_apply (t im : FVec Ideal S4096x64 .f32) (b : Fin 4096) (i k : Fin 64) :
    V11 t im (ix3 b i k) = Ideal.exp (sc t im b i k - mx t im b i) := by
  unfold V11
  rw [hostExp_apply, subf_apply, V4_apply, bcRep_apply, bcLast_apply, V7_apply]

/-- The exponentials over their row sum. -/
def V15 (t im : FVec Ideal S4096x64 .f32) : FVec Ideal S4096x64x64 .f32 :=
  Host.divf (V11 t im)
    (broadcastInDim S4096x64x64 ![0, 1, 2] bcast_S4096x64x1_S4096x64x64_0_1_2
      (broadcastInDim S4096x64x1 ![0, 1] bcast_S4096x64_S4096x64x1_0_1
        (Host.reduceAdd (V11 t im) (constant S_ .f32 0x00000000#32) reducesTo_S4096x64x64_S4096x64_d2 h_S_)))

/-- The quotients at `(b, i, k)`: the row sum is repeated along the last axis. -/
theorem V15_apply (t im : FVec Ideal S4096x64 .f32) (b : Fin 4096) (i k : Fin 64) :
    V15 t im (ix3 b i k)
      = Ideal.div (Ideal.exp (sc t im b i k - mx t im b i)) (0 + ∑ k' : Fin 64, Ideal.exp (sc t im b i k' - mx t im b i)) := by
  unfold V15
  rw [hostDivf_apply, V11_apply, bcRep_apply, bcLast_apply, reduceAdd_apply]
  exact congrArg (fun f : Fin 64 → EReal => Ideal.div (Ideal.exp (sc t im b i k - mx t im b i)) (0 + ∑ k' : Fin 64, f k'))
    (funext fun k' => V11_apply t im b i k')

/-- The pooling stage is the row maximum of the quotients. -/
theorem pool_unfold (t im : FVec Ideal S4096x64 .f32) :
    Stage.pool (F := Ideal) t im
      = Host.reduce FloatOps.maximumf (V15 t im) (constant S_ .f32 0xFF800000#32) reducesTo_S4096x64x64_S4096x64_d2 h_S_ := rfl

/-- The pooling stage at `(b, i)`: the largest of the 64 quotients, folded from `⊥`. -/
theorem pool_apply (t im : FVec Ideal S4096x64 .f32) (b : Fin 4096) (i : Fin 64) :
    Stage.pool (F := Ideal) t im (ix2 b i)
      = (Finset.univ : Finset (Fin 64)).fold max ⊥ (fun k =>
          Ideal.div (Ideal.exp (sc t im b i k - mx t im b i)) (0 + ∑ k' : Fin 64, Ideal.exp (sc t im b i k' - mx t im b i))) := by
  rw [pool_unfold, reduceMax_apply]
  exact congrArg (fun f : Fin 64 → EReal => (Finset.univ : Finset (Fin 64)).fold max ⊥ f)
    (funext fun k => V15_apply t im b i k)

/-- A product of two finite extended reals is finite. -/
theorem finite_mul {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

/-- The reference's scores are the specification's: `(x * y) / 8 = (x * (1/8)) * y` on every extended real. -/
theorem sc_eq_score (t im : FVec Ideal S4096x64 .f32) (b : Fin 4096) (i : Fin 64) :
    sc t im b i = Spec.score t im b i := by
  funext k
  show Ideal.div (t (ix2 b i) * im (ix2 b k)) ((8 : ℝ) : EReal) = (t (ix2 b i) * ((1 / 8 : ℝ) : EReal)) * im (ix2 b k)
  rw [← Math.mul_c8, mul_right_comm]

/-- The specification's scores of finite inputs are finite. -/
theorem score_finite (t im : FVec Ideal S4096x64 .f32)
    (ht : ∀ i, t i ≠ ⊤ ∧ t i ≠ ⊥) (him : ∀ i, im i ≠ ⊤ ∧ im i ≠ ⊥) (b : Fin 4096) (i k : Fin 64) :
    Spec.score t im b i k ≠ ⊤ ∧ Spec.score t im b i k ≠ ⊥ :=
  finite_mul (finite_mul (ht _) ⟨EReal.coe_ne_top _, EReal.coe_ne_bot _⟩) (him _)

/-- The reference's pooling of finite inputs is the specification's. -/
theorem pool_eq (t im : FVec Ideal S4096x64 .f32)
    (ht : ∀ i, t i ≠ ⊤ ∧ t i ≠ ⊥) (him : ∀ i, im i ≠ ⊤ ∧ im i ≠ ⊥) :
    Stage.pool (F := Ideal) t im = Spec.pool t im := by
  funext j
  obtain ⟨b, i, rfl⟩ : ∃ (b : Fin 4096) (i : Fin 64), j = ix2 b i := ⟨_, _, eq_ix2 j⟩
  rw [pool_apply]
  unfold mx
  rw [sc_eq_score, max_eq_right bot_le, zero_add]
  exact Math.softmax_max (by norm_num) (Spec.score t im b i) (score_finite t im ht him b i)

end Cert.ReferenceIdeal.PoolValue

end
-- ==== Proof.RefLayer.lean ====
/-
  The reference's layer and affinity product are the specification's, on all extended reals.
  The layer: the host product with the transposed weight is `∑ k, x r k * W d k`; the mean is the column sum
  divided by 4096, which is the product with 1/4096; the variance stage's divisor `4096 - 0` is `4096`, its
  guard `4096 > 0` holds, so its select keeps the quotient; the rest is the same operations entry by entry.
  The affinity product is the host product read at an index.
-/
import proofs.«105735_g86071144612153_cont_sun_m_685_12_alg».proof.Proof.Gen.ReferenceIdeal
import proofs.«105735_g86071144612153_cont_sun_m_685_12_alg».proof.Proof.RefTerm
import proofs.«105735_g86071144612153_cont_sun_m_685_12_alg».proof.Proof.Spec
import proofs.«105735_g86071144612153_cont_sun_m_685_12_alg».proof.Proof.Math
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.LayerValue

open Cert.ReferenceIdeal Cert.ReferenceIdeal.Facts₀ Idealize.ShloMosaic Idealize.ShloMosaic.TcCoe Idealize.SL.Sem

open Idealize.ShloMosaic.ValueIdx

/-! ## The layer's stages at an index -/

/-- The binary32 word `0x45800000` is 4096. -/
theorem ofBits_4096 : Ideal.ofBits .f32 0x45800000#32 = ((4096 : ℝ) : EReal) := by
  simp [Ideal.ofBits, Ideal.ieee, -EReal.coe_mul]; norm_num

/-- A `[1, 64]` array laid along every row reads, at row `r` and column `d`, its entry `(0, d)`. -/
theorem bcRows_apply (w : FVec Ideal S1x64 .f32) (r : Fin 4096) (d : Fin 64) :
    broadcastInDim S4096x64 ![0, 1] bcast_S1x64_S4096x64_0_1 w (ix2 r d) = w (ix2 (0 : Fin 1) d) := by
  refine broadcastInDim_apply _ _ _ _ (ix2 (0 : Fin 1) d) ?_
  intro a
  match a with
  | ⟨0, _⟩ => rfl
  | ⟨1, _⟩ => rfl

/-- A 64-vector as a `[1, 64]` array reads, at `(0, d)`, its entry `d`. -/
theorem bcUnrow_apply (v : FVec Ideal S64 .f32) (d : Fin 64) :
    broadcastInDim S1x64 ![1] bcast_S64_S1x64_1 v (ix2 (0 : Fin 1) d) = v (ix1 d) := by
  refine broadcastInDim_apply _ _ _ _ (ix1 d) ?_
  intro a
  match a with
  | ⟨0, _⟩ => rfl

/-- A 64-vector laid along the rows reads, at row `r` and column `d`, its entry `d`. -/
theorem rows_apply (v : FVec Ideal S64 .f32) (r : Fin 4096) (d : Fin 64) :
    Stage.rows (F := Ideal) v (ix2 r d) = v (ix1 d) := by
  unfold Stage.rows
  rw [bcRows_apply, bcUnrow_apply]

/-- A scalar laid over a 64-vector reads the scalar. -/
theorem splat64_apply (v : FVec Ideal S_ .f32) (d : Fin 64) :
    Stage.splat64 (F := Ideal) v (ix1 d) = v ix0 := by
  unfold Stage.splat64
  exact broadcastInDim_scalar_apply _ v _

/-- The host's sum over the rows from the zero word, at column `d`: the sum of the column's 4096 entries. -/
theorem colsum_apply (y : FVec Ideal S4096x64 .f32) (d : Fin 64) :
    Host.reduceAdd (F := Ideal) y (constant (F := Ideal) S_ .f32 0x00000000#32) reducesTo_S4096x64_S64_d0 h_S_ (ix1 d)
      = ∑ r : Fin 4096, y (ix2 r d) := by
  rw [hostReduceAdd_apply, Ideal.hostReduceAdd_single reducesTo_S4096x64_S64_d0 (by decide), constant_apply,
    Ideal.ofBits_zero_f32, zero_add]
  refine Finset.sum_congr rfl fun r _ => ?_
  exact congrArg y (funext fun a => Fin.ext (by match a with | ⟨0, _⟩ => rfl | ⟨1, _⟩ => rfl))

/-- A quotient by the word 4096 is the product with 1/4096, on every extended real. -/
theorem div_4096 (s : EReal) : Ideal.div s (Ideal.ofBits .f32 0x45800000#32) = s * Spec.c4096 := by
  rw [ofBits_4096]
  exact (Math.mul_c4096 s).symm

/-- The signed integer word zero converts to the extended real zero. -/
theorem sitofp_zero : FloatOps.sitofp (F := Ideal) .f32 (0#32 : BitVec 32) = 0 := by
  show (((0#32 : BitVec 32).toInt : ℝ) : EReal) = 0
  simp

/-- The guard "4096 is above zero" holds. -/
theorem guard_4096 :
    FloatOps.cmpf (F := Ideal) (φ := .f32) .ogt (Ideal.ofBits .f32 0x45800000#32) (Ideal.ofBits .f32 0x00000000#32) = 1#1 := by
  rw [Ideal.cmpf_def, ofBits_4096, Ideal.ofBits_zero_f32]
  have h : (0 : EReal) < ((4096 : ℝ) : EReal) := by exact_mod_cast (by norm_num : (0 : ℝ) < 4096)
  show BitVec.ofBool (decide ((0 : EReal) < ((4096 : ℝ) : EReal))) = 1#1
  rw [decide_eq_true h]
  rfl

/-- A splat integer constant reads its word. -/
theorem constantI_apply {s : Shape} {w : Nat} (b : BitVec w) (i : s.Idx) : constantI s w b i = b := rfl

/-- The host's square root at an index is the ideal square root of the entry. -/
theorem hostSqrt_apply {s : Shape} (a : FVec Ideal s .f32) (i : s.Idx) : Host.sqrt a i = Ideal.sqrt (a i) := rfl

/-- The variance stage's centred array: each entry minus its column's mean, the mean being the column sum over the
    word 4096 laid back along the rows. -/
theorem centred_eq (y : FVec Ideal S4096x64 .f32) :
    subf y (broadcastInDim S4096x64 ![0, 1] bcast_S1x64_S4096x64_0_1
        (Host.divf (F := Ideal)
          (broadcastInDim S1x64 ![1] bcast_S64_S1x64_1
            (Host.reduceAdd (F := Ideal) y (constant (F := Ideal) S_ .f32 0x00000000#32) reducesTo_S4096x64_S64_d0 h_S_))
          (broadcastInDim S1x64 ![] bcast_S_S1x64 (constant (F := Ideal) S_ .f32 0x45800000#32))))
      = fun j => y j - Spec.mu y (Spec.c1 j) := by
  funext j
  obtain ⟨r, d, rfl⟩ : ∃ (r : Fin 4096) (d : Fin 64), j = ix2 r d := ⟨j 0, j 1, eq_ix2 j⟩
  rw [subf_apply, bcRows_apply, hostDivf_apply, bcUnrow_apply, colsum_apply, broadcastInDim_scalar_apply,
    constant_apply, div_4096]
  rfl

/-- The reference's variance stage at column `d` is the specification's biased variance: the mean is the column sum
    over 4096, the divisor `4096 - 0` is 4096, and the guard `4096 > 0` keeps the quotient. -/
theorem variance_apply (y : FVec Ideal S4096x64 .f32) (d : Fin 64) :
    Stage.variance (F := Ideal) y (ix1 d) = Spec.var y d := by
  unfold Stage.variance
  simp only []
  rw [centred_eq]
  simp only [select_apply, hostDivf_apply, colsum_apply]
  rw [broadcastInDim_scalar_apply, broadcastInDim_scalar_apply, broadcastInDim_scalar_apply]
  simp only [cmpf_apply, subf_apply, constant_apply, sitofp_apply, constantI_apply]
  rw [sitofp_zero, sub_zero, guard_4096, select_one, div_4096]
  rfl

/-! ## The affine stage: a contraction over one axis with the transposed weight, plus the bias -/

/-- The left operand's free axis carries the result's row. -/
theorem lhs_lin_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl

/-- The left operand's contracted axis carries the contraction's coordinate. -/
theorem lhs_lin_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q

/-- The right operand's contracted axis carries the contraction's coordinate. -/
theorem rhs_lin_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q

/-- The right operand's free axis carries the result's column. -/
theorem rhs_lin_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

/-- The reference's affine stage: the host product with the transposed weight, plus the bias laid along the rows. -/
def lin (x : FVec Ideal S4096x64 .f32) (W : FVec Ideal S64x64 .f32) (b : FVec Ideal S64 .f32) :
    FVec Ideal S4096x64 .f32 :=
  addf (Host.dotGeneral (F := Ideal) dot_S4096x64_S64x64_S4096x64_1_0_0_1_n_n none x
    (transpose S64x64 [1, 0] W transposes_S64x64_S64x64_1_0)) (Stage.rows (F := Ideal) b)

/-- The affine stage is the specification's: the product at `(r, d)` is `∑ k, x r k * Wᵀ k d`, and the transposed
    weight at `(k, d)` is the weight at `(d, k)`. -/
theorem lin_eq (x : FVec Ideal S4096x64 .f32) (W : FVec Ideal S64x64 .f32) (b : FVec Ideal S64 .f32) :
    lin x W b = Spec.lin x W b := by
  funext j
  obtain ⟨r, d, rfl⟩ : ∃ (r : Fin 4096) (d : Fin 64), j = ix2 r d := ⟨j 0, j 1, eq_ix2 j⟩
  unfold lin Spec.lin
  rw [addf_apply, rows_apply]
  simp only [Host.dotGeneral]
  rw [Ideal.dotGeneral_apply,
    ← Equiv.sum_comp (contrEquiv1 dot_S4096x64_S64x64_S4096x64_1_0_0_1_n_n 64 rfl rfl).symm]
  refine congrArg₂ (· + ·) (Finset.sum_congr rfl fun k _ => ?_) rfl
  have hk := contrEquiv1_symm_val dot_S4096x64_S64x64_S4096x64_1_0_0_1_n_n 64 rfl rfl k
  have el : dot_S4096x64_S64x64_S4096x64_1_0_0_1_n_n.lhsIdx (ix2 r d)
      ((contrEquiv1 dot_S4096x64_S64x64_S4096x64_1_0_0_1_n_n 64 rfl rfl).symm k) = ix2 r k :=
    funext fun a => Fin.ext (by
      match a with
      | ⟨0, _⟩ => exact lhs_lin_0 _ _
      | ⟨1, _⟩ => exact (lhs_lin_1 _ _).trans hk)
  have er : dot_S4096x64_S64x64_S4096x64_1_0_0_1_n_n.rhsIdx (ix2 r d)
      ((contrEquiv1 dot_S4096x64_S64x64_S4096x64_1_0_0_1_n_n 64 rfl rfl).symm k) = ix2 k d :=
    funext fun a => Fin.ext (by
      match a with
      | ⟨0, _⟩ => exact (rhs_lin_0 _ _).trans hk
      | ⟨1, _⟩ => exact rhs_lin_1 _ _)
  rw [el, er]
  refine congrArg (x (ix2 r k) * ·) ?_
  refine transpose_apply _ _ _ (ix2 k d) (ix2 d k) ?_
  intro a
  match a with
  | ⟨0, _⟩ => rfl
  | ⟨1, _⟩ => rfl

/-! ## The normalisation stage -/

/-- The reference's normalisation stage over its affine stage's result `y`: centred by the column means, divided by
    `sqrt (variance + eps)`, scaled, shifted, and clipped below at zero. -/
def bn (y : FVec Ideal S4096x64 .f32) (g be : FVec Ideal S64 .f32) : FVec Ideal S4096x64 .f32 :=
  maximumf
    (addf
      (mulf
        (Host.divf (F := Ideal)
          (subf y (Stage.rows (F := Ideal) (Host.divf (F := Ideal)
            (Host.reduceAdd (F := Ideal) y (constant (F := Ideal) S_ .f32 0x00000000#32) reducesTo_S4096x64_S64_d0 h_S_)
            (Stage.splat64 (F := Ideal) (constant (F := Ideal) S_ .f32 0x45800000#32)))))
          (Stage.rows (F := Ideal) (Host.sqrt (F := Ideal)
            (addf (Stage.variance (F := Ideal) y)
              (Stage.splat64 (F := Ideal) (constant (F := Ideal) S_ .f32 0x3727C5AC#32))))))
        (Stage.rows (F := Ideal) g))
      (Stage.rows (F := Ideal) be))
    (broadcastInDim S4096x64 ![] bcast_S_S4096x64 (constant (F := Ideal) S_ .f32 0x00000000#32))

/-- The reference's layer is its normalisation stage over its affine stage. -/
theorem layer_split (x : FVec Ideal S4096x64 .f32) (W : FVec Ideal S64x64 .f32) (b g be : FVec Ideal S64 .f32) :
    Stage.layer (F := Ideal) x W b g be = bn (lin x W b) g be := rfl

/-- The normalisation stage is the specification's, entry by entry. -/
theorem bn_eq (y : FVec Ideal S4096x64 .f32) (g be : FVec Ideal S64 .f32) : bn y g be = Spec.bnrelu y g be := by
  funext j
  obtain ⟨r, d, rfl⟩ : ∃ (r : Fin 4096) (d : Fin 64), j = ix2 r d := ⟨j 0, j 1, eq_ix2 j⟩
  unfold bn Spec.bnrelu
  simp only [maximumf_apply, addf_apply, mulf_apply, hostDivf_apply, subf_apply]
  rw [rows_apply, rows_apply, rows_apply, rows_apply, broadcastInDim_scalar_apply]
  simp only [hostDivf_apply, hostSqrt_apply, addf_apply, colsum_apply, constant_apply]
  rw [splat64_apply, splat64_apply, variance_apply]
  simp only [constant_apply]
  rw [div_4096, Ideal.ofBits_zero_f32]
  rfl

/-- The reference's layer is the specification's. -/
theorem layer_eq (x : FVec Ideal S4096x64 .f32) (W : FVec Ideal S64x64 .f32) (b g be : FVec Ideal S64 .f32) :
    Stage.layer (F := Ideal) x W b g be = Spec.layer x W b g be := by
  rw [layer_split, lin_eq, bn_eq]
  rfl

/-! ## The affinity product: a contraction over one axis, read at an index -/

/-- The left operand's free axis carries the result's row. -/
theorem lhs_aff_0 (i : S4096x64.Idx) (q : dot_S4096x4096_S4096x64_S4096x64_1_0_0_1_n_n.contr.Idx) :
    (dot_S4096x4096_S4096x64_S4096x64_1_0_0_1_n_n.lhsIdx i q 0).val = (i 0).val := by
  unfold DotDims.lhsIdx
  rw [dif_neg (show ¬(0 : Fin S4096x4096.rank) ∈ dot_S4096x4096_S4096x64_S4096x64_1_0_0_1_n_n.lhsBatch by decide),
    dif_pos (show (0 : Fin S4096x4096.rank) ∈ dot_S4096x4096_S4096x64_S4096x64_1_0_0_1_n_n.lhsNonContracting by decide)]
  rfl

/-- The left operand's contracted axis carries the contraction's coordinate. -/
theorem lhs_aff_1 (i : S4096x64.Idx) (q : dot_S4096x4096_S4096x64_S4096x64_1_0_0_1_n_n.contr.Idx) :
    (dot_S4096x4096_S4096x64_S4096x64_1_0_0_1_n_n.lhsIdx i q 1).val = (q ⟨0, by decide⟩).val :=
  dot_S4096x4096_S4096x64_S4096x64_1_0_0_1_n_n.lhsIdx_val_of_single rfl i q

/-- The right operand's contracted axis carries the contraction's coordinate. -/
theorem rhs_aff_0 (i : S4096x64.Idx) (q : dot_S4096x4096_S4096x64_S4096x64_1_0_0_1_n_n.contr.Idx) :
    (dot_S4096x4096_S4096x64_S4096x64_1_0_0_1_n_n.rhsIdx i q 0).val = (q ⟨0, by decide⟩).val :=
  dot_S4096x4096_S4096x64_S4096x64_1_0_0_1_n_n.rhsIdx_val_of_single rfl i q

/-- The right operand's free axis carries the result's column. -/
theorem rhs_aff_1 (i : S4096x64.Idx) (q : dot_S4096x4096_S4096x64_S4096x64_1_0_0_1_n_n.contr.Idx) :
    (dot_S4096x4096_S4096x64_S4096x64_1_0_0_1_n_n.rhsIdx i q 1).val = (i 1).val := by
  unfold DotDims.rhsIdx
  rw [dif_neg (show ¬(1 : Fin S4096x64.rank) ∈ dot_S4096x4096_S4096x64_S4096x64_1_0_0_1_n_n.rhsBatch by decide),
    dif_pos (show (1 : Fin S4096x64.rank) ∈ dot_S4096x4096_S4096x64_S4096x64_1_0_0_1_n_n.rhsNonContracting by decide)]
  rfl

/-- The reference's affinity product is the specification's. -/
theorem aff_eq (A : FVec Ideal S4096x4096 .f32) (h : FVec Ideal S4096x64 .f32) :
    Stage.aff (F := Ideal) A h = Spec.aff A h := by
  funext j
  obtain ⟨b, k, rfl⟩ : ∃ (b : Fin 4096) (k : Fin 64), j = ix2 b k := ⟨j 0, j 1, eq_ix2 j⟩
  unfold Stage.aff Spec.aff
  simp only [Host.dotGeneral]
  -- the host product at an index is the sum over the contraction's index set, which is `Fin 4096`
  rw [Ideal.dotGeneral_apply,
    ← Equiv.sum_comp (contrEquiv1 dot_S4096x4096_S4096x64_S4096x64_1_0_0_1_n_n 4096 rfl rfl).symm]
  refine Finset.sum_congr rfl fun r _ => ?_
  have hk := contrEquiv1_symm_val dot_S4096x4096_S4096x64_S4096x64_1_0_0_1_n_n 4096 rfl rfl r
  -- the two operand indices at contraction coordinate `r` are `(b, r)` and `(r, k)`
  have el : dot_S4096x4096_S4096x64_S4096x64_1_0_0_1_n_n.lhsIdx (ix2 b k)
      ((contrEquiv1 dot_S4096x4096_S4096x64_S4096x64_1_0_0_1_n_n 4096 rfl rfl).symm r) = ix2 b r :=
    funext fun a => Fin.ext (by
      match a with
      | ⟨0, _⟩ => exact lhs_aff_0 _ _
      | ⟨1, _⟩ => exact (lhs_aff_1 _ _).trans hk)
  have er : dot_S4096x4096_S4096x64_S4096x64_1_0_0_1_n_n.rhsIdx (ix2 b k)
      ((contrEquiv1 dot_S4096x4096_S4096x64_S4096x64_1_0_0_1_n_n 4096 rfl rfl).symm r) = ix2 r k :=
    funext fun a => Fin.ext (by
      match a with
      | ⟨0, _⟩ => exact (rhs_aff_0 _ _).trans hk
      | ⟨1, _⟩ => exact rhs_aff_1 _ _)
  rw [el, er]

end Cert.ReferenceIdeal.LayerValue

end
-- ==== Proof.Finite.lean ====
/-
  The precondition says every entry of every argument is finite: for each argument, "all entries have absolute
  value below +∞", the sixteen facts joined by `and`.  Read at the first two arguments (the two modalities the
  pooling stage multiplies) it gives: every entry is neither `+∞` nor `-∞`.
-/
import proofs.«105735_g86071144612153_cont_sun_m_685_12_alg».proof.Defs
import proofs.«105735_g86071144612153_cont_sun_m_685_12_alg».proof.Proof.Gen.KernelIdeal
import proofs.«105735_g86071144612153_cont_sun_m_685_12_alg».proof.Proof.Gen.Pre_finite_inputs
import Idealize.ShloMosaic.Lib.ValueIdx
import Idealize.ShloMosaic.Lib.ReduceAll

noncomputable section

namespace Cert.Proof.Finite

open Idealize.ShloMosaic Idealize.SL.Sem Idealize.ShloMosaic.ValueIdx

/-- Every entry is neither `+∞` nor `-∞`. -/
def AllFinite (x : FVec Ideal (⟨2, ![4096, 64]⟩ : Shape) .f32) : Prop := ∀ i, x i ≠ ⊤ ∧ x i ≠ ⊥

/-- The result of a full reduction has one index. -/
private instance : Subsingleton Cert.Pre_finite_inputs.S_.Idx := ⟨fun a b => funext fun d => d.elim0⟩

/-- The bound every entry is compared with is `+∞`. -/
private theorem bound_eq_top : Ideal.ofBits .f32 0x7F800000#32 = (⊤ : EReal) := by
  simp [Ideal.ofBits, Ideal.ieee]

/-- An extended real whose absolute value `max x (-x)` is below `+∞` is neither infinity. -/
private theorem finite_of_abs_lt (x : EReal)
    (h : Ideal.cmp .olt (max x (-x)) (Ideal.ofBits .f32 0x7F800000#32) = 1#1) : x ≠ ⊤ ∧ x ≠ ⊥ := by
  rw [bound_eq_top] at h
  induction x using EReal.rec with
  | bot => simp [Ideal.cmp] at h
  | coe r => exact ⟨EReal.coe_ne_top r, EReal.coe_ne_bot r⟩
  | top => simp [Ideal.cmp] at h

/-- A conjunction of two one-bit arrays that is `1` at an index has its left operand `1` there. -/
private theorem andi_left {s : Shape} (a b : IVec s 1) (i : s.Idx) (h : andi a b i = 1#1) : a i = 1#1 :=
  (IntOp.andi_eq_one.1 h).1

/-- Under the precondition the first two arguments hold finite numbers. -/
theorem finite_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    AllFinite (m ((c.tc : Thread Cert.KernelIdeal.nD Cert.KernelIdeal.τ).loc Cert.KernelIdeal.main_arg0))
    ∧ AllFinite (m ((c.tc : Thread Cert.KernelIdeal.nD Cert.KernelIdeal.τ).loc Cert.KernelIdeal.main_arg1)) := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  -- the sixteen facts are joined to the left: the fact for the first two arguments is the innermost left operand
  have e01 := andi_left _ _ _ (andi_left _ _ _ (andi_left _ _ _ (andi_left _ _ _ (andi_left _ _ _
    (andi_left _ _ _ (andi_left _ _ _ (andi_left _ _ _ (andi_left _ _ _ (andi_left _ _ _ (andi_left _ _ _
    (andi_left _ _ _ (andi_left _ _ _ (andi_left _ _ _ e)))))))))))))
  obtain ⟨e0, e1⟩ := IntOp.andi_eq_one.1 e01
  -- "all entries have absolute value below the bound" gives it at each entry
  exact ⟨fun i => finite_of_abs_lt _ (Host.reduce_andi_all _ _ _ _ _ e0 i),
    fun i => finite_of_abs_lt _ (Host.reduce_andi_all _ _ _ _ _ e1 i)⟩

end Cert.Proof.Finite

end
-- ==== Proof.lean ====
/-
  The certificate's claim.  Both idealized programs compute, over the extended reals, the function `Spec.final`
  of the sixteen arguments: per row and feature the largest entry of a softmax of scaled outer-product scores
  (the reciprocal of the softmax's denominator, for finite scores), then three layers "affine map, batch
  normalisation over the 4096 rows, positive part" with a 4096 × 4096 affinity product before the second and the
  third.  The kernel program's result is the last region's output array, read back through the regions and the
  host transposes to the arguments; the reference's result is its straight-line run, stage by stage.  The two
  agree once the arguments agree; only the softmax step uses that the first two arguments are finite.
  The kernel programs' frames are the generated launches; the reference's frame is its run with the result dropped.
  The idealization rewrote no operation, so there is nothing to preserve.
-/
import proofs.«105735_g86071144612153_cont_sun_m_685_12_alg».proof.Defs
import proofs.«105735_g86071144612153_cont_sun_m_685_12_alg».proof.Proof.Gen.Kernel
import proofs.«105735_g86071144612153_cont_sun_m_685_12_alg».proof.Proof.Gen.Kernel.Frame
import proofs.«105735_g86071144612153_cont_sun_m_685_12_alg».proof.Proof.Gen.KernelIdeal
import proofs.«105735_g86071144612153_cont_sun_m_685_12_alg».proof.Proof.Gen.KernelIdeal.Frame
import proofs.«105735_g86071144612153_cont_sun_m_685_12_alg».proof.Proof.Gen.ReferenceIdeal
import proofs.«105735_g86071144612153_cont_sun_m_685_12_alg».proof.Proof.Gen.Pre_finite_inputs
import proofs.«105735_g86071144612153_cont_sun_m_685_12_alg».proof.Proof.Spec
import proofs.«105735_g86071144612153_cont_sun_m_685_12_alg».proof.Proof.KRun
import proofs.«105735_g86071144612153_cont_sun_m_685_12_alg».proof.Proof.KVal
import proofs.«105735_g86071144612153_cont_sun_m_685_12_alg».proof.Proof.RefTerm
import proofs.«105735_g86071144612153_cont_sun_m_685_12_alg».proof.Proof.RefRun
import proofs.«105735_g86071144612153_cont_sun_m_685_12_alg».proof.Proof.RefPool
import proofs.«105735_g86071144612153_cont_sun_m_685_12_alg».proof.Proof.RefLayer
import proofs.«105735_g86071144612153_cont_sun_m_685_12_alg».proof.Proof.Finite
import Idealize.ShloMosaic.Adequacy
import Idealize.ShloMosaic.Init

noncomputable section

namespace Cert.Proof

open Idealize.ShloMosaic Idealize.SL.Sem

/-- The reference's stages compose to the specification, on arguments whose first two are finite. -/
theorem stages_eq (t im : FVec Ideal Cert.ReferenceIdeal.S4096x64 .f32) (Ain Aout : FVec Ideal Cert.ReferenceIdeal.S4096x4096 .f32)
    (Wc : FVec Ideal Cert.ReferenceIdeal.S64x64 .f32) (bc gc bec : FVec Ideal Cert.ReferenceIdeal.S64 .f32)
    (W1 : FVec Ideal Cert.ReferenceIdeal.S64x64 .f32) (b1 g1 be1 : FVec Ideal Cert.ReferenceIdeal.S64 .f32)
    (W2 : FVec Ideal Cert.ReferenceIdeal.S64x64 .f32) (b2 g2 be2 : FVec Ideal Cert.ReferenceIdeal.S64 .f32)
    (ht : ∀ i, t i ≠ ⊤ ∧ t i ≠ ⊥) (him : ∀ i, im i ≠ ⊤ ∧ im i ≠ ⊥) :
    Cert.ReferenceIdeal.Stage.final (F := Ideal) t im Ain Aout Wc bc gc bec W1 b1 g1 be1 W2 b2 g2 be2
      = Cert.Spec.final t im Ain Aout Wc bc gc bec W1 b1 g1 be1 W2 b2 g2 be2 := by
  unfold Cert.ReferenceIdeal.Stage.final Cert.Spec.final
  rw [Cert.ReferenceIdeal.PoolValue.pool_eq t im ht him]
  simp only [Cert.ReferenceIdeal.LayerValue.layer_eq, Cert.ReferenceIdeal.LayerValue.aff_eq]

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun r h c =>
      have e := Cert.ReferenceIdeal.Run.arg_eq (F := Ideal) (StableHlo.launchContents m c)
      ⟨(h c _).trans e.1, (h c _).trans e.2.1, (h c _).trans e.2.2.1, (h c _).trans e.2.2.2.1,
       (h c _).trans e.2.2.2.2.1, (h c _).trans e.2.2.2.2.2.1, (h c _).trans e.2.2.2.2.2.2.1,
       (h c _).trans e.2.2.2.2.2.2.2.1, (h c _).trans e.2.2.2.2.2.2.2.2.1, (h c _).trans e.2.2.2.2.2.2.2.2.2.1,
       (h c _).trans e.2.2.2.2.2.2.2.2.2.2.1, (h c _).trans e.2.2.2.2.2.2.2.2.2.2.2.1,
       (h c _).trans e.2.2.2.2.2.2.2.2.2.2.2.2.1, (h c _).trans e.2.2.2.2.2.2.2.2.2.2.2.2.2.1,
       (h c _).trans e.2.2.2.2.2.2.2.2.2.2.2.2.2.2.1, (h c _).trans e.2.2.2.2.2.2.2.2.2.2.2.2.2.2.2⟩)
    (Cert.ReferenceIdeal.Run.run_main (F := Ideal) m ρ)

theorem preserves : Cert.preserves_Kernel_KernelIdeal := trivial

theorem algebraic : Cert.algebraic_KernelIdeal_ReferenceIdeal := by
  intro m ρ m' ρ' hpre hagree
  refine ⟨fun c => Cert.Spec.final (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Value.kernel_value m ρ c), (h c).2⟩)
      (Cert.KernelIdeal.Named.run_named (F := Ideal) m ρ)
  · refine (θ_run Cert.ReferenceIdeal.defs _ _).mono (fun r h c => ?_)
      (Cert.ReferenceIdeal.Run.run_main (F := Ideal) m' ρ')
    have e := Cert.ReferenceIdeal.Run.arg_eq (F := Ideal) (StableHlo.launchContents m' c)
    have hfin := Cert.Proof.Finite.finite_of_pre m hpre c
    obtain ⟨a0, a1, a2, a3, a4, a5, a6, a7, a8, a9, a10, a11, a12, a13, a14, a15⟩ := hagree c
    refine ⟨?_, (h c _).trans e.1, (h c _).trans e.2.1, (h c _).trans e.2.2.1, (h c _).trans e.2.2.2.1,
       (h c _).trans e.2.2.2.2.1, (h c _).trans e.2.2.2.2.2.1, (h c _).trans e.2.2.2.2.2.2.1,
       (h c _).trans e.2.2.2.2.2.2.2.1, (h c _).trans e.2.2.2.2.2.2.2.2.1, (h c _).trans e.2.2.2.2.2.2.2.2.2.1,
       (h c _).trans e.2.2.2.2.2.2.2.2.2.2.1, (h c _).trans e.2.2.2.2.2.2.2.2.2.2.2.1,
       (h c _).trans e.2.2.2.2.2.2.2.2.2.2.2.2.1, (h c _).trans e.2.2.2.2.2.2.2.2.2.2.2.2.2.1,
       (h c _).trans e.2.2.2.2.2.2.2.2.2.2.2.2.2.2.1, (h c _).trans e.2.2.2.2.2.2.2.2.2.2.2.2.2.2.2⟩
    refine (h c _).trans ((Cert.ReferenceIdeal.Run.out_eq (F := Ideal) (StableHlo.launchContents m' c)).trans ?_)
    show Cert.ReferenceIdeal.Stage.final (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        (m' ((c.tc : Thread Cert.ReferenceIdeal.nD Cert.ReferenceIdeal.τ).loc Cert.ReferenceIdeal.main_arg14))
        (m' ((c.tc : Thread Cert.ReferenceIdeal.nD Cert.ReferenceIdeal.τ).loc Cert.ReferenceIdeal.main_arg15)) = _
    rw [a0, a1, a2, a3, a4, a5, a6, a7, a8, a9, a10, a11, a12, a13, a14, a15]
    exact stages_eq _ _ _ _ _ _ _ _ _ _ _ _ _ _ _ _ hfin.1 hfin.2

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
